-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512 : Shape := ⟨1, ![512]⟩
abbrev S512x512 : Shape := ⟨2, ![512, 512]⟩
abbrev S512x512x512 : Shape := ⟨3, ![512, 512, 512]⟩
abbrev S1000000 : Shape := ⟨1, ![1000000]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel
  bcast_S_S512x512 : S_.BroadcastsInDim S512x512 (![] : Fin 0 → Fin S512x512.rank)
  reducesTo_S512x512_S_d0_1 : S512x512.ReducesTo [0, 1] S_
  bcast_S_S512x512x512 : S_.BroadcastsInDim S512x512x512 (![] : Fin 0 → Fin S512x512x512.rank)
  reducesTo_S512x512x512_S_d0_1_2 : S512x512x512.ReducesTo [0, 1, 2] S_
  bcast_S_S1000000 : S_.BroadcastsInDim S1000000 (![] : Fin 0 → Fin S1000000.rank)
  reducesTo_S1000000_S_d0 : S1000000.ReducesTo [0] S_

variable [Facts]

def fn_part1 {F : FTy → Type} [FloatOps F] (main_v13 : IVec S_ 1) (main_v15 : IVec S1000000 1) (main_c_5 : IVec S_ 1) : IVec S_ 1 :=
  let main_v16 : IVec S_ 1 := (fun x v => Host.reduce IntOp.andi x v reducesTo_S1000000_S_d0 h_S_) main_v15 main_c_5
  let main_v17 : IVec S_ 1 := andi main_v13 main_v16
  main_v17

def fn {F : FTy → Type} [FloatOps F] (main_arg0 : FVec F S512 .f32) (main_arg1 : FVec F S512x512 .f32) (main_arg2 : FVec F S512x512x512 .f32) (main_arg3 : IVec S1000000 32) : IVec S_ 1 :=
  let main_v0 : FVec F S512 .f32 := Host.absf main_arg0
  let main_cst : FVec F S_ .f32 := constant S_ .f32 0x7F800000#32
  let main_v1 : FVec F S512 .f32 := broadcastInDim S512 ![] bcast_S_S512 main_cst
  let main_v2 : IVec S512 1 := cmpf .olt main_v0 main_v1
  let main_c : IVec S_ 1 := constantI S_ 1 1#1
  let main_v3 : IVec S_ 1 := (fun x v => Host.reduce IntOp.andi x v reducesTo_S512_S_d0 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512x512 .f32 := Host.absf main_arg2
  let main_cst_2 : FVec F S_ .f32 := constant S_ .f32 0x7F800000#32
  let main_v10 : FVec F S512x512x512 .f32 := broadcastInDim S512x512x512 ![] bcast_S_S512x512x512 main_cst_2
  let main_v11 : IVec S512x512x512 1 := cmpf .olt main_v9 main_v10
  let main_c_3 : IVec S_ 1 := constantI S_ 1 1#1
  let main_v12 : IVec S_ 1 := (fun x v => Host.reduce IntOp.andi x v reducesTo_S512x512x512_S_d0_1_2 h_S_) main_v11 main_c_3
  let main_v13 : IVec S_ 1 := andi main_v8 main_v12
  let main_c_4 : IVec S_ 32 := constantI S_ 32 0#32
  let main_v14 : IVec S1000000 32 := broadcastInDim S1000000 ![] bcast_S_S1000000 main_c_4
  let main_v15 : IVec S1000000 1 := cmpi .sge main_arg3 main_v14
  let main_c_5 : IVec S_ 1 := constantI S_ 1 1#1
  fn_part1 (F := F) main_v13 main_v15 main_c_5
-- ==== Kernel.lean ====
abbrev S512 : Shape := ⟨1, ![512]⟩
abbrev S512x512 : Shape := ⟨2, ![512, 512]⟩
abbrev S512x512x512 : Shape := ⟨3, ![512, 512, 512]⟩
abbrev S1000000 : Shape := ⟨1, ![1000000]⟩
abbrev S_ : Shape := ⟨0, ![]⟩
abbrev S3520 : Shape := ⟨1, ![3520]⟩
abbrev S1003520 : Shape := ⟨1, ![1003520]⟩
abbrev S4096 : Shape := ⟨1, ![4096]⟩
abbrev S1x512 : Shape := ⟨2, ![1, 512]⟩
abbrev S4096x1 : Shape := ⟨2, ![4096, 1]⟩
abbrev S4096x512 : Shape := ⟨2, ![4096, 512]⟩
abbrev S999999 : Shape := ⟨1, ![999999]⟩
abbrev S3521 : Shape := ⟨1, ![3521]⟩
abbrev S999998 : Shape := ⟨1, ![999998]⟩
abbrev S1474 : Shape := ⟨1, ![1474]⟩
abbrev S1001472 : Shape := ⟨1, ![1001472]⟩
abbrev S2048 : Shape := ⟨1, ![2048]⟩
abbrev S8x512x512 : Shape := ⟨3, ![8, 512, 512]⟩
abbrev S1x8 : Shape := ⟨2, ![1, 8]⟩
abbrev S8 : Shape := ⟨1, ![8]⟩
abbrev S2048x1 : Shape := ⟨2, ![2048, 1]⟩
abbrev S2048x8 : Shape := ⟨2, ![2048, 8]⟩
abbrev S2048x512 : Shape := ⟨2, ![2048, 512]⟩
abbrev S1x512x512 : Shape := ⟨3, ![1, 512, 512]⟩

abbrev nBuf : Space → Nat
  | .hbm => 33
  | .vmem => 16
  | .smem => 0
  | _ => 0

abbrev bufTy : (tb : Table) → Fin (tcTables nBuf tb) → BufTy
  | .hbm, ⟨0, _⟩ => ⟨S512, .f32⟩
  | .hbm, ⟨1, _⟩ => ⟨S512x512, .f32⟩
  | .hbm, ⟨2, _⟩ => ⟨S512x512x512, .f32⟩
  | .hbm, ⟨3, _⟩ => ⟨S1000000, .i32⟩
  | .hbm, ⟨4, _⟩ => ⟨S_, .i32⟩
  | .hbm, ⟨5, _⟩ => ⟨S3520, .i32⟩
  | .hbm, ⟨6, _⟩ => ⟨S1003520, .i32⟩
  | .hbm, ⟨7, _⟩ => ⟨S512, .f32⟩
  | .hbm, ⟨8, _⟩ => ⟨S999999, .i32⟩
  | .hbm, ⟨9, _⟩ => ⟨S999999, .i32⟩
  | .hbm, ⟨10, _⟩ => ⟨S_, .i32⟩
  | .hbm, ⟨11, _⟩ => ⟨S3521, .i32⟩
  | .hbm, ⟨12, _⟩ => ⟨S1003520, .i32⟩
  | .hbm, ⟨13, _⟩ => ⟨S_, .i32⟩
  | .hbm, ⟨14, _⟩ => ⟨S3521, .i32⟩
  | .hbm, ⟨15, _⟩ => ⟨S1003520, .i32⟩
  | .hbm, ⟨16, _⟩ => ⟨S512x512, .f32⟩
  | .hbm, ⟨17, _⟩ => ⟨S999998, .i32⟩
  | .hbm, ⟨18, _⟩ => ⟨S999998, .i32⟩
  | .hbm, ⟨19, _⟩ => ⟨S999998, .i32⟩
  | .hbm, ⟨20, _⟩ => ⟨S_, .i32⟩
  | .hbm, ⟨21, _⟩ => ⟨S1474, .i32⟩
  | .hbm, ⟨22, _⟩ => ⟨S1001472, .i32⟩
  | .hbm, ⟨23, _⟩ => ⟨S_, .i32⟩
  | .hbm, ⟨24, _⟩ => ⟨S1474, .i32⟩
  | .hbm, ⟨25, _⟩ => ⟨S1001472, .i32⟩
  | .hbm, ⟨26, _⟩ => ⟨S_, .i32⟩
  | .hbm, ⟨27, _⟩ => ⟨S1474, .i32⟩
  | .hbm, ⟨28, _⟩ => ⟨S1001472, .i32⟩
  | .hbm, ⟨29, _⟩ => ⟨S512x512x512, .f32⟩
  | .hbm, ⟨30, _⟩ => ⟨S512, .f32⟩
  | .hbm, ⟨31, _⟩ => ⟨S512x512, .f32⟩
  | .hbm, ⟨32, _⟩ => ⟨S512x512x512, .f32⟩
  | .local _ .vmem, ⟨0, _⟩ => ⟨S4096, .i32⟩
  | .local _ .vmem, ⟨1, _⟩ => ⟨S4096, .i32⟩
  | .local _ .vmem, ⟨2, _⟩ => ⟨S512, .f32⟩
  | .local _ .vmem, ⟨3, _⟩ => ⟨S4096, .i32⟩
  | .local _ .vmem, ⟨4, _⟩ => ⟨S4096, .i32⟩
  | .local _ .vmem, ⟨5, _⟩ => ⟨S4096, .i32⟩
  | .local _ .vmem, ⟨6, _⟩ => ⟨S4096, .i32⟩
  | .local _ .vmem, ⟨7, _⟩ => ⟨S512x512, .f32⟩
  | .local _ .vmem, ⟨8, _⟩ => ⟨S2048, .i32⟩
  | .local _ .vmem, ⟨9, _⟩ => ⟨S2048, .i32⟩
  | .local _ .vmem, ⟨10, _⟩ => ⟨S2048, .i32⟩
  | .local _ .vmem, ⟨11, _⟩ => ⟨S2048, .i32⟩
  | .local _ .vmem, ⟨12, _⟩ => ⟨S2048, .i32⟩
  | .local _ .vmem, ⟨13, _⟩ => ⟨S2048, .i32⟩
  | .local _ .vmem, ⟨14, _⟩ => ⟨S8x512x512, .f32⟩
  | .local _ .vmem, ⟨15, _⟩ => ⟨S8x512x512, .f32⟩
  | _, _ => ⟨S512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![245], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![245], ![false]⟩

def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨2, ![64, 489], ![false, false]⟩

def cc2_transform_0 (i : grid2.Coords) : Fin 1 → Nat :=
  let arg0 : BitVec 32 := BitVec.ofNat 32 (i 0).val
  let arg1 : BitVec 32 := BitVec.ofNat 32 (i 1).val
  let c0_i32 : BitVec 32 := 0#32
  ![arg1.toNat]

def cc2_transform_1 (i : grid2.Coords) : Fin 1 → Nat :=
  let arg0 : BitVec 32 := BitVec.ofNat 32 (i 0).val
  let arg1 : BitVec 32 := BitVec.ofNat 32 (i 1).val
  let c0_i32 : BitVec 32 := 0#32
  ![arg1.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  ![arg1.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2048 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2048 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S8x512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  bcast_S_S3520 : S_.BroadcastsInDim S3520 (![] : Fin 0 → Fin S3520.rank)
  concatenates_S1000000_S3520_S1003520_d0 : Shape.Concatenates [S1000000, S3520] S1003520 0
  inb_S512_S512_0 : ∀ a, (![0] : Fin 1 → Nat) a + S512.size a ≤ S512.size a
  h_S512 : 0 < S512.numel
  inb_S4096_S4096_0 : ∀ a, (![0] : Fin 1 → Nat) a + S4096.size a ≤ S4096.size a
  h_S4096 : 0 < S4096.numel
  shapeCasts_S4096_S4096 : S4096.ShapeCasts S4096
  iota_S1x512_d1_w32 : S1x512.Iotas .tc 32 [1]
  shapeCasts_S1x512_S512 : S1x512.ShapeCasts S512
  shapeCasts_S4096_S4096x1 : S4096.ShapeCasts S4096x1
  shapeCasts_S512_S1x512 : S512.ShapeCasts S1x512
  broadcasts_S4096x1_S4096x512 : S4096x1.Broadcasts S4096x512
  broadcasts_S1x512_S4096x512 : S1x512.Broadcasts S4096x512
  natLt_1_32 : 1 < 32
  shapeCasts_S512_S512 : S512.ShapeCasts S512
  reduces_S4096x512_S512 : S4096x512.Reduces [0] S512
  slices_S1000000_S999999_0 : S1000000.Slices ![0] S999999
  slices_S1000000_S999999_1 : S1000000.Slices ![1] S999999
  bcast_S_S3521 : S_.BroadcastsInDim S3521 (![] : Fin 0 → Fin S3521.rank)
  concatenates_S999999_S3521_S1003520_d0 : Shape.Concatenates [S999999, S3521] S1003520 0
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  shapeCasts_S512x512_S512x512 : S512x512.ShapeCasts S512x512
  slices_S1000000_S999998_0 : S1000000.Slices ![0] S999998
  slices_S1000000_S999998_1 : S1000000.Slices ![1] S999998
  slices_S1000000_S999998_2 : S1000000.Slices ![2] S999998
  bcast_S_S1474 : S_.BroadcastsInDim S1474 (![] : Fin 0 → Fin S1474.rank)
  concatenates_S999998_S1474_S1001472_d0 : Shape.Concatenates [S999998, S1474] S1001472 0
  inb_S8x512x512_S8x512x512_0_0_0 : ∀ a, (![0, 0, 0] : Fin 3 → Nat) a + S8x512x512.size a ≤ S8x512x512.size a
  h_S8x512x512 : 0 < S8x512x512.numel
  inb_S2048_S2048_0 : ∀ a, (![0] : Fin 1 → Nat) a + S2048.size a ≤ S2048.size a
  h_S2048 : 0 < S2048.numel
  shapeCasts_S2048_S2048 : S2048.ShapeCasts S2048
  iota_S1x8_d1_w32 : S1x8.Iotas .tc 32 [1]
  shapeCasts_S1x8_S8 : S1x8.ShapeCasts S8
  shapeCasts_S2048_S2048x1 : S2048.ShapeCasts S2048x1
  shapeCasts_S8_S1x8 : S8.ShapeCasts S1x8
  broadcasts_S2048x1_S2048x8 : S2048x1.Broadcasts S2048x8
  broadcasts_S1x8_S2048x8 : S1x8.Broadcasts S2048x8
  broadcasts_S2048x1_S2048x512 : S2048x1.Broadcasts S2048x512
  broadcasts_S1x512_S2048x512 : S1x512.Broadcasts S2048x512
  slices_S2048x8_o0_0_S2048x1 : S2048x8.Slices ![0, 0] S2048x1
  inb_S8x512x512_S1x512x512_0_0_0 : ∀ a, (![0, 0, 0] : Fin 3 → Nat) a + S1x512x512.size a ≤ S8x512x512.size a
  h_S1x512x512 : 0 < S1x512x512.numel
  shapeCasts_S1x512x512_S512x512 : S1x512x512.ShapeCasts S512x512
  shapeCasts_S512x512_S1x512x512 : S512x512.ShapeCasts S1x512x512
  slices_S2048x8_o0_1_S2048x1 : S2048x8.Slices ![0, 1] S2048x1
  inb_S8x512x512_S1x512x512_1_0_0 : ∀ a, (![1, 0, 0] : Fin 3 → Nat) a + S1x512x512.size a ≤ S8x512x512.size a
  slices_S2048x8_o0_2_S2048x1 : S2048x8.Slices ![0, 2] S2048x1
  inb_S8x512x512_S1x512x512_2_0_0 : ∀ a, (![2, 0, 0] : Fin 3 → Nat) a + S1x512x512.size a ≤ S8x512x512.size a
  slices_S2048x8_o0_3_S2048x1 : S2048x8.Slices ![0, 3] S2048x1
  inb_S8x512x512_S1x512x512_3_0_0 : ∀ a, (![3, 0, 0] : Fin 3 → Nat) a + S1x512x512.size a ≤ S8x512x512.size a
  slices_S2048x8_o0_4_S2048x1 : S2048x8.Slices ![0, 4] S2048x1
  inb_S8x512x512_S1x512x512_4_0_0 : ∀ a, (![4, 0, 0] : Fin 3 → Nat) a + S1x512x512.size a ≤ S8x512x512.size a
  slices_S2048x8_o0_5_S2048x1 : S2048x8.Slices ![0, 5] S2048x1
  inb_S8x512x512_S1x512x512_5_0_0 : ∀ a, (![5, 0, 0] : Fin 3 → Nat) a + S1x512x512.size a ≤ S8x512x512.size a
  slices_S2048x8_o0_6_S2048x1 : S2048x8.Slices ![0, 6] S2048x1
  inb_S8x512x512_S1x512x512_6_0_0 : ∀ a, (![6, 0, 0] : Fin 3 → Nat) a + S1x512x512.size a ≤ S8x512x512.size a
  slices_S2048x8_o0_7_S2048x1 : S2048x8.Slices ![0, 7] S2048x1
  inb_S8x512x512_S1x512x512_7_0_0 : ∀ a, (![7, 0, 0] : Fin 3 → Nat) a + S1x512x512.size a ≤ S8x512x512.size a
  dot_S4096x512_S4096x512_S512x512_0_0_1_1_n_n_wf : DotDims.WF S4096x512 S4096x512 S512x512 [0] [0] [1] [1] [] []
  dot_S2048x512_S2048x512_S512x512_0_0_1_1_n_n_wf : DotDims.WF S2048x512 S2048x512 S512x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096.size a ≤ S1003520.size a
  hwx0_0 : ∀ i : grid0.Coords, EltTy.bits .i32 = 32 ∨ (Rect.block (s := S1003520) S4096.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S512.size a
  hwx0_1 : ∀ i : grid0.Coords, EltTy.bits .f32 = 32 ∨ (Rect.block (s := S512) S512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096.size a ≤ S1003520.size a
  hwx1_0 : ∀ i : grid1.Coords, EltTy.bits .i32 = 32 ∨ (Rect.block (s := S1003520) S4096.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096.size a ≤ S1003520.size a
  hwx1_1 : ∀ i : grid1.Coords, EltTy.bits .i32 = 32 ∨ (Rect.block (s := S1003520) S4096.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048.size a ≤ S1001472.size a
  hwx2_0 : ∀ i : grid2.Coords, EltTy.bits .i32 = 32 ∨ (Rect.block (s := S1001472) S2048.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048.size a ≤ S1001472.size a
  hwx2_1 : ∀ i : grid2.Coords, EltTy.bits .i32 = 32 ∨ (Rect.block (s := S1001472) S2048.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048.size a ≤ S1001472.size a
  hwx2_2 : ∀ i : grid2.Coords, EltTy.bits .i32 = 32 ∨ (Rect.block (s := S1001472) S2048.size (cc2_transform_2 i) (hinb2_2 i)).WholeWords (EltTy.packing .i32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8x512x512.size a ≤ S512x512x512.size a
  hwx2_3 : ∀ i : grid2.Coords, EltTy.bits .f32 = 32 ∨ (Rect.block (s := S512x512x512) S8x512x512.size (cc2_transform_3 i) (hinb2_3 i)).WholeWords (EltTy.packing .f32)

variable [Facts₀]

def dot_S4096x512_S4096x512_S512x512_0_0_1_1_n_n : DotDims S4096x512 S4096x512 S512x512 where
  lhsContracting := [0]
  rhsContracting := [0]
  lhsNonContracting := [1]
  rhsNonContracting := [1]
  lhsBatch := []
  rhsBatch := []
  wf := dot_S4096x512_S4096x512_S512x512_0_0_1_1_n_n_wf
def dot_S2048x512_S2048x512_S512x512_0_0_1_1_n_n : DotDims S2048x512 S2048x512 S512x512 where
  lhsContracting := [0]
  rhsContracting := [0]
  lhsNonContracting := [1]
  rhsNonContracting := [1]
  lhsBatch := []
  rhsBatch := []
  wf := dot_S2048x512_S2048x512_S512x512_0_0_1_1_n_n_wf

abbrev win0_0 : Pipeline.Window sig grid0 :=
  Pipeline.Window.ofSpec (Memref.whole main_v1) S4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v6) S4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S512x512.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v14) S2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v19) S8x512x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S512 : Shape := ⟨1, ![512]⟩
abbrev S512x512 : Shape := ⟨2, ![512, 512]⟩
abbrev S512x512x512 : Shape := ⟨3, ![512, 512, 512]⟩
abbrev S1000000 : Shape := ⟨1, ![1000000]⟩
abbrev S_ : Shape := ⟨0, ![]⟩
abbrev S1000000x1 : Shape := ⟨2, ![1000000, 1]⟩
abbrev S999999 : Shape := ⟨1, ![999999]⟩
abbrev S999999x1 : Shape := ⟨2, ![999999, 1]⟩
abbrev S999999x2 : Shape := ⟨2, ![999999, 2]⟩
abbrev S999998 : Shape := ⟨1, ![999998]⟩
abbrev S999998x1 : Shape := ⟨2, ![999998, 1]⟩
abbrev S999998x3 : Shape := ⟨2, ![999998, 3]⟩

abbrev nBuf : Space → Nat
  | .hbm => 68
  | .vmem => 0
  | .smem => 0
  | _ => 0

abbrev bufTy : (tb : Table) → Fin (tcTables nBuf tb) → BufTy
  | .hbm, ⟨0, _⟩ => ⟨S512, .f32⟩
  | .hbm, ⟨1, _⟩ => ⟨S512x512, .f32⟩
  | .hbm, ⟨2, _⟩ => ⟨S512x512x512, .f32⟩
  | .hbm, ⟨3, _⟩ => ⟨S1000000, .i32⟩
  | .hbm, ⟨4, _⟩ => ⟨S_, .i32⟩
  | .hbm, ⟨5, _⟩ => ⟨S1000000, .i32⟩
  | .hbm, ⟨6, _⟩ => ⟨S1000000, .i1⟩
  | .hbm, ⟨7, _⟩ => ⟨S_, .i32⟩
  | .hbm, ⟨8, _⟩ => ⟨S1000000, .i32⟩
  | .hbm, ⟨9, _⟩ => ⟨S1000000, .i32⟩
  | .hbm, ⟨10, _⟩ => ⟨S1000000, .i32⟩
  | .hbm, ⟨11, _⟩ => ⟨S1000000x1, .i32⟩
  | .hbm, ⟨12, _⟩ => ⟨S_, .f32⟩
  | .hbm, ⟨13, _⟩ => ⟨S1000000, .f32⟩
  | .hbm, ⟨14, _⟩ => ⟨S512, .f32⟩
  | .hbm, ⟨15, _⟩ => ⟨S999999, .i32⟩
  | .hbm, ⟨16, _⟩ => ⟨S999999, .i32⟩
  | .hbm, ⟨17, _⟩ => ⟨S_, .i32⟩
  | .hbm, ⟨18, _⟩ => ⟨S999999, .i32⟩
  | .hbm, ⟨19, _⟩ => ⟨S999999, .i1⟩
  | .hbm, ⟨20, _⟩ => ⟨S_, .i32⟩
  | .hbm, ⟨21, _⟩ => ⟨S999999, .i32⟩
  | .hbm, ⟨22, _⟩ => ⟨S999999, .i32⟩
  | .hbm, ⟨23, _⟩ => ⟨S999999, .i32⟩
  | .hbm, ⟨24, _⟩ => ⟨S_, .i32⟩
  | .hbm, ⟨25, _⟩ => ⟨S999999, .i32⟩
  | .hbm, ⟨26, _⟩ => ⟨S999999, .i1⟩
  | .hbm, ⟨27, _⟩ => ⟨S_, .i32⟩
  | .hbm, ⟨28, _⟩ => ⟨S999999, .i32⟩
  | .hbm, ⟨29, _⟩ => ⟨S999999, .i32⟩
  | .hbm, ⟨30, _⟩ => ⟨S999999, .i32⟩
  | .hbm, ⟨31, _⟩ => ⟨S999999x1, .i32⟩
  | .hbm, ⟨32, _⟩ => ⟨S999999x1, .i32⟩
  | .hbm, ⟨33, _⟩ => ⟨S999999x2, .i32⟩
  | .hbm, ⟨34, _⟩ => ⟨S_, .f32⟩
  | .hbm, ⟨35, _⟩ => ⟨S999999, .f32⟩
  | .hbm, ⟨36, _⟩ => ⟨S512x512, .f32⟩
  | .hbm, ⟨37, _⟩ => ⟨S999998, .i32⟩
  | .hbm, ⟨38, _⟩ => ⟨S999998, .i32⟩
  | .hbm, ⟨39, _⟩ => ⟨S999998, .i32⟩
  | .hbm, ⟨40, _⟩ => ⟨S_, .i32⟩
  | .hbm, ⟨41, _⟩ => ⟨S999998, .i32⟩
  | .hbm, ⟨42, _⟩ => ⟨S999998, .i1⟩
  | .hbm, ⟨43, _⟩ => ⟨S_, .i32⟩
  | .hbm, ⟨44, _⟩ => ⟨S999998, .i32⟩
  | .hbm, ⟨45, _⟩ => ⟨S999998, .i32⟩
  | .hbm, ⟨46, _⟩ => ⟨S999998, .i32⟩
  | .hbm, ⟨47, _⟩ => ⟨S_, .i32⟩
  | .hbm, ⟨48, _⟩ => ⟨S999998, .i32⟩
  | .hbm, ⟨49, _⟩ => ⟨S999998, .i1⟩
  | .hbm, ⟨50, _⟩ => ⟨S_, .i32⟩
  | .hbm, ⟨51, _⟩ => ⟨S999998, .i32⟩
  | .hbm, ⟨52, _⟩ => ⟨S999998, .i32⟩
  | .hbm, ⟨53, _⟩ => ⟨S999998, .i32⟩
  | .hbm, ⟨54, _⟩ => ⟨S_, .i32⟩
  | .hbm, ⟨55, _⟩ => ⟨S999998, .i32⟩
  | .hbm, ⟨56, _⟩ => ⟨S999998, .i1⟩
  | .hbm, ⟨57, _⟩ => ⟨S_, .i32⟩
  | .hbm, ⟨58, _⟩ => ⟨S999998, .i32⟩
  | .hbm, ⟨59, _⟩ => ⟨S999998, .i32⟩
  | .hbm, ⟨60, _⟩ => ⟨S999998, .i32⟩
  | .hbm, ⟨61, _⟩ => ⟨S999998x1, .i32⟩
  | .hbm, ⟨62, _⟩ => ⟨S999998x1, .i32⟩
  | .hbm, ⟨63, _⟩ => ⟨S999998x1, .i32⟩
  | .hbm, ⟨64, _⟩ => ⟨S999998x3, .i32⟩
  | .hbm, ⟨65, _⟩ => ⟨S_, .f32⟩
  | .hbm, ⟨66, _⟩ => ⟨S999998, .f32⟩
  | .hbm, ⟨67, _⟩ => ⟨S512x512x512, .f32⟩
  | _, _ => ⟨S512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_c_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_8 : Ref sig .tc := ⟨.hbm, 47, rfl⟩
abbrev main_v33 : Ref sig .tc := ⟨.hbm, 48, rfl⟩
abbrev main_v34 : Ref sig .tc := ⟨.hbm, 49, rfl⟩
abbrev main_c_9 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_10 : Ref sig .tc := ⟨.hbm, 54, rfl⟩
abbrev main_v38 : Ref sig .tc := ⟨.hbm, 55, rfl⟩
abbrev main_v39 : Ref sig .tc := ⟨.hbm, 56, rfl⟩
abbrev main_c_11 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_12 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S1000000_S999999_0 : S1000000.Slices ![0] S999999
  slices_S1000000_S999999_1 : S1000000.Slices ![1] S999999
  bcast_S_S999999 : S_.BroadcastsInDim S999999 (![] : Fin 0 → Fin S999999.rank)
  bcast_S999999_S999999x1_0 : S999999.BroadcastsInDim S999999x1 (![0] : Fin 1 → Fin S999999x1.rank)
  concatenates_S999999x1_S999999x1_S999999x2_d1 : Shape.Concatenates [S999999x1, S999999x1] S999999x2 1
  slices_S1000000_S999998_0 : S1000000.Slices ![0] S999998
  slices_S1000000_S999998_1 : S1000000.Slices ![1] S999998
  slices_S1000000_S999998_2 : S1000000.Slices ![2] S999998
  bcast_S_S999998 : S_.BroadcastsInDim S999998 (![] : Fin 0 → Fin S999998.rank)
  bcast_S999998_S999998x1_0 : S999998.BroadcastsInDim S999998x1 (![0] : Fin 1 → Fin S999998x1.rank)
  concatenates_S999998x1_S999998x1_S999998x1_S999998x3_d1 : Shape.Concatenates [S999998x1, S999998x1, S999998x1] S999998x3 1
  scatter_S512_S1000000x1_S1000000_n_0_0_1_wf : ScatterDims.WF S512 S1000000x1 S1000000 [] [0] [0] 1
  scatter_S512x512_S999999x2_S999999_n_01_01_1_wf : ScatterDims.WF S512x512 S999999x2 S999999 [] [0, 1] [0, 1] 1
  scatter_S512x512x512_S999998x3_S999998_n_012_012_1_wf : ScatterDims.WF S512x512x512 S999998x3 S999998 [] [0, 1, 2] [0, 1, 2] 1

variable [Facts₀]

def scatter_S512_S1000000x1_S1000000_n_0_0_1 : ScatterDims S512 S1000000x1 S1000000 where
  updateWindowDims := []
  insertedWindowDims := [0]
  scatterDimsToOperandDims := [0]
  indexVectorDim := 1
  wf := scatter_S512_S1000000x1_S1000000_n_0_0_1_wf
def scatter_S512x512_S999999x2_S999999_n_01_01_1 : ScatterDims S512x512 S999999x2 S999999 where
  updateWindowDims := []
  insertedWindowDims := [0, 1]
  scatterDimsToOperandDims := [0, 1]
  indexVectorDim := 1
  wf := scatter_S512x512_S999999x2_S999999_n_01_01_1_wf
def scatter_S512x512x512_S999998x3_S999998_n_012_012_1 : ScatterDims S512x512x512 S999998x3 S999998 where
  updateWindowDims := []
  insertedWindowDims := [0, 1, 2]
  scatterDimsToOperandDims := [0, 1, 2]
  indexVectorDim := 1
  wf := scatter_S512x512x512_S999998x3_S999998_n_012_012_1_wf

class Facts : Prop extends Facts₀ where

variable [Facts]
-- ==== Proof.Spec.lean ====
/-
  The mathematics both programs compute, stated once over plain functions of a position in the token stream.

  A token stream is a one-axis array of 32-bit words. Position `j` holds token `v` when the word there is the
  word of the natural number `v`. The unigram table counts, for each `v`, the positions holding `v`; the bigram
  table counts, for each pair `(c, t)`, the positions `j` with `c` at `j` and `t` at `j + 1`; the trigram table the
  positions with `(c0, c1, t)` at `j, j + 1, j + 2`. Each count is a finite sum of zeros and ones in the extended
  reals, so it may be cut into consecutive chunks, and positions where no token of the vocabulary can sit (a padding
  word, a position past the end) add nothing.
-/
import Idealize.ShloMosaic.PureOps.Ideal
import Idealize.ShloMosaic.Lib.ValueIdx

noncomputable section

namespace Cert.Ngram

open Idealize.ShloMosaic

/-- The word at position `j` of a one-axis array of `n` words; the zero word past its end. -/
def tokN {n : ℕ} (x : IVec (⟨1, ![n]⟩ : Shape) 32) (j : ℕ) : BitVec 32 :=
  if h : j < n then x (ValueIdx.ix1 ⟨j, h⟩) else 0#32

theorem tokN_lt {n : ℕ} (x : IVec (⟨1, ![n]⟩ : Shape) 32) {j : ℕ} (h : j < n) :
    tokN x j = x (ValueIdx.ix1 ⟨j, h⟩) := dif_pos h

/-- One when the proposition holds, zero when it does not. -/
def ind (p : Prop) [Decidable p] : EReal := if p then 1 else 0

theorem ind_true {p : Prop} [Decidable p] (h : p) : ind p = 1 := if_pos h
theorem ind_false {p : Prop} [Decidable p] (h : ¬p) : ind p = 0 := if_neg h

/-- How many of the first `n` positions hold token `v`. -/
def cnt1 (f : ℕ → BitVec 32) (n v : ℕ) : EReal :=
  ∑ j ∈ Finset.range n, ind (f j = BitVec.ofNat 32 v)

/-- How many of the first `n` positions hold `c` in the first stream and `t` in the second. -/
def cnt2 (f g : ℕ → BitVec 32) (n c t : ℕ) : EReal :=
  ∑ j ∈ Finset.range n, ind (f j = BitVec.ofNat 32 c ∧ g j = BitVec.ofNat 32 t)

/-- How many of the first `n` positions hold `c0`, `c1`, `t` in the three streams. -/
def cnt3 (f g h : ℕ → BitVec 32) (n c0 c1 t : ℕ) : EReal :=
  ∑ j ∈ Finset.range n, ind (f j = BitVec.ofNat 32 c0 ∧ g j = BitVec.ofNat 32 c1 ∧ h j = BitVec.ofNat 32 t)

/-! ## A count over `(k + 1)` chunks of `R` positions is the count over `k` chunks plus chunk `k`'s own -/

theorem cnt1_chunk (f : ℕ → BitVec 32) (R k v : ℕ) :
    cnt1 f ((k + 1) * R) v = cnt1 f (k * R) v + ∑ r ∈ Finset.range R, ind (f (k * R + r) = BitVec.ofNat 32 v) := by
  unfold cnt1; rw [Nat.succ_mul, Finset.sum_range_add]

theorem cnt2_chunk (f g : ℕ → BitVec 32) (R k c t : ℕ) :
    cnt2 f g ((k + 1) * R) c t = cnt2 f g (k * R) c t
      + ∑ r ∈ Finset.range R, ind (f (k * R + r) = BitVec.ofNat 32 c ∧ g (k * R + r) = BitVec.ofNat 32 t) := by
  unfold cnt2; rw [Nat.succ_mul, Finset.sum_range_add]

theorem cnt3_chunk (f g h : ℕ → BitVec 32) (R k c0 c1 t : ℕ) :
    cnt3 f g h ((k + 1) * R) c0 c1 t = cnt3 f g h (k * R) c0 c1 t
      + ∑ r ∈ Finset.range R, ind (f (k * R + r) = BitVec.ofNat 32 c0 ∧ g (k * R + r) = BitVec.ofNat 32 c1
          ∧ h (k * R + r) = BitVec.ofNat 32 t) := by
  unfold cnt3; rw [Nat.succ_mul, Finset.sum_range_add]

theorem cnt1_zero (f : ℕ → BitVec 32) (v : ℕ) : cnt1 f 0 v = 0 := by unfold cnt1; simp
theorem cnt2_zero (f g : ℕ → BitVec 32) (c t : ℕ) : cnt2 f g 0 c t = 0 := by unfold cnt2; simp
theorem cnt3_zero (f g h : ℕ → BitVec 32) (c0 c1 t : ℕ) : cnt3 f g h 0 c0 c1 t = 0 := by unfold cnt3; simp

/-! ## Counts depend only on the positions counted, and positions that cannot match add nothing -/

theorem cnt1_congr {f f' : ℕ → BitVec 32} {n : ℕ} (v : ℕ) (h : ∀ j, j < n → f j = f' j) : cnt1 f n v = cnt1 f' n v := by
  unfold cnt1; exact Finset.sum_congr rfl fun j hj => by rw [h j (Finset.mem_range.mp hj)]

theorem cnt2_congr {f f' g g' : ℕ → BitVec 32} {n : ℕ} (c t : ℕ) (hf : ∀ j, j < n → f j = f' j)
    (hg : ∀ j, j < n → g j = g' j) : cnt2 f g n c t = cnt2 f' g' n c t := by
  unfold cnt2; exact Finset.sum_congr rfl fun j hj => by
    rw [hf j (Finset.mem_range.mp hj), hg j (Finset.mem_range.mp hj)]

theorem cnt3_congr {f f' g g' h h' : ℕ → BitVec 32} {n : ℕ} (c0 c1 t : ℕ) (hf : ∀ j, j < n → f j = f' j)
    (hg : ∀ j, j < n → g j = g' j) (hh : ∀ j, j < n → h j = h' j) : cnt3 f g h n c0 c1 t = cnt3 f' g' h' n c0 c1 t := by
  unfold cnt3; exact Finset.sum_congr rfl fun j hj => by
    rw [hf j (Finset.mem_range.mp hj), hg j (Finset.mem_range.mp hj), hh j (Finset.mem_range.mp hj)]

/-- Positions `n ≤ j < n + p` whose word is not `v`'s add nothing to the count of `v`. -/
theorem cnt1_pad (f : ℕ → BitVec 32) (n p v : ℕ) (h : ∀ j, n ≤ j → j < n + p → f j ≠ BitVec.ofNat 32 v) :
    cnt1 f (n + p) v = cnt1 f n v := by
  unfold cnt1; rw [Finset.sum_range_add]
  rw [Finset.sum_eq_zero (fun r hr => ind_false (h (n + r) (Nat.le_add_right _ _)
    (Nat.add_lt_add_left (Finset.mem_range.mp hr) _))), add_zero]

theorem cnt2_pad (f g : ℕ → BitVec 32) (n p c t : ℕ) (h : ∀ j, n ≤ j → j < n + p → f j ≠ BitVec.ofNat 32 c) :
    cnt2 f g (n + p) c t = cnt2 f g n c t := by
  unfold cnt2; rw [Finset.sum_range_add]
  rw [Finset.sum_eq_zero (fun r hr => ind_false (fun hh => h (n + r) (Nat.le_add_right _ _)
    (Nat.add_lt_add_left (Finset.mem_range.mp hr) _) hh.1)), add_zero]

theorem cnt3_pad (f g h : ℕ → BitVec 32) (n p c0 c1 t : ℕ) (hp : ∀ j, n ≤ j → j < n + p → f j ≠ BitVec.ofNat 32 c0) :
    cnt3 f g h (n + p) c0 c1 t = cnt3 f g h n c0 c1 t := by
  unfold cnt3; rw [Finset.sum_range_add]
  rw [Finset.sum_eq_zero (fun r hr => ind_false (fun hh => hp (n + r) (Nat.le_add_right _ _)
    (Nat.add_lt_add_left (Finset.mem_range.mp hr) _) hh.1)), add_zero]

/-! ## The three tables, as functions of the running tables and the token stream -/

/-- The unigram table after the stream: each entry plus the number of positions holding its token. -/
def uniG (x : (⟨1, ![512]⟩ : Shape).Idx → EReal) (b : IVec (⟨1, ![1000000]⟩ : Shape) 32) :
    (⟨1, ![512]⟩ : Shape).Idx → EReal :=
  fun i => x i + cnt1 (tokN b) 1000000 (i 0).val

/-- The bigram table after the stream: each entry plus the number of adjacent pairs that are its pair. -/
def biG (x : (⟨2, ![512, 512]⟩ : Shape).Idx → EReal) (b : IVec (⟨1, ![1000000]⟩ : Shape) 32) :
    (⟨2, ![512, 512]⟩ : Shape).Idx → EReal :=
  fun i => x i + cnt2 (tokN b) (fun j => tokN b (j + 1)) 999999 (i 0).val (i 1).val

/-- The trigram table after the stream: each entry plus the number of adjacent triples that are its triple. -/
def triG (x : (⟨3, ![512, 512, 512]⟩ : Shape).Idx → EReal) (b : IVec (⟨1, ![1000000]⟩ : Shape) 32) :
    (⟨3, ![512, 512, 512]⟩ : Shape).Idx → EReal :=
  fun i => x i + cnt3 (tokN b) (fun j => tokN b (j + 1)) (fun j => tokN b (j + 2)) 999998 (i 0).val (i 1).val (i 2).val

/-! ## What each accumulating pass leaves: the counts over its padded streams -/

/-- The unigram pass over a padded stream of 245 chunks of 4096 words. -/
def uniK (x : IVec (⟨1, ![1003520]⟩ : Shape) 32) : (⟨1, ![512]⟩ : Shape).Idx → EReal :=
  fun i => cnt1 (tokN x) 1003520 (i 0).val

/-- The bigram pass over two padded streams of 245 chunks of 4096 words. -/
def biK (xc xt : IVec (⟨1, ![1003520]⟩ : Shape) 32) : (⟨2, ![512, 512]⟩ : Shape).Idx → EReal :=
  fun i => cnt2 (tokN xc) (tokN xt) 1003520 (i 0).val (i 1).val

/-- The trigram pass over three padded streams of 489 chunks of 2048 words. -/
def triK (x0 x1 x2 : IVec (⟨1, ![1001472]⟩ : Shape) 32) : (⟨3, ![512, 512, 512]⟩ : Shape).Idx → EReal :=
  fun i => cnt3 (tokN x0) (tokN x1) (tokN x2) 1001472 (i 0).val (i 1).val (i 2).val

end Cert.Ngram

end
-- ==== Proof.HostGlue.lean ====
import proofs.«404493_j65446711657254_1_alg».proof.Proof.Gen.KernelIdeal.Frame
import proofs.«404493_j65446711657254_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Glue

open Cert.KernelIdeal Cert.KernelIdeal.Gen

variable {F : FTy → Type} [FloatOps F]
variable (m : (ℓ : Loc nD τ sig) → Buf (Elt F) ℓ) (ρ : Dev nD → PrngReg)

/-- The padding word. -/
abbrev padWord : IVec S_ 32 := constantI S_ 32 4294967295#32

/-- A stretch of host operations leaves a buffer none of them writes as it found it. -/
local macro "skip_ops " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The token stream is never written: every boundary holds it as launched -/

theorem W1_arg3 (c : Dev nD) : W1 m ρ c (Proc.devRef .tc main_arg3) = m ((c : Thread nD τ).loc main_arg3) :=
  (show W1 m ρ c (Proc.devRef .tc main_arg3) = W0 m ρ c (Proc.devRef .tc main_arg3) by skip_ops hostOps0).trans rfl

theorem W2_arg3 (c : Dev nD) : W2 m ρ c (Proc.devRef .tc main_arg3) = m ((c : Thread nD τ).loc main_arg3) :=
  (W2_of_ne m ρ c main_arg3 (by decide)).trans (W1_arg3 m ρ c)

theorem W3_arg3 (c : Dev nD) : W3 m ρ c (Proc.devRef .tc main_arg3) = m ((c : Thread nD τ).loc main_arg3) :=
  (show W3 m ρ c (Proc.devRef .tc main_arg3) = W2 m ρ c (Proc.devRef .tc main_arg3) by skip_ops hostOps1).trans (W2_arg3 m ρ c)

theorem W4_arg3 (c : Dev nD) : W4 m ρ c (Proc.devRef .tc main_arg3) = m ((c : Thread nD τ).loc main_arg3) :=
  (W4_of_ne m ρ c main_arg3 (by decide)).trans (W3_arg3 m ρ c)

/-! ## The tables are never written before the last stretch -/

theorem W6_arg0 (c : Dev nD) : W6 m ρ c (Proc.devRef .tc main_arg0) = m ((c : Thread nD τ).loc main_arg0) :=
  (show W7 m ρ c (Proc.devRef .tc main_arg0) = W6 m ρ c (Proc.devRef .tc main_arg0) by skip_ops hostOps3).symm.trans
    (W7_main_arg0 m ρ c)

theorem W6_arg1 (c : Dev nD) : W6 m ρ c (Proc.devRef .tc main_arg1) = m ((c : Thread nD τ).loc main_arg1) :=
  (show W7 m ρ c (Proc.devRef .tc main_arg1) = W6 m ρ c (Proc.devRef .tc main_arg1) by skip_ops hostOps3).symm.trans
    (W7_main_arg1 m ρ c)

theorem W6_arg2 (c : Dev nD) : W6 m ρ c (Proc.devRef .tc main_arg2) = m ((c : Thread nD τ).loc main_arg2) :=
  (show W7 m ρ c (Proc.devRef .tc main_arg2) = W6 m ρ c (Proc.devRef .tc main_arg2) by skip_ops hostOps3).symm.trans
    (W7_main_arg2 m ρ c)

/-! ## What each pass left reaches the last boundary untouched -/

theorem W6_v2 (c : Dev nD) : W6 m ρ c (Proc.devRef .tc main_v2) = (dat0 (V1 m ρ) c).arrAt 1 cfg0.N :=
  calc W6 m ρ c (Proc.devRef .tc main_v2)
    _ = W5 m ρ c (Proc.devRef .tc main_v2) := W6_of_ne m ρ c main_v2 (by decide)
    _ = W4 m ρ c (Proc.devRef .tc main_v2) := by skip_ops hostOps2
    _ = W3 m ρ c (Proc.devRef .tc main_v2) := W4_of_ne m ρ c main_v2 (by decide)
    _ = W2 m ρ c (Proc.devRef .tc main_v2) := by skip_ops hostOps1
    _ = (dat0 (V1 m ρ) c).arrAt 1 cfg0.N := W2_arr m ρ c 1

theorem W6_v9 (c : Dev nD) : W6 m ρ c (Proc.devRef .tc main_v9) = (dat1 (V3 m ρ) c).arrAt 2 cfg1.N :=
  calc W6 m ρ c (Proc.devRef .tc main_v9)
    _ = W5 m ρ c (Proc.devRef .tc main_v9) := W6_of_ne m ρ c main_v9 (by decide)
    _ = W4 m ρ c (Proc.devRef .tc main_v9) := by skip_ops hostOps2
    _ = (dat1 (V3 m ρ) c).arrAt 2 cfg1.N := W4_arr m ρ c 2

theorem W6_v19 (c : Dev nD) : W6 m ρ c (Proc.devRef .tc main_v19) = (dat2 (V5 m ρ) c).arrAt 3 cfg2.N :=
  W6_arr m ρ c 3

/-! ## The three results at the last boundary: an argument plus what a pass left -/

theorem W7_v20 (c : Dev nD) : W7 m ρ c (Proc.devRef .tc main_v20)
    = addf (m ((c : Thread nD τ).loc main_arg0)) ((dat0 (V1 m ρ) c).arrAt 1 cfg0.N) := by
  rw [← W6_arg0 m ρ c, ← W6_v2 m ρ c]
  show StableHlo.after hostOps3 (W6 m ρ c) (Proc.devRef .tc main_v20) = _
  after_results

theorem W7_v21 (c : Dev nD) : W7 m ρ c (Proc.devRef .tc main_v21)
    = addf (m ((c : Thread nD τ).loc main_arg1)) ((dat1 (V3 m ρ) c).arrAt 2 cfg1.N) := by
  rw [← W6_arg1 m ρ c, ← W6_v9 m ρ c]
  show StableHlo.after hostOps3 (W6 m ρ c) (Proc.devRef .tc main_v21) = _
  after_results

theorem W7_v22 (c : Dev nD) : W7 m ρ c (Proc.devRef .tc main_v22)
    = addf (m ((c : Thread nD τ).loc main_arg2)) ((dat2 (V5 m ρ) c).arrAt 3 cfg2.N) := by
  rw [← W6_arg2 m ρ c, ← W6_v19 m ρ c]
  show StableHlo.after hostOps3 (W6 m ρ c) (Proc.devRef .tc main_v22) = _
  after_results

/-! ## The streams each pass reads: the token stream cut and padded -/

theorem V1_v1 (c : Dev nD) : V1 m ρ c main_v1
    = concatenate S1003520 0 [⟨S1000000, m ((c : Thread nD τ).loc main_arg3)⟩,
        ⟨S3520, broadcastInDim S3520 ![] bcast_S_S3520 padWord⟩] concatenates_S1000000_S3520_S1003520_d0 := by
  show StableHlo.after hostOps0 (W0 m ρ c) (Proc.devRef .tc main_v1) = _
  after_results

theorem V3_v6 (c : Dev nD) : V3 m ρ c main_v6
    = concatenate S1003520 0 [⟨S999999, extractStridedSlice S999999 ![0] (m ((c : Thread nD τ).loc main_arg3)) slices_S1000000_S999999_0⟩,
        ⟨S3521, broadcastInDim S3521 ![] bcast_S_S3521 padWord⟩] concatenates_S999999_S3521_S1003520_d0 := by
  rw [← W2_arg3 m ρ c]
  show StableHlo.after hostOps1 (W2 m ρ c) (Proc.devRef .tc main_v6) = _
  after_results

theorem V3_v8 (c : Dev nD) : V3 m ρ c main_v8
    = concatenate S1003520 0 [⟨S999999, extractStridedSlice S999999 ![1] (m ((c : Thread nD τ).loc main_arg3)) slices_S1000000_S999999_1⟩,
        ⟨S3521, broadcastInDim S3521 ![] bcast_S_S3521 padWord⟩] concatenates_S999999_S3521_S1003520_d0 := by
  rw [← W2_arg3 m ρ c]
  show StableHlo.after hostOps1 (W2 m ρ c) (Proc.devRef .tc main_v8) = _
  after_results

theorem V5_v14 (c : Dev nD) : V5 m ρ c main_v14
    = concatenate S1001472 0 [⟨S999998, extractStridedSlice S999998 ![0] (m ((c : Thread nD τ).loc main_arg3)) slices_S1000000_S999998_0⟩,
        ⟨S1474, broadcastInDim S1474 ![] bcast_S_S1474 padWord⟩] concatenates_S999998_S1474_S1001472_d0 := by
  rw [← W4_arg3 m ρ c]
  show StableHlo.after hostOps2 (W4 m ρ c) (Proc.devRef .tc main_v14) = _
  after_results

theorem V5_v16 (c : Dev nD) : V5 m ρ c main_v16
    = concatenate S1001472 0 [⟨S999998, extractStridedSlice S999998 ![1] (m ((c : Thread nD τ).loc main_arg3)) slices_S1000000_S999998_1⟩,
        ⟨S1474, broadcastInDim S1474 ![] bcast_S_S1474 padWord⟩] concatenates_S999998_S1474_S1001472_d0 := by
  rw [← W4_arg3 m ρ c]
  show StableHlo.after hostOps2 (W4 m ρ c) (Proc.devRef .tc main_v16) = _
  after_results

theorem V5_v18 (c : Dev nD) : V5 m ρ c main_v18
    = concatenate S1001472 0 [⟨S999998, extractStridedSlice S999998 ![2] (m ((c : Thread nD τ).loc main_arg3)) slices_S1000000_S999998_2⟩,
        ⟨S1474, broadcastInDim S1474 ![] bcast_S_S1474 padWord⟩] concatenates_S999998_S1474_S1001472_d0 := by
  rw [← W4_arg3 m ρ c]
  show StableHlo.after hostOps2 (W4 m ρ c) (Proc.devRef .tc main_v18) = _
  after_results

end Cert.KernelIdeal.Glue

end
-- ==== Proof.Uni.lean ====
import proofs.«404493_j65446711657254_1_alg».proof.Proof.Gen.KernelIdeal.Frame
import proofs.«404493_j65446711657254_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.UniValue

open Cert.KernelIdeal Cert.KernelIdeal.Gen
open Idealize.ShloMosaic.ValueIdx
open Cert.Ngram

/-!
  The unigram pass reads the padded token stream in 245 chunks of 4096 words and keeps ONE block of 512 counts, zeroed
  at the first chunk and written to the result array after the last. At a chunk the body compares each of its 4096
  words with each of the 512 token ids, turns each comparison into 0 or 1, sums the 4096 rows lane by lane, and adds
  the sums to the block. So after chunk `n` the block holds, at token `v`, the number of positions among the first
  `(n + 1) · 4096` holding `v`; after chunk 244 that is the count over the whole padded stream.
-/

variable (V : (c : Dev nD) → (b : Ref sig .tc) → Buf (Elt Ideal) ((c : Thread nD τ).loc b))

/-! ## Two column forms of the layout operations, read at an index -/

/-- A vector of `a` entries viewed as a column `[a, 1]` reads, at `(i, u)`, the vector at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated along `b` lanes reads, at `(p, c)`, the column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## One point's arithmetic, entry by entry -/

/-- A one-bit word widened to 32 bits and read as a signed integer is the bit. -/
private theorem bit_toInt : ∀ b : BitVec 1, (b.setWidth 32).toInt = (b.toNat : ℤ) := by decide

/-- The equality test of two words, widened and converted to a real, is one when they are equal and zero when not. -/
private def hot (a b : BitVec 32) : EReal := FloatOps.sitofp (F := Ideal) .f32 ((IntOp.cmpi .eq a b).setWidth 32)

private theorem hot_eq (a b : BitVec 32) : hot a b = ind (a = b) := by
  show ((((IntOp.cmpi .eq a b).setWidth 32).toInt : ℝ) : EReal) = _
  rw [bit_toInt]
  by_cases h : a = b
  · rw [ind_true h]; subst h; simp [IntOp.cmpi]
  · rw [ind_false h]; simp [IntOp.cmpi, h]

/-- The column of the chunk's words, repeated along the 512 lanes, at row `r` is word `r`. -/
private theorem words_entry (x : IVec S4096 32) (r : Fin 4096) (c : Fin 512) :
    broadcastTo S4096x512 (shapeCast S4096x1 (shapeCast S4096 x shapeCasts_S4096_S4096) shapeCasts_S4096_S4096x1)
      broadcasts_S4096x1_S4096x512 (ix2 r c) = x (ix1 r) :=
  (broadcastTo_a1_ab_apply _ _ r c).trans ((shapeCast_a_a1_apply _ _ r 0).trans (congrFun (shapeCast_self x _) (ix1 r)))

/-- The row of token ids `0 … 511`, repeated along the 4096 rows, at lane `c` is the word of `c`. -/
private theorem ids_entry (r : Fin 4096) (c : Fin 512) :
    broadcastTo S4096x512 (shapeCast S1x512 (shapeCast S512 (iota .tc S1x512 32 [1] iota_S1x512_d1_w32)
      shapeCasts_S1x512_S512) shapeCasts_S512_S1x512) broadcasts_S1x512_S4096x512 (ix2 r c) = BitVec.ofNat 32 c.val :=
  (broadcastTo_1b_ab_apply _ _ r c).trans ((shapeCast_a_1a_apply _ _ 0 c).trans ((shapeCast_1a_a_apply _ _ c).trans
    (iota_single_apply .tc S1x512 32 1 _ (ix2 0 c))))

/-- The index the sum over rows visits for lane `c` at row `k` is `(k, c)`. -/
private theorem lift_ix (h : S4096x512.Reduces [0] S512) (c : Fin 512) (k : Fin 4096) : h.lift (ix1 c) k = ix2 k c := by
  funext a
  apply Fin.ext
  match a with
  | ⟨0, _⟩ => rfl
  | ⟨1, _⟩ => rfl

set_option maxHeartbeats 400000 in
/-- One point's update at token `c`: the running count plus the number of the chunk's 4096 words that are `c`. -/
private theorem pay2_apply (x : IVec S4096 32) (acc : FVec Ideal S512 .f32) (c : Fin 512) :
    k0_pay2 (F := Ideal) x acc (ix1 c)
      = acc (ix1 c) + ∑ r : Fin 4096, ind (x (ix1 r) = BitVec.ofNat 32 c.val) := by
  unfold k0_pay2
  refine (addf_apply _ _ (ix1 c)).trans ?_
  refine congrArg₂ (fun p q : EReal => p + q) (congrFun (shapeCast_self acc _) (ix1 c)) ?_
  refine (Ideal.multiReduction_add_single _ _ reduces_S4096x512_S512 _ _ (ix1 c)).trans ?_
  refine Finset.sum_congr rfl fun (r : Fin 4096) _ => ?_
  rw [lift_ix reduces_S4096x512_S512 c r]
  exact (congrArg₂ hot (words_entry x r c) (ids_entry r c)).trans (hot_eq _ _)

/-! ## One point on the stream: the running count after chunk `k` -/

/-- The zero block the first point stores is zero at every token. -/
private theorem pay1_apply (c : Fin 512) : k0_pay1 (F := Ideal) (ix1 c) = 0 := by
  show Ideal.ofBits .f32 0x00000000#32 = 0
  exact Ideal.ofBits_zero_f32

/-- When the 4096 words `x` are chunk `k` of the stream `f`, the matches among them are the matches among the
    stream's positions `k · 4096 … k · 4096 + 4095`. -/
private theorem chunk_sum (f : ℕ → BitVec 32) (x : IVec S4096 32) (k v : ℕ)
    (hx : ∀ r : Fin 4096, x (ix1 r) = f (k * 4096 + r.val)) :
    ∑ r : Fin 4096, ind (x (ix1 r) = BitVec.ofNat 32 v)
      = ∑ r ∈ Finset.range 4096, ind (f (k * 4096 + r) = BitVec.ofNat 32 v) := by
  rw [Finset.sum_range]
  exact Finset.sum_congr rfl fun r _ => by rw [hx r]

/-- A block holding the counts over the first `k` chunks, updated by chunk `k`, holds the counts over `k + 1` chunks. -/
private theorem point_step (f : ℕ → BitVec 32) (k : ℕ) (x : IVec S4096 32)
    (hx : ∀ r : Fin 4096, x (ix1 r) = f (k * 4096 + r.val)) (acc : FVec Ideal S512 .f32)
    (hacc : ∀ c : Fin 512, acc (ix1 c) = cnt1 f (k * 4096) c.val) :
    k0_pay2 (F := Ideal) x acc = fun v => cnt1 f ((k + 1) * 4096) (v 0).val := by
  funext v
  obtain ⟨c, rfl⟩ : ∃ c : Fin 512, v = ix1 c := ⟨v 0, eq_ix1 v⟩
  show k0_pay2 (F := Ideal) x acc (ix1 c) = cnt1 f ((k + 1) * 4096) c.val
  rw [pay2_apply, hacc c, chunk_sum f x k c.val hx, ← cnt1_chunk]

/-- The first point: the zero block updated by chunk 0 holds the counts over one chunk. -/
private theorem point_first (f : ℕ → BitVec 32) (x : IVec S4096 32) (hx : ∀ r : Fin 4096, x (ix1 r) = f (0 * 4096 + r.val)) :
    k0_pay2 (F := Ideal) x (k0_pay1 (F := Ideal)) = fun v => cnt1 f ((0 + 1) * 4096) (v 0).val :=
  point_step f 0 x hx (k0_pay1 (F := Ideal)) fun c => by rw [pay1_apply, Nat.zero_mul, cnt1_zero]

/-! ## What each case of the body leaves in the count block -/

private theorem hz : (![0] : Fin 1 → Nat) = fun _ => 0 := funext fun a => by fin_cases a; rfl

/-- A point after the first finds the block `xo` and leaves it updated by its chunk `x`: the body's one store covers
    the block, and its loads read the two buffers whole. -/
private theorem left_B {F : FTy → Type} [FloatOps F] (c : Dev nD) (i : grid0.Coords) (a1 : Memref sig .tc .vmem S4096 .i32)
    (h1 : a1.IsWhole) (a2 : Memref sig .tc .vmem S512 .f32) (h2 : a2.IsWhole) (hc : ¬cond0_0 i)
    (x : Vec F S4096 .i32) (xo : Vec F S512 .f32) :
    out0_B_1 c i a1 h1 a2 h2 hc x xo = k0_pay2 x xo := by
  unfold out0_B_1
  rw [View.read_writes_eq_canon _ _ _ (cover0_B_1 c i a1 h1 a2 h2 hc x xo)]
  unfold kernelRun0_B
  dsimp only
  sl_unfold_words
  rw [View.canon_unit_zero hz]
  simp only [View.readAt_eq_ld, h1.read_unread, h2.read_unread, View.ld_unit_zero (S := S4096) hz,
    View.ld_unit_zero (S := S512) hz]

/-- The first point stores the zero block, reads it back, and leaves it updated by its chunk `x`: the later store
    covers the block, and the block it read is what the earlier store left. -/
private theorem left_A {F : FTy → Type} [FloatOps F] (c : Dev nD) (i : grid0.Coords) (a1 : Memref sig .tc .vmem S4096 .i32)
    (h1 : a1.IsWhole) (a2 : Memref sig .tc .vmem S512 .f32) (h2 : a2.IsWhole) (hc : cond0_0 i)
    (x : Vec F S4096 .i32) :
    out0_A_1 c i a1 h1 a2 h2 hc x = k0_pay2 x (k0_pay1 (F := F)) := by
  unfold out0_A_1
  rw [View.read_writes_eq_canon _ _ _ (cover0_A_1 c i a1 h1 a2 h2 hc x)]
  unfold kernelRun0_A
  dsimp only
  sl_unfold_words
  rw [View.canon_cons_unit_zero (S := S512) hz, View.readCov_unit_zero (S := S512) _ hz]
  simp only [View.readAt_eq_ld, h1.read_unread, View.ld_unit_zero (S := S4096) hz]

/-! ## The windows' block indices -/

/-- The input window's block index at point `t` is `t`. -/
private theorem index_in : ∀ t : Fin cfg0.N, win0_0.index t 0 = t.val :=
  (by decide +kernel : ∀ t : Fin grid0.N, win0_0.index t 0 = t.val)

/-- The output window's block index never moves. -/
private theorem index_out : ∀ t : Fin cfg0.N, win0_1.index t 0 = 0 :=
  (by decide +kernel : ∀ t : Fin grid0.N, win0_1.index t 0 = 0)

/-- The last point of the grid. -/
private abbrev tLast : Fin cfg0.N := ⟨244, by rw [show cfg0.N = 245 from N_0]; decide⟩

/-! ## The pass, point by point -/

/-- Chunk `t` of the padded stream: the 4096 words the body loads at point `t`. -/
private abbrev chunk (c : Dev nD) (t : Fin cfg0.N) : IVec S4096 32 := iblk0 V c 0 t

/-- Word `r` of chunk `t` is the stream's word at position `t · 4096 + r`: a block's coordinate in its array is the
    block index times the block size plus the coordinate inside the block. -/
private theorem chunk_apply (c : Dev nD) (t : Fin cfg0.N) (r : Fin 4096) :
    chunk V c t (ix1 r) = tokN (V c main_v1) (t.val * 4096 + r.val) := by
  have hN : t.val < 245 := lt_of_lt_of_eq t.isLt (show cfg0.N = 245 from N_0)
  have hlt : t.val * 4096 + r.val < 1003520 := by have := r.isLt; omega
  rw [tokN_lt _ hlt]
  unfold chunk iblk0
  rw [View.read_apply]
  show V c main_v1 _ = V c main_v1 _
  congr 1
  funext a
  apply Fin.ext
  match a with
  | ⟨0, _⟩ => show win0_0.index t 0 * 4096 + 1 * r.val = t.val * 4096 + r.val; rw [index_in]; omega

/-- After point `n` the count block holds, at each token, the number of the first `(n + 1) · 4096` positions of
    the padded stream holding it: by induction on the point, the first point from the zero block, each later point
    from what the point before left. -/
private theorem outsAt_eq (c : Dev nD) : ∀ (n : ℕ) (h : n < cfg0.N),
    outsAt0 V c n h = fun v => cnt1 (tokN (V c main_v1)) ((n + 1) * 4096) (v 0).val
  | 0, h => by
    refine (outsAt0_A V c ⟨0, h⟩ rfl).trans ?_
    refine (left_A (F := Ideal) c (grid0.coords ⟨0, h⟩) (ms0_0 ⟨0, h⟩) (hs0_0 ⟨0, h⟩) (ms0_1 ⟨0, h⟩) (hs0_1 ⟨0, h⟩)
      ((hcond0_0 ⟨0, h⟩).mpr rfl) (iblk0 V c 0 ⟨0, h⟩)).trans ?_
    exact point_first (tokN (V c main_v1)) (chunk V c ⟨0, h⟩) fun r => chunk_apply V c ⟨0, h⟩ r
  | n + 1, h => by
    have h' : n + 1 < 245 := lt_of_lt_of_eq h (show cfg0.N = 245 from N_0)
    have hB : ¬(⟨n + 1, h⟩ : Fin cfg0.N).val % 245 = 0 := by dsimp only; omega
    refine (outsAt0_B V c ⟨n + 1, h⟩ hB).trans ?_
    refine (left_B (F := Ideal) c (grid0.coords ⟨n + 1, h⟩) (ms0_0 ⟨n + 1, h⟩) (hs0_0 ⟨n + 1, h⟩) (ms0_1 ⟨n + 1, h⟩)
      (hs0_1 ⟨n + 1, h⟩) (fun hh => hB ((hcond0_0 ⟨n + 1, h⟩).mp hh)) (iblk0 V c 0 ⟨n + 1, h⟩)
      (outsAt0 V c n (Nat.lt_of_succ_lt h))).trans ?_
    exact point_step (tokN (V c main_v1)) (n + 1) (chunk V c ⟨n + 1, h⟩) (fun r => chunk_apply V c ⟨n + 1, h⟩ r)
      (outsAt0 V c n (Nat.lt_of_succ_lt h)) fun c' => congrFun (outsAt_eq c n (Nat.lt_of_succ_lt h)) (ix1 c')

/-- The one write-back, after the last point, writes the counts over all 245 chunks; the result array's one block,
    read through zero offsets, is the array. -/
private theorem flushed_eq (c : Dev nD) (t : Fin cfg0.N) (hf : (cfg0.win 1).flush t = true) :
    (dat0 (F := Ideal) V c).flushed 1 t = ((cfg0.win 1).blk t).view.read (Elt Ideal) (uniK (V c main_v1)) := by
  have hN : cfg0.N = 245 := N_0
  have h244 : t.val = 244 := by have := (flush0_1 t).mp hf; have := t.isLt; omega
  show (cfg0.win 1).cut (grid0.coords t) ((dat0 (F := Ideal) V c).after 1 t) = _
  rw [after0_1, outsAt_eq V c t.val t.isLt]
  have e : (fun v : S512.Idx => cnt1 (tokN (V c main_v1)) ((t.val + 1) * 4096) (v 0).val) = uniK (V c main_v1) := by
    rw [h244]; rfl
  rw [e]
  have hz' : (fun a => win0_1.index t a * main_v2.ty.shape.size a) = fun _ => 0 :=
    funext fun a => by fin_cases a; show win0_1.index t 0 * 512 = 0; rw [index_out]
  exact (Memref.read_access_unit_zero (Elt Ideal) main_v2 hz' (fun a => by rw [congrFun hz' a]; simp)
    (uniK (V c main_v1))).symm

/-- After the unigram pass the result array holds, at each token, the number of positions of the padded stream
    holding it. -/
theorem final (c : Dev nD) :
    (dat0 (F := Ideal) V c).arrAt 1 cfg0.N = Cert.Ngram.uniK (V c main_v1) := by
  refine (dat0 (F := Ideal) V c).arrAt_eq_of_cover 1 (uniK (V c main_v1)) (flushed_eq V c) fun i =>
    ⟨tLast, (flush0_1 tLast).mpr rfl, ?_⟩
  show i ∈ ((View.whole main_v2).slice (win0_1.rect tLast)).set
  rw [View.set_slice_whole, Rect.mem_set_unit]
  intro a
  have h0 : (i 0 : Nat) < 512 := (i 0).isLt
  match a with
  | ⟨0, _⟩ =>
    show win0_1.index tLast 0 * win0_1.size 0 ≤ (i 0 : Nat)
      ∧ (i 0 : Nat) < win0_1.index tLast 0 * win0_1.size 0 + win0_1.xsize (grid0.coords tLast) 0
    rw [index_out]
    show 0 * 512 ≤ (i 0 : Nat) ∧ (i 0 : Nat) < 0 * 512 + 512
    omega

end Cert.KernelIdeal.UniValue

end
-- ==== Proof.Bi.lean ====
import proofs.«404493_j65446711657254_1_alg».proof.Proof.Gen.KernelIdeal.Frame
import proofs.«404493_j65446711657254_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.BiValue

open Cert.KernelIdeal Cert.KernelIdeal.Gen

variable (V : (c : Dev nD) → (b : Ref sig .tc) → Buf (Elt Ideal) ((c : Thread nD τ).loc b))

section Counting

open Idealize.ShloMosaic.ValueIdx
open Cert.Ngram (ind tokN cnt2)

/-! ## Words: one comparison, widened and converted, is an indicator -/

/-- Two words compared for equality, the bit widened to a word and read as a signed integer: one where they agree,
    zero where they differ. -/
private theorem onehot_word (a b : BitVec 32) :
    FloatOps.sitofp (F := Ideal) .f32 ((IntOp.cmpi .eq a b).setWidth 32) = ind (a = b) := by
  by_cases h : a = b
  · subst h
    rw [Cert.Ngram.ind_true rfl]
    show (((BitVec.setWidth 32 (IntOp.cmpi .eq a a)).toInt : ℝ) : EReal) = 1
    have : IntOp.cmpi .eq a a = 1#1 := by simp [IntOp.cmpi]
    rw [this]
    norm_num
  · rw [Cert.Ngram.ind_false h]
    show (((BitVec.setWidth 32 (IntOp.cmpi .eq a b)).toInt : ℝ) : EReal) = 0
    have hb : (a == b) = false := beq_eq_false_iff_ne.mpr h
    have : IntOp.cmpi .eq a b = 0#1 := by simp [IntOp.cmpi, hb]
    rw [this]
    norm_num

/-- The product of two indicators is the indicator of the conjunction. -/
private theorem ind_mul_ind (p q : Prop) [Decidable p] [Decidable q] : ind p * ind q = ind (p ∧ q) := by
  by_cases hp : p <;> by_cases hq : q <;> simp [ind, hp, hq]

/-! ## The one-hot of a chunk against the token ids -/

/-- The chunk as a column, repeated along the 512 token ids. -/
private def colOf (x : IVec S4096 32) : IVec S4096x512 32 :=
  broadcastTo S4096x512 (shapeCast S4096x1 (shapeCast S4096 x shapeCasts_S4096_S4096) shapeCasts_S4096_S4096x1)
    broadcasts_S4096x1_S4096x512

/-- The token ids 0 … 511 as a row, repeated along the 4096 positions of a chunk. -/
private def idRow : IVec S4096x512 32 :=
  broadcastTo S4096x512 (shapeCast S1x512 (shapeCast S512 (iota .tc S1x512 32 [1] iota_S1x512_d1_w32) shapeCasts_S1x512_S512)
    shapeCasts_S512_S1x512) broadcasts_S1x512_S4096x512

/-- The one-hot of a chunk: at (position, token id) the comparison of the chunk's word with the id's, as a number. -/
private def onehot (x : IVec S4096 32) : FVec Ideal S4096x512 .bf16 :=
  truncf .bf16 (sitofp .f32 (extui 32 (cmpi .eq (colOf x) idRow) natLt_1_32)) bitsLt_bf16_f32

/-- The column reads the chunk's word at its position, whatever the token id. -/
private theorem colOf_apply (x : IVec S4096 32) (r : Fin 4096) (p : Fin 512) : colOf x (ix2 r p) = x (ix1 r) := by
  unfold colOf
  refine (broadcastTo_apply _ _ (ix2 r p) (ix2 r (0 : Fin 1)) fun a => ?_).trans ?_
  · match a with
    | ⟨0, _⟩ => rfl
    | ⟨1, _⟩ => rfl
  · refine (shapeCast_apply _ _ (ix2 r (0 : Fin 1)) (ix1 r) ?_).trans ?_
    · rw [Shape.rowMajor_val_one, Shape.rowMajor_val_two]
      show r.val = r.val * 1 + 0
      omega
    · rw [shapeCast_self]

/-- The row reads the token id's word, whatever the position. -/
private theorem idRow_apply (r : Fin 4096) (p : Fin 512) : idRow (ix2 r p) = BitVec.ofNat 32 p.val := by
  unfold idRow
  refine (broadcastTo_apply _ _ (ix2 r p) (ix2 (0 : Fin 1) p) fun a => ?_).trans ?_
  · match a with
    | ⟨0, _⟩ => rfl
    | ⟨1, _⟩ => rfl
  · refine (shapeCast_apply _ _ (ix2 (0 : Fin 1) p) (ix1 p) ?_).trans ?_
    · rw [Shape.rowMajor_val_one, Shape.rowMajor_val_two]
      show p.val = 0 * 512 + p.val
      omega
    · refine (shapeCast_apply _ _ (ix1 p) (ix2 (0 : Fin 1) p) ?_).trans ?_
      · rw [Shape.rowMajor_val_one, Shape.rowMajor_val_two]
        show 0 * 512 + p.val = p.val
        omega
      · exact iota_single_apply .tc S1x512 32 1 iota_S1x512_d1_w32 (ix2 (0 : Fin 1) p)

/-- So the one-hot at (position r, token id p) is one when the chunk holds p at r, else zero. -/
private theorem onehot_apply (x : IVec S4096 32) (r : Fin 4096) (p : Fin 512) :
    onehot x (ix2 r p) = ind (x (ix1 r) = BitVec.ofNat 32 p.val) := by
  have e : onehot x (ix2 r p)
      = FloatOps.sitofp (F := Ideal) .f32 ((IntOp.cmpi .eq (colOf x (ix2 r p)) (idRow (ix2 r p))).setWidth 32) := rfl
  rw [e, colOf_apply, idRow_apply]
  exact onehot_word _ _

/-! ## The product on the matrix unit, contracting the 4096 positions -/

private theorem lhs_dot_0 (j : S512x512.Idx) (k : dot_S4096x512_S4096x512_S512x512_0_0_1_1_n_n.contr.Idx) :
    (dot_S4096x512_S4096x512_S512x512_0_0_1_1_n_n.lhsIdx j k 0 : ℕ) = k ⟨0, by decide⟩ := by
  simp [DotDims.lhsIdx, dot_S4096x512_S4096x512_S512x512_0_0_1_1_n_n]; rfl
private theorem lhs_dot_1 (j : S512x512.Idx) (k : dot_S4096x512_S4096x512_S512x512_0_0_1_1_n_n.contr.Idx) :
    (dot_S4096x512_S4096x512_S512x512_0_0_1_1_n_n.lhsIdx j k 1 : ℕ) = j 0 := by
  simp [DotDims.lhsIdx, dot_S4096x512_S4096x512_S512x512_0_0_1_1_n_n]; rfl
private theorem rhs_dot_0 (j : S512x512.Idx) (k : dot_S4096x512_S4096x512_S512x512_0_0_1_1_n_n.contr.Idx) :
    (dot_S4096x512_S4096x512_S512x512_0_0_1_1_n_n.rhsIdx j k 0 : ℕ) = k ⟨0, by decide⟩ := by
  simp [DotDims.rhsIdx, dot_S4096x512_S4096x512_S512x512_0_0_1_1_n_n]; rfl
private theorem rhs_dot_1 (j : S512x512.Idx) (k : dot_S4096x512_S4096x512_S512x512_0_0_1_1_n_n.contr.Idx) :
    (dot_S4096x512_S4096x512_S512x512_0_0_1_1_n_n.rhsIdx j k 1 : ℕ) = j 1 := by
  simp [DotDims.rhsIdx, dot_S4096x512_S4096x512_S512x512_0_0_1_1_n_n]; rfl

/-- Both operands contracted on their first axis into the zero block: entry (p, q) is the sum over the positions of
    the operands' entries at (position, p) and (position, q). -/
private theorem prod_apply (A B : FVec Ideal S4096x512 .bf16) (p q : Fin 512) :
    matmul dot_S4096x512_S4096x512_S512x512_0_0_1_1_n_n none A B (constant (F := Ideal) S512x512 .f32 0x00000000#32) (ix2 p q)
      = ∑ r : Fin 4096, A (ix2 r p) * B (ix2 r q) := by
  simp only [matmul]
  rw [Ideal.matmul_constant_zero_apply,
    ← Equiv.sum_comp (contrEquiv1 dot_S4096x512_S4096x512_S512x512_0_0_1_1_n_n 4096 rfl rfl).symm]
  refine Finset.sum_congr rfl fun r _ => ?_
  have hl : dot_S4096x512_S4096x512_S512x512_0_0_1_1_n_n.lhsIdx (ix2 p q)
      ((contrEquiv1 dot_S4096x512_S4096x512_S512x512_0_0_1_1_n_n 4096 rfl rfl).symm r) = ix2 r p :=
    Shape.idx_ext₂ ((lhs_dot_0 _ _).trans (contrEquiv1_symm_val dot_S4096x512_S4096x512_S512x512_0_0_1_1_n_n 4096 rfl rfl r))
      (lhs_dot_1 _ _)
  have hr : dot_S4096x512_S4096x512_S512x512_0_0_1_1_n_n.rhsIdx (ix2 p q)
      ((contrEquiv1 dot_S4096x512_S4096x512_S512x512_0_0_1_1_n_n 4096 rfl rfl).symm r) = ix2 r q :=
    Shape.idx_ext₂ ((rhs_dot_0 _ _).trans (contrEquiv1_symm_val dot_S4096x512_S4096x512_S512x512_0_0_1_1_n_n 4096 rfl rfl r))
      (rhs_dot_1 _ _)
  rw [hl, hr]

/-- The update the body stores, at entry (p, q): the block's entry plus the number of positions of the two chunks
    holding p in the first and q in the second. -/
private theorem pay2_apply (x0 x1 : IVec S4096 32) (xo : FVec Ideal S512x512 .f32) (p q : Fin 512) :
    k1_pay2 (F := Ideal) x0 x1 xo (ix2 p q)
      = xo (ix2 p q) + ∑ r : Fin 4096, ind (x0 (ix1 r) = BitVec.ofNat 32 p.val ∧ x1 (ix1 r) = BitVec.ofNat 32 q.val) := by
  have e : k1_pay2 (F := Ideal) x0 x1 xo
      = addf (shapeCast S512x512 xo shapeCasts_S512x512_S512x512)
          (matmul dot_S4096x512_S4096x512_S512x512_0_0_1_1_n_n none (onehot x0) (onehot x1)
            (constant (F := Ideal) S512x512 .f32 0x00000000#32)) := rfl
  rw [e, addf_apply, shapeCast_self, prod_apply]
  exact congrArg (xo (ix2 p q) + ·) (Finset.sum_congr rfl fun r _ => by
    rw [onehot_apply, onehot_apply, ind_mul_ind])

/-- The reset block is zero everywhere. -/
private theorem pay1_apply (j : S512x512.Idx) : k1_pay1 (F := Ideal) j = 0 := by
  show Ideal.ofBits .f32 0x00000000#32 = 0
  exact Ideal.ofBits_zero_f32

/-! ## The index maps, decided over the grid -/

/-- The first stream's window is at block t at point t. -/
private theorem idx_c : ∀ t : Fin cfg1.N, win1_0.index t (0 : Fin 1) = t.val :=
  (by decide +kernel : ∀ t : Fin grid1.N, win1_0.index t (0 : Fin 1) = t.val)
/-- So is the second stream's. -/
private theorem idx_t : ∀ t : Fin cfg1.N, win1_1.index t (0 : Fin 1) = t.val :=
  (by decide +kernel : ∀ t : Fin grid1.N, win1_1.index t (0 : Fin 1) = t.val)
/-- The result's window never moves. -/
private theorem idx_o : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)

/-! ## What each case of the body leaves in the block -/

private theorem hz2 : (![0, 0] : Fin 2 → Nat) = fun _ => 0 := funext fun a => by fin_cases a <;> rfl
private theorem hz1 : (![0] : Fin 1 → Nat) = fun _ => 0 := funext fun a => by fin_cases a <;> rfl

/-- Away from the first point the body leaves the update of the block it found. -/
private theorem out_B (c : Dev nD) (i : grid1.Coords) (a1 : Memref sig .tc .vmem S4096 .i32) (h1 : a1.IsWhole)
    (a2 : Memref sig .tc .vmem S4096 .i32) (h2 : a2.IsWhole) (a3 : Memref sig .tc .vmem S512x512 .f32) (h3 : a3.IsWhole)
    (hc : ¬cond1_0 i) (x0 x1 : Vec Ideal S4096 .i32) (xo : Vec Ideal S512x512 .f32) :
    out1_B_2 (F := Ideal) c i a1 h1 a2 h2 a3 h3 hc x0 x1 xo = k1_pay2 x0 x1 xo := by
  unfold out1_B_2
  rw [View.read_writes_eq_canon _ _ _ (cover1_B_2 c i a1 h1 a2 h2 a3 h3 hc x0 x1 xo)]
  unfold kernelRun1_B
  dsimp only
  sl_unfold_words
  rw [View.canon_unit_zero (S := S512x512) hz2]
  simp only [View.readAt_eq_ld, h1.read_unread, h2.read_unread, h3.read_unread, View.ld_unit_zero (S := S4096) hz1,
    View.ld_unit_zero (S := S512x512) hz2]

/-- At the first point the body stores the zero block, reads it back, and leaves the update of that. -/
private theorem out_A (c : Dev nD) (i : grid1.Coords) (a1 : Memref sig .tc .vmem S4096 .i32) (h1 : a1.IsWhole)
    (a2 : Memref sig .tc .vmem S4096 .i32) (h2 : a2.IsWhole) (a3 : Memref sig .tc .vmem S512x512 .f32) (h3 : a3.IsWhole)
    (hc : cond1_0 i) (x0 x1 : Vec Ideal S4096 .i32) :
    out1_A_2 (F := Ideal) c i a1 h1 a2 h2 a3 h3 hc x0 x1 = k1_pay2 x0 x1 (k1_pay1 (F := Ideal)) := by
  unfold out1_A_2
  rw [View.read_writes_eq_canon _ _ _ (cover1_A_2 c i a1 h1 a2 h2 a3 h3 hc x0 x1)]
  unfold kernelRun1_A
  dsimp only
  sl_unfold_words
  rw [View.canon_cons_unit_zero (S := S512x512) hz2, View.readCov_unit_zero (S := S512x512) _ hz2]
  simp only [View.readAt_eq_ld, h1.read_unread, h2.read_unread, View.ld_unit_zero (S := S4096) hz1]

/-! ## The input blocks: chunk t of each stream -/

/-- Point t's block of the first stream holds, at r, the stream's word at position 4096 t + r. -/
private theorem blkC_apply (c : Dev nD) (t : Fin cfg1.N) (r : Fin 4096) :
    (iblk1 (F := Ideal) V c 0 t : Vec Ideal S4096 .i32) (ix1 r) = tokN (V c main_v6) (t.val * 4096 + r.val) := by
  have hN : t.val < 245 := lt_of_lt_of_eq t.isLt (show cfg1.N = 245 from N_1)
  have hlt : t.val * 4096 + r.val < 1003520 := by have := r.isLt; omega
  rw [Cert.Ngram.tokN_lt _ hlt]
  unfold iblk1
  rw [View.read_apply]
  show V c main_v6 _ = V c main_v6 _
  congr 1
  funext a
  apply Fin.ext
  match a with
  | ⟨0, _⟩ =>
    show win1_0.index t 0 * 4096 + 1 * r.val = t.val * 4096 + r.val
    rw [idx_c t]; omega

/-- Point t's block of the second stream likewise. -/
private theorem blkT_apply (c : Dev nD) (t : Fin cfg1.N) (r : Fin 4096) :
    (iblk1 (F := Ideal) V c 1 t : Vec Ideal S4096 .i32) (ix1 r) = tokN (V c main_v8) (t.val * 4096 + r.val) := by
  have hN : t.val < 245 := lt_of_lt_of_eq t.isLt (show cfg1.N = 245 from N_1)
  have hlt : t.val * 4096 + r.val < 1003520 := by have := r.isLt; omega
  rw [Cert.Ngram.tokN_lt _ hlt]
  unfold iblk1
  rw [View.read_apply]
  show V c main_v8 _ = V c main_v8 _
  congr 1
  funext a
  apply Fin.ext
  match a with
  | ⟨0, _⟩ =>
    show win1_1.index t 0 * 4096 + 1 * r.val = t.val * 4096 + r.val
    rw [idx_t t]; omega

/-- So the matches the body counts at point t are the matches of chunk t of the two streams. -/
private theorem chunk_sum (c : Dev nD) (t : Fin cfg1.N) (p q : Fin 512) :
    ∑ r : Fin 4096, ind ((iblk1 (F := Ideal) V c 0 t : Vec Ideal S4096 .i32) (ix1 r) = BitVec.ofNat 32 p.val
        ∧ (iblk1 (F := Ideal) V c 1 t : Vec Ideal S4096 .i32) (ix1 r) = BitVec.ofNat 32 q.val)
      = ∑ r ∈ Finset.range 4096, ind (tokN (V c main_v6) (t.val * 4096 + r) = BitVec.ofNat 32 p.val
          ∧ tokN (V c main_v8) (t.val * 4096 + r) = BitVec.ofNat 32 q.val) := by
  rw [← Fin.sum_univ_eq_sum_range (fun r => ind (tokN (V c main_v6) (t.val * 4096 + r) = BitVec.ofNat 32 p.val
          ∧ tokN (V c main_v8) (t.val * 4096 + r) = BitVec.ofNat 32 q.val)) 4096]
  exact Finset.sum_congr rfl fun r _ => by rw [blkC_apply V c t r, blkT_apply V c t r]

/-! ## The running block: the count over the chunks seen so far -/

/-- After point n the block holds, at (p, q), the matches among the first n + 1 chunks: by induction on the point,
    the first point from the zero block, each later one from the block the point before left. -/
private theorem outsAt_apply (c : Dev nD) : ∀ (n : ℕ) (h : n < cfg1.N) (p q : Fin 512),
    (outsAt1 (F := Ideal) V c n h : Vec Ideal S512x512 .f32) (ix2 p q)
      = cnt2 (tokN (V c main_v6)) (tokN (V c main_v8)) ((n + 1) * 4096) p.val q.val
  | 0, h, p, q => by
    rw [outsAt1_A V c ⟨0, h⟩ (Nat.zero_mod _)]
    refine (congrFun (out_A c (grid1.coords ⟨0, h⟩) (ms1_0 ⟨0, h⟩) (hs1_0 ⟨0, h⟩) (ms1_1 ⟨0, h⟩) (hs1_1 ⟨0, h⟩)
      (ms1_2 ⟨0, h⟩) (hs1_2 ⟨0, h⟩) ((hcond1_0 ⟨0, h⟩).mpr (Nat.zero_mod _)) (iblk1 V c 0 ⟨0, h⟩) (iblk1 V c 1 ⟨0, h⟩))
      (ix2 p q)).trans ?_
    rw [pay2_apply, pay1_apply, zero_add, chunk_sum V c ⟨0, h⟩ p q, Cert.Ngram.cnt2_chunk _ _ 4096 0,
      Nat.zero_mul, Cert.Ngram.cnt2_zero, zero_add]
  | n + 1, h, p, q => by
    have hN : cfg1.N = 245 := N_1
    have hB : ¬(⟨n + 1, h⟩ : Fin cfg1.N).val % 245 = 0 := by dsimp only; omega
    rw [outsAt1_B V c ⟨n + 1, h⟩ hB]
    refine (congrFun (out_B c (grid1.coords ⟨n + 1, h⟩) (ms1_0 ⟨n + 1, h⟩) (hs1_0 ⟨n + 1, h⟩) (ms1_1 ⟨n + 1, h⟩)
      (hs1_1 ⟨n + 1, h⟩) (ms1_2 ⟨n + 1, h⟩) (hs1_2 ⟨n + 1, h⟩) (fun hh => hB ((hcond1_0 ⟨n + 1, h⟩).mp hh))
      (iblk1 V c 0 ⟨n + 1, h⟩) (iblk1 V c 1 ⟨n + 1, h⟩) (outsAt1 V c n (Nat.lt_of_succ_lt h))) (ix2 p q)).trans ?_
    rw [pay2_apply, outsAt_apply c n (Nat.lt_of_succ_lt h) p q, chunk_sum V c ⟨n + 1, h⟩ p q,
      Cert.Ngram.cnt2_chunk _ _ 4096 (n + 1)]

/-! ## The write-back and the result array -/

/-- The one write-back, after the last point, writes the whole table: the block is the array read at zero offsets. -/
private theorem flushed_eq (c : Dev nD) (t : Fin cfg1.N) (hf : (cfg1.win 2).flush t = true) :
    (dat1 (F := Ideal) V c).flushed 2 t
      = ((cfg1.win 2).blk t).view.read (Elt Ideal) (Cert.Ngram.biK (V c main_v6) (V c main_v8)) := by
  have hN : cfg1.N = 245 := N_1
  have h244 : t.val = 244 := by have := (flush1_2 t).mp hf; have := t.isLt; omega
  have hO : (outsAt1 (F := Ideal) V c t.val t.isLt : Vec Ideal S512x512 .f32) = Cert.Ngram.biK (V c main_v6) (V c main_v8) := by
    funext j
    obtain ⟨p, q, rfl⟩ : ∃ (p : Fin 512) (q : Fin 512), j = ix2 p q := ⟨j 0, j 1, eq_ix2 j⟩
    refine (outsAt_apply V c t.val t.isLt p q).trans ?_
    rw [h244]
    rfl
  show (cfg1.win 2).cut (grid1.coords t) ((dat1 V c).after 2 t) = _
  rw [after1_2]
  have hz' : (fun a => win1_2.index t a * main_v9.ty.shape.size a) = fun _ => 0 := funext fun a => by
    match a with
    | ⟨0, _⟩ => show win1_2.index t 0 * 512 = 0; rw [(idx_o t).1]
    | ⟨1, _⟩ => show win1_2.index t 1 * 512 = 0; rw [(idx_o t).2]
  refine Eq.trans ?_ (Memref.read_access_unit_zero (Elt Ideal) main_v9 hz' (fun a => by rw [congrFun hz' a]; simp)
    (Cert.Ngram.biK (V c main_v6) (V c main_v8))).symm
  exact hO

end Counting

/-- After the bigram pass the result array holds, at each pair, the number of positions where the first padded
    stream holds the pair's first token and the second its second. -/
theorem final (c : Dev nD) :
    (dat1 (F := Ideal) V c).arrAt 2 cfg1.N = Cert.Ngram.biK (V c main_v6) (V c main_v8) := by
  have hlast : 244 < cfg1.N := by rw [show cfg1.N = 245 from N_1]; decide
  refine (dat1 V c).arrAt_eq_of_cover 2 (Cert.Ngram.biK (V c main_v6) (V c main_v8)) (flushed_eq V c) fun i =>
    ⟨⟨244, hlast⟩, (flush1_2 ⟨244, hlast⟩).mpr rfl, ?_⟩
  show i ∈ ((View.whole main_v9).slice (win1_2.rect ⟨244, hlast⟩)).set
  rw [View.set_slice_whole, Rect.mem_set_unit]
  intro a
  have h0 : (i 0 : Nat) < 512 := (i 0).isLt
  have h1 : (i 1 : Nat) < 512 := (i 1).isLt
  match a with
  | ⟨0, _⟩ =>
    show win1_2.index ⟨244, hlast⟩ 0 * win1_2.size 0 ≤ (i 0 : Nat)
      ∧ (i 0 : Nat) < win1_2.index ⟨244, hlast⟩ 0 * win1_2.size 0 + win1_2.xsize (grid1.coords ⟨244, hlast⟩) 0
    rw [(idx_o ⟨244, hlast⟩).1, show win1_2.xsize (grid1.coords ⟨244, hlast⟩) 0 = 512 from rfl]
    omega
  | ⟨1, _⟩ =>
    show win1_2.index ⟨244, hlast⟩ 1 * win1_2.size 1 ≤ (i 1 : Nat)
      ∧ (i 1 : Nat) < win1_2.index ⟨244, hlast⟩ 1 * win1_2.size 1 + win1_2.xsize (grid1.coords ⟨244, hlast⟩) 1
    rw [(idx_o ⟨244, hlast⟩).2, show win1_2.xsize (grid1.coords ⟨244, hlast⟩) 1 = 512 from rfl]
    omega

end Cert.KernelIdeal.BiValue

end
-- ==== Proof.TriBody.lean ====
import proofs.«404493_j65446711657254_1_alg».proof.Proof.Gen.KernelIdeal.Frame
import proofs.«404493_j65446711657254_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.TriBody

open Cert.KernelIdeal Cert.KernelIdeal.Gen Cert.Ngram

/-! ## The body's arithmetic at one entry

Each of the eight stores writes, into slab `k` of the block, what the slab held plus a product of three matrices of
zeros and ones: column `k` of the first chunk's one-hot against the point's eight tokens masks the second chunk's
one-hot, and the 2048 rows are contracted against the third chunk's one-hot. At an entry that is the number of rows
holding the entry's triple of tokens. -/

section Arithmetic

open Idealize.ShloMosaic.ValueIdx

private theorem hz1 : (![0] : Fin 1 → ℕ) = fun _ => 0 := funext fun a => by fin_cases a; rfl
private theorem hz3 : (![0, 0, 0] : Fin 3 → ℕ) = fun _ => 0 := funext fun a => by fin_cases a <;> rfl

/-- A vector cast to a column reads, at `(i, u)`, the vector at `i`. -/
private theorem shapeCast_a_a1_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows reads, at `(p, c)`, the column at `p`. -/
private theorem broadcastTo_a1_ab_apply {a b : ℕ} {α : Type} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A chunk of words as a column, broadcast along the rows: row `r` holds word `r`. -/
private theorem col_apply {n : ℕ} (x : IVec S2048 32) (h1 : S2048.ShapeCasts S2048) (h2 : S2048.ShapeCasts S2048x1)
    (h3 : S2048x1.Broadcasts ⟨2, ![2048, n]⟩) (r : Fin 2048) (c : Fin n) :
    broadcastTo ⟨2, ![2048, n]⟩ (shapeCast S2048x1 (shapeCast S2048 x h1) h2) h3 (ix2 r c) = x (ix1 r) :=
  (broadcastTo_a1_ab_apply _ h3 r c).trans
    ((shapeCast_a_a1_apply _ h2 r 0).trans (congrFun (shapeCast_self x h1) _))

/-- The lane numbers as a row, broadcast along the columns: column `c` holds the word of `c`. -/
private theorem lanes_apply {n m : ℕ} (hi : (⟨2, ![1, n]⟩ : Shape).Iotas .tc 32 [1]) (h0 : (⟨2, ![1, n]⟩ : Shape).ShapeCasts ⟨1, ![n]⟩)
    (h1 : (⟨1, ![n]⟩ : Shape).ShapeCasts ⟨2, ![1, n]⟩) (h2 : (⟨2, ![1, n]⟩ : Shape).Broadcasts ⟨2, ![m, n]⟩) (r : Fin m) (c : Fin n) :
    broadcastTo ⟨2, ![m, n]⟩ (shapeCast ⟨2, ![1, n]⟩ (shapeCast ⟨1, ![n]⟩ (iota .tc ⟨2, ![1, n]⟩ 32 [1] hi) h0) h1) h2 (ix2 r c)
      = BitVec.ofNat 32 c.val :=
  (broadcastTo_1b_ab_apply _ h2 r c).trans
    ((shapeCast_a_1a_apply _ h1 0 c).trans
      ((shapeCast_1a_a_apply _ h0 c).trans (iota_single_apply .tc ⟨2, ![1, n]⟩ 32 1 hi (ix2 (0 : Fin 1) c))))

/-- The same with a word added to every lane number. -/
private theorem lanes_add_apply {n m : ℕ} (w : BitVec 32) (hi : (⟨2, ![1, n]⟩ : Shape).Iotas .tc 32 [1]) (h0 : (⟨2, ![1, n]⟩ : Shape).ShapeCasts ⟨1, ![n]⟩)
    (h1 : (⟨1, ![n]⟩ : Shape).ShapeCasts ⟨2, ![1, n]⟩) (h2 : (⟨2, ![1, n]⟩ : Shape).Broadcasts ⟨2, ![m, n]⟩) (r : Fin m) (c : Fin n) :
    broadcastTo ⟨2, ![m, n]⟩ (shapeCast ⟨2, ![1, n]⟩ (addi (broadcast ⟨1, ![n]⟩ w) (shapeCast ⟨1, ![n]⟩ (iota .tc ⟨2, ![1, n]⟩ 32 [1] hi) h0)) h1) h2 (ix2 r c)
      = w + BitVec.ofNat 32 c.val :=
  (broadcastTo_1b_ab_apply _ h2 r c).trans
    ((shapeCast_a_1a_apply _ h1 0 c).trans
      (congrArg (w + ·) ((shapeCast_1a_a_apply _ h0 c).trans (iota_single_apply .tc ⟨2, ![1, n]⟩ 32 1 hi (ix2 (0 : Fin 1) c)))))

/-- The comparison of two words, widened and converted, is one where they are equal and zero where not. -/
private theorem onehot_word (a b : BitVec 32) :
    (FloatOps.sitofp (F := Ideal) .f32 ((IntOp.cmpi .eq a b).setWidth 32)) = ind (a = b) := by
  show (((((IntOp.cmpi .eq a b).setWidth 32).toInt : ℝ)) : EReal) = _
  by_cases h : a = b
  · subst h
    rw [ind_true rfl]
    simp [IntOp.cmpi]
  · rw [ind_false h]
    have hb : (a == b) = false := by simpa using h
    simp [IntOp.cmpi, hb]

private theorem word_eq (n b : ℕ) : Scalar.muli (BitVec.ofNat 32 n) 8#32 + BitVec.ofNat 32 b = BitVec.ofNat 32 (n * 8 + b) := by
  show BitVec.ofNat 32 n * BitVec.ofNat 32 8 + BitVec.ofNat 32 b = _
  rw [← BitVec.ofNat_mul, ← BitVec.ofNat_add]

/-- One slab's product: column `o` of the mask times the first one-hot, contracted over the rows with the second. -/
private theorem slab_matmul (v23 : FVec Ideal S2048x8 .bf16) (v31 v39 : FVec Ideal S2048x512 .bf16) (o : ℕ) (ho : o < 8)
    (hs : S2048x8.Slices ![0, o] S2048x1) (hb : S2048x1.Broadcasts S2048x512) (c1 t : Fin 512) :
    matmul dot_S2048x512_S2048x512_S512x512_0_0_1_1_n_n none
        (mulf v31 (broadcastTo S2048x512 (extractStridedSlice S2048x1 ![0, o] v23 hs) hb)) v39
        (constant (F := Ideal) S512x512 .f32 0x00000000#32) (ix2 c1 t)
      = ∑ r : Fin 2048, (v31 (ix2 r c1) * v23 (ix2 r ⟨o, ho⟩)) * v39 (ix2 r t) := by
  show FloatOps.matmul _ none _ _ (constant (F := Ideal) S512x512 .f32 0x00000000#32) (ix2 c1 t) = _
  rw [Ideal.matmul_constant_zero_apply,
    ← Equiv.sum_comp (contrEquiv1 dot_S2048x512_S2048x512_S512x512_0_0_1_1_n_n 2048 rfl rfl).symm]
  refine Finset.sum_congr rfl fun r _ => ?_
  have cv := contrEquiv1_symm_val dot_S2048x512_S2048x512_S512x512_0_0_1_1_n_n 2048 rfl rfl r
  have l2 : dot_S2048x512_S2048x512_S512x512_0_0_1_1_n_n.lhsIdx (ix2 c1 t)
      ((contrEquiv1 _ 2048 rfl rfl).symm r) = ix2 r c1 := by
    funext ax; apply Fin.ext
    match ax with
    | ⟨0, _⟩ => simp [DotDims.lhsIdx, dot_S2048x512_S2048x512_S512x512_0_0_1_1_n_n]; exact cv
    | ⟨1, _⟩ => simp [DotDims.lhsIdx, dot_S2048x512_S2048x512_S512x512_0_0_1_1_n_n]; rfl
  have r2 : dot_S2048x512_S2048x512_S512x512_0_0_1_1_n_n.rhsIdx (ix2 c1 t)
      ((contrEquiv1 _ 2048 rfl rfl).symm r) = ix2 r t := by
    funext ax; apply Fin.ext
    match ax with
    | ⟨0, _⟩ => simp [DotDims.rhsIdx, dot_S2048x512_S2048x512_S512x512_0_0_1_1_n_n]; exact cv
    | ⟨1, _⟩ => simp [DotDims.rhsIdx, dot_S2048x512_S2048x512_S512x512_0_0_1_1_n_n]; rfl
  rw [l2, r2]
  show (v31 (ix2 r c1) * broadcastTo S2048x512 (extractStridedSlice S2048x1 ![0, o] v23 hs) hb (ix2 r c1)) * v39 (ix2 r t) = _
  rw [broadcastTo_a1_ab_apply, slice2_axis1_apply o v23 hs r (0 : Fin 1) ⟨o, ho⟩ (by simp)]

private theorem ind_mul_ind (p q : Prop) [Decidable p] [Decidable q] : ind p * ind q = ind (p ∧ q) := by
  by_cases hp : p <;> by_cases hq : q <;> simp [ind, hp, hq]

/-- Entry `(r, b)` of the first chunk's one-hot against the eight tokens of the point. -/
private theorem pay4_apply (i : grid2.Coords) (x0 : Vec Ideal S2048 .i32) (r : Fin 2048) (b : Fin 8) :
    k2_pay4 (F := Ideal) i x0 (ix2 r b) = ind (x0 (ix1 r) = BitVec.ofNat 32 ((i 0).val * 8 + b.val)) := by
  have eA := col_apply (n := 8) x0 shapeCasts_S2048_S2048 shapeCasts_S2048_S2048x1 broadcasts_S2048x1_S2048x8 r b
  have eB := lanes_add_apply (n := 8) (m := 2048) (Scalar.muli (BitVec.ofNat 32 (i 0).val) 8#32) iota_S1x8_d1_w32
    shapeCasts_S1x8_S8 shapeCasts_S8_S1x8 broadcasts_S1x8_S2048x8 r b
  rw [word_eq] at eB
  refine Eq.trans ?_ (onehot_word (x0 (ix1 r)) (BitVec.ofNat 32 ((i 0).val * 8 + b.val)))
  rw [← eA, ← eB]
  rfl

/-- Entry `(r, c)` of a chunk's one-hot against the 512 tokens. -/
private theorem pay5_apply (x1 : Vec Ideal S2048 .i32) (r : Fin 2048) (c : Fin 512) :
    k2_pay5 (F := Ideal) x1 (ix2 r c) = ind (x1 (ix1 r) = BitVec.ofNat 32 c.val) := by
  have eA := col_apply (n := 512) x1 shapeCasts_S2048_S2048 shapeCasts_S2048_S2048x1 broadcasts_S2048x1_S2048x512 r c
  have eB := lanes_apply (n := 512) (m := 2048) iota_S1x512_d1_w32
    shapeCasts_S1x512_S512 shapeCasts_S512_S1x512 broadcasts_S1x512_S2048x512 r c
  refine Eq.trans ?_ (onehot_word (x1 (ix1 r)) (BitVec.ofNat 32 c.val))
  rw [← eA, ← eB]
  rfl

private theorem pay6_apply (x2 : Vec Ideal S2048 .i32) (r : Fin 2048) (c : Fin 512) :
    k2_pay6 (F := Ideal) x2 (ix2 r c) = ind (x2 (ix1 r) = BitVec.ofNat 32 c.val) := by
  have eA := col_apply (n := 512) x2 shapeCasts_S2048_S2048 shapeCasts_S2048_S2048x1 broadcasts_S2048x1_S2048x512 r c
  have eB := lanes_apply (n := 512) (m := 2048) iota_S1x512_d1_w32
    shapeCasts_S1x512_S512 shapeCasts_S512_S1x512 broadcasts_S1x512_S2048x512 r c
  refine Eq.trans ?_ (onehot_word (x2 (ix1 r)) (BitVec.ofNat 32 c.val))
  rw [← eA, ← eB]
  rfl

/-- What one slab's store writes, at an entry: the slab's old entry plus the contraction. -/
private theorem slab_pay_apply (v23 : FVec Ideal S2048x8 .bf16) (v31 v39 : FVec Ideal S2048x512 .bf16)
    (v54 : Vec Ideal S1x512x512 .f32) (o : ℕ) (ho : o < 8)
    (hs : S2048x8.Slices ![0, o] S2048x1) (hb : S2048x1.Broadcasts S2048x512)
    (hc1 : S1x512x512.ShapeCasts S512x512) (hc2 : S512x512.ShapeCasts S1x512x512) (u : Fin 1) (c1 t : Fin 512) :
    shapeCast S1x512x512 (addf (shapeCast S512x512 v54 hc1)
        (matmul dot_S2048x512_S2048x512_S512x512_0_0_1_1_n_n none
          (mulf v31 (broadcastTo S2048x512 (extractStridedSlice S2048x1 ![0, o] v23 hs) hb)) v39
          (constant (F := Ideal) S512x512 .f32 0x00000000#32))) hc2 (ix3 u c1 t)
      = v54 (ix3 (0 : Fin 1) c1 t) + ∑ r : Fin 2048, (v31 (ix2 r c1) * v23 (ix2 r ⟨o, ho⟩)) * v39 (ix2 r t) := by
  refine (shapeCast_ab_1ab_apply _ hc2 u c1 t).trans ?_
  refine (addf_apply _ _ _).trans ?_
  rw [shapeCast_1ab_ab_apply, slab_matmul v23 v31 v39 o ho hs hb c1 t]

/-- The same with the three one-hots in place: the slab's old entry plus the number of rows holding the triple. -/
private theorem slab_value (i : grid2.Coords) (x0 x1 x2 : Vec Ideal S2048 .i32)
    (v54 : Vec Ideal S1x512x512 .f32) (o : ℕ) (ho : o < 8)
    (hs : S2048x8.Slices ![0, o] S2048x1) (hb : S2048x1.Broadcasts S2048x512)
    (hc1 : S1x512x512.ShapeCasts S512x512) (hc2 : S512x512.ShapeCasts S1x512x512) (u : Fin 1) (c1 t : Fin 512) :
    shapeCast S1x512x512 (addf (shapeCast S512x512 v54 hc1)
        (matmul dot_S2048x512_S2048x512_S512x512_0_0_1_1_n_n none
          (mulf (k2_pay5 (F := Ideal) x1) (broadcastTo S2048x512 (extractStridedSlice S2048x1 ![0, o] (k2_pay4 (F := Ideal) i x0) hs) hb))
          (k2_pay6 (F := Ideal) x2)
          (constant (F := Ideal) S512x512 .f32 0x00000000#32))) hc2 (ix3 u c1 t)
      = v54 (ix3 (0 : Fin 1) c1 t) + ∑ r ∈ Finset.range 2048,
          ind (tokN x0 r = BitVec.ofNat 32 ((i 0).val * 8 + o) ∧ tokN x1 r = BitVec.ofNat 32 c1.val
            ∧ tokN x2 r = BitVec.ofNat 32 t.val) := by
  rw [slab_pay_apply _ _ _ v54 o ho hs hb hc1 hc2 u c1 t,
    ← Fin.sum_univ_eq_sum_range (fun r => ind (tokN x0 r = BitVec.ofNat 32 ((i 0).val * 8 + o)
      ∧ tokN x1 r = BitVec.ofNat 32 c1.val ∧ tokN x2 r = BitVec.ofNat 32 t.val)) 2048]
  refine congrArg (v54 (ix3 (0 : Fin 1) c1 t) + ·) (Finset.sum_congr rfl fun r _ => ?_)
  rw [pay5_apply, pay4_apply, pay6_apply, tokN_lt x0 r.isLt, tokN_lt x1 r.isLt, tokN_lt x2 r.isLt,
    mul_comm (ind (x1 (ix1 r) = _)), mul_assoc, ind_mul_ind, ind_mul_ind]

/-- What entry `y` of the block gains at the point: the rows of the three chunks holding `y`'s triple. -/
private def gain (i : grid2.Coords) (x0 x1 x2 : Vec Ideal S2048 .i32) (y : S8x512x512.Idx) : EReal :=
  ∑ r ∈ Finset.range 2048, ind (tokN x0 r = BitVec.ofNat 32 ((i 0).val * 8 + (y 0).val)
    ∧ tokN x1 r = BitVec.ofNat 32 (y 1).val ∧ tokN x2 r = BitVec.ofNat 32 (y 2).val)

/-- One slab's store, at an entry of its rectangle: what the slab held there plus the entry's gain. -/
private theorem slab_at (i : grid2.Coords) (x0 x1 x2 : Vec Ideal S2048 .i32) (v : Vec Ideal S1x512x512 .f32) (k : ℕ) (hk : k < 8)
    (inb : ∀ a, (![k, 0, 0] : Fin 3 → ℕ) a + S1x512x512.size a ≤ S8x512x512.size a)
    (hs : S2048x8.Slices ![0, k] S2048x1) (hb : S2048x1.Broadcasts S2048x512)
    (hc1 : S1x512x512.ShapeCasts S512x512) (hc2 : S512x512.ShapeCasts S1x512x512)
    (x : (Rect.unit (s := S8x512x512) ![k, 0, 0] S1x512x512.size inb).shape.Idx) :
    shapeCast S1x512x512 (addf (shapeCast S512x512 v hc1)
        (matmul dot_S2048x512_S2048x512_S512x512_0_0_1_1_n_n none
          (mulf (k2_pay5 (F := Ideal) x1) (broadcastTo S2048x512 (extractStridedSlice S2048x1 ![0, k] (k2_pay4 (F := Ideal) i x0) hs) hb))
          (k2_pay6 (F := Ideal) x2)
          (constant (F := Ideal) S512x512 .f32 0x00000000#32))) hc2 x
      = v x + gain i x0 x1 x2 ((Rect.unit (s := S8x512x512) ![k, 0, 0] S1x512x512.size inb).emb x) := by
  obtain ⟨u, c1, t, rfl⟩ : ∃ (u : Fin 1) (c1 t : Fin 512), x = ix3 u c1 t := ⟨x 0, x 1, x 2, eq_ix3 x⟩
  obtain rfl : u = 0 := Subsingleton.elim _ _
  refine (slab_value i x0 x1 x2 v k hk hs hb hc1 hc2 0 c1 t).trans ?_
  unfold gain
  have e0 : (((Rect.unit (s := S8x512x512) ![k, 0, 0] S1x512x512.size inb).emb (ix3 (0 : Fin 1) c1 t)) 0).val = k := by
    rw [Rect.emb_apply]; simp
  have e1 : (((Rect.unit (s := S8x512x512) ![k, 0, 0] S1x512x512.size inb).emb (ix3 (0 : Fin 1) c1 t)) 1).val = c1.val := by
    rw [Rect.emb_apply]; simp
  have e2 : (((Rect.unit (s := S8x512x512) ![k, 0, 0] S1x512x512.size inb).emb (ix3 (0 : Fin 1) c1 t)) 2).val = t.val := by
    rw [Rect.emb_apply]; simp
  rw [e0, e1, e2]

/-- A block filled slab by slab after a reset, one store: if the stores so far (`T`) leave the gain in the slabs below
    `k` and zero above, a store into slab `k` of "what `T` left there plus the gain" leaves the gain in the slabs below
    `k + 1` and zero above. -/
private theorem canon_step (i : grid2.Coords) (x0 x1 x2 : Vec Ideal S2048 .i32)
    (T : List (View.Piece (Elt Ideal) S8x512x512 .f32)) (k : ℕ)
    (inb : ∀ a, (![k, 0, 0] : Fin 3 → ℕ) a + S1x512x512.size a ≤ S8x512x512.size a)
    (pay : (Rect.unit (s := S8x512x512) ![k, 0, 0] S1x512x512.size inb).shape.Idx → Elt Ideal .f32)
    (hpay : ∀ x, pay x = View.canon T ((Rect.unit (s := S8x512x512) ![k, 0, 0] S1x512x512.size inb).emb x)
      + gain i x0 x1 x2 ((Rect.unit (s := S8x512x512) ![k, 0, 0] S1x512x512.size inb).emb x))
    (hT : ∀ y : S8x512x512.Idx, View.canon T y = if (y 0).val < k then gain i x0 x1 x2 y else 0) (y : S8x512x512.Idx) :
    View.canon ((⟨Rect.unit (s := S8x512x512) ![k, 0, 0] S1x512x512.size inb, pay⟩ : View.Piece (Elt Ideal) S8x512x512 .f32) :: T) y
      = if (y 0).val < k + 1 then gain i x0 x1 x2 y else 0 := by
  by_cases hy : y ∈ (Rect.unit (s := S8x512x512) ![k, 0, 0] S1x512x512.size inb).set
  · obtain ⟨x, rfl⟩ := (Rect.unit (s := S8x512x512) ![k, 0, 0] S1x512x512.size inb).exists_idx_of_mem hy
    have e0 : (((Rect.unit (s := S8x512x512) ![k, 0, 0] S1x512x512.size inb).emb x) 0).val = k := by
      have hx : (x 0).val < 1 := (x 0).isLt
      rw [Rect.emb_apply]; simp; omega
    show View.canon (_ :: T) ((Rect.unit (s := S8x512x512) ![k, 0, 0] S1x512x512.size inb).emb x)
      = if (((Rect.unit (s := S8x512x512) ![k, 0, 0] S1x512x512.size inb).emb x) 0).val < k + 1
          then gain i x0 x1 x2 ((Rect.unit (s := S8x512x512) ![k, 0, 0] S1x512x512.size inb).emb x) else 0
    rw [View.canon_cons_emb, hpay, hT, if_neg (by rw [e0]; omega), if_pos (by rw [e0]; omega), zero_add]
  · have h1 : (y 1).val < 512 := (y 1).isLt
    have h2 : (y 2).val < 512 := (y 2).isLt
    have hne : (y 0).val ≠ k := fun h => hy (Rect.mem_set_unit.mpr fun a => by
      match a with
      | ⟨0, _⟩ => show k ≤ (y 0).val ∧ (y 0).val < k + 1; omega
      | ⟨1, _⟩ => show 0 ≤ (y 1).val ∧ (y 1).val < 0 + 512; omega
      | ⟨2, _⟩ => show 0 ≤ (y 2).val ∧ (y 2).val < 0 + 512; omega)
    rw [View.canon_cons_of_not_mem ⟨Rect.unit (s := S8x512x512) ![k, 0, 0] S1x512x512.size inb, pay⟩ T hy, hT]
    by_cases hlt : (y 0).val < k
    · rw [if_pos hlt, if_pos (by omega)]
    · rw [if_neg hlt, if_neg (by omega)]

/-- The same with the store the body makes: the slab's load reads what the stores so far left. -/
private theorem canon_slab_step {sig : RefSig} {κ : Kind} {sp : Space} (w : View sig κ sp S8x512x512 .f32)
    (i : grid2.Coords) (x0 x1 x2 : Vec Ideal S2048 .i32)
    (T : List (View.Piece (Elt Ideal) S8x512x512 .f32)) (k : ℕ) (hk : k < 8)
    (inb : ∀ a, (![k, 0, 0] : Fin 3 → ℕ) a + S1x512x512.size a ≤ S8x512x512.size a)
    (hs : S2048x8.Slices ![0, k] S2048x1) (hb : S2048x1.Broadcasts S2048x512)
    (hc1 : S1x512x512.ShapeCasts S512x512) (hc2 : S512x512.ShapeCasts S1x512x512)
    (hT : ∀ y : S8x512x512.Idx, View.canon T y = if (y 0).val < k then gain i x0 x1 x2 y else 0) (y : S8x512x512.Idx) :
    View.canon ((⟨Rect.unit (s := S8x512x512) ![k, 0, 0] S1x512x512.size inb,
        shapeCast S1x512x512 (addf (shapeCast S512x512
            (w.readCov T (Rect.unit (s := S8x512x512) ![k, 0, 0] S1x512x512.size inb).toLoadRect) hc1)
          (matmul dot_S2048x512_S2048x512_S512x512_0_0_1_1_n_n none
            (mulf (k2_pay5 (F := Ideal) x1) (broadcastTo S2048x512 (extractStridedSlice S2048x1 ![0, k] (k2_pay4 (F := Ideal) i x0) hs) hb))
            (k2_pay6 (F := Ideal) x2)
            (constant (F := Ideal) S512x512 .f32 0x00000000#32))) hc2⟩ : View.Piece (Elt Ideal) S8x512x512 .f32) :: T) y
      = if (y 0).val < k + 1 then gain i x0 x1 x2 y else 0 :=
  canon_step i x0 x1 x2 T k inb _ (fun x => by
    rw [slab_at i x0 x1 x2 _ k hk inb hs hb hc1 hc2 x, View.readCov_eq_canon']; rfl) hT y

end Arithmetic

/-- The trigram body at a grid point that does not reset: entry `(bc, c1, t)` of the block gains the number of rows of
    the three input chunks holding token `8·i₀ + bc`, `c1`, `t` (`i₀` the point's first coordinate). -/
theorem out_B (c : Dev nD) (i : grid2.Coords) (a2 : Memref sig .tc .vmem S2048 .i32) (h2 : a2.IsWhole)
    (a3 : Memref sig .tc .vmem S2048 .i32) (h3 : a3.IsWhole) (a4 : Memref sig .tc .vmem S2048 .i32) (h4 : a4.IsWhole)
    (a5 : Memref sig .tc .vmem S8x512x512 .f32) (h5 : a5.IsWhole) (hc : ¬cond2_0 i)
    (x0 x1 x2 : Vec Ideal S2048 .i32) (xo : Vec Ideal S8x512x512 .f32) (bc : Fin 8) (c1 t : Fin 512) :
    out2_B_3 (F := Ideal) c i a2 h2 a3 h3 a4 h4 a5 h5 hc x0 x1 x2 xo (ValueIdx.ix3 bc c1 t)
      = xo (ValueIdx.ix3 bc c1 t) + ∑ r ∈ Finset.range 2048,
          ind (tokN x0 r = BitVec.ofNat 32 ((i 0).val * 8 + bc.val) ∧ tokN x1 r = BitVec.ofNat 32 c1.val
            ∧ tokN x2 r = BitVec.ofNat 32 t.val) := by
  unfold out2_B_3
  rw [View.read_writes_eq_canon _ _ _ (cover2_B_3 c i a2 h2 a3 h3 a4 h4 a5 h5 hc x0 x1 x2 xo)]
  -- every store's payload is the block's old entry plus the gain, read under the store's rectangle
  refine (View.canon_apply_of_pieces (fun y => xo y + gain i x0 x1 x2 y) _ ?_ (ValueIdx.ix3 bc c1 t)
    (cover2_B_3 c i a2 h2 a3 h3 a4 h4 a5 h5 hc x0 x1 x2 xo (ValueIdx.ix3 bc c1 t))).trans rfl
  unfold kernelRun2_B
  dsimp only
  sl_unfold_words
  simp only [View.readAt_eq_ld, h2.read_unread, h3.read_unread, h4.read_unread, h5.read_unread,
    View.ld_unit_zero (S := S2048) hz1]
  intro p hp
  simp only [List.mem_cons, List.not_mem_nil, or_false] at hp
  rcases hp with rfl | rfl | rfl | rfl | rfl | rfl | rfl | rfl
  · exact fun x => slab_at i x0 x1 x2 _ 7 (by decide) inb_S8x512x512_S1x512x512_7_0_0 slices_S2048x8_o0_7_S2048x1
      broadcasts_S2048x1_S2048x512 shapeCasts_S1x512x512_S512x512 shapeCasts_S512x512_S1x512x512 x
  · exact fun x => slab_at i x0 x1 x2 _ 6 (by decide) inb_S8x512x512_S1x512x512_6_0_0 slices_S2048x8_o0_6_S2048x1
      broadcasts_S2048x1_S2048x512 shapeCasts_S1x512x512_S512x512 shapeCasts_S512x512_S1x512x512 x
  · exact fun x => slab_at i x0 x1 x2 _ 5 (by decide) inb_S8x512x512_S1x512x512_5_0_0 slices_S2048x8_o0_5_S2048x1
      broadcasts_S2048x1_S2048x512 shapeCasts_S1x512x512_S512x512 shapeCasts_S512x512_S1x512x512 x
  · exact fun x => slab_at i x0 x1 x2 _ 4 (by decide) inb_S8x512x512_S1x512x512_4_0_0 slices_S2048x8_o0_4_S2048x1
      broadcasts_S2048x1_S2048x512 shapeCasts_S1x512x512_S512x512 shapeCasts_S512x512_S1x512x512 x
  · exact fun x => slab_at i x0 x1 x2 _ 3 (by decide) inb_S8x512x512_S1x512x512_3_0_0 slices_S2048x8_o0_3_S2048x1
      broadcasts_S2048x1_S2048x512 shapeCasts_S1x512x512_S512x512 shapeCasts_S512x512_S1x512x512 x
  · exact fun x => slab_at i x0 x1 x2 _ 2 (by decide) inb_S8x512x512_S1x512x512_2_0_0 slices_S2048x8_o0_2_S2048x1
      broadcasts_S2048x1_S2048x512 shapeCasts_S1x512x512_S512x512 shapeCasts_S512x512_S1x512x512 x
  · exact fun x => slab_at i x0 x1 x2 _ 1 (by decide) inb_S8x512x512_S1x512x512_1_0_0 slices_S2048x8_o0_1_S2048x1
      broadcasts_S2048x1_S2048x512 shapeCasts_S1x512x512_S512x512 shapeCasts_S512x512_S1x512x512 x
  · exact fun x => slab_at i x0 x1 x2 _ 0 (by decide) inb_S8x512x512_S1x512x512_0_0_0 slices_S2048x8_o0_0_S2048x1
      broadcasts_S2048x1_S2048x512 shapeCasts_S1x512x512_S512x512 shapeCasts_S512x512_S1x512x512 x

/-- At a point that resets, the block starts from zero: the entry is that number alone. -/
theorem out_A (c : Dev nD) (i : grid2.Coords) (a2 : Memref sig .tc .vmem S2048 .i32) (h2 : a2.IsWhole)
    (a3 : Memref sig .tc .vmem S2048 .i32) (h3 : a3.IsWhole) (a4 : Memref sig .tc .vmem S2048 .i32) (h4 : a4.IsWhole)
    (a5 : Memref sig .tc .vmem S8x512x512 .f32) (h5 : a5.IsWhole) (hc : cond2_0 i)
    (x0 x1 x2 : Vec Ideal S2048 .i32) (bc : Fin 8) (c1 t : Fin 512) :
    out2_A_3 (F := Ideal) c i a2 h2 a3 h3 a4 h4 a5 h5 hc x0 x1 x2 (ValueIdx.ix3 bc c1 t)
      = ∑ r ∈ Finset.range 2048,
          ind (tokN x0 r = BitVec.ofNat 32 ((i 0).val * 8 + bc.val) ∧ tokN x1 r = BitVec.ofNat 32 c1.val
            ∧ tokN x2 r = BitVec.ofNat 32 t.val) := by
  unfold out2_A_3
  rw [View.read_writes_eq_canon _ _ _ (cover2_A_3 c i a2 h2 a3 h3 a4 h4 a5 h5 hc x0 x1 x2)]
  unfold kernelRun2_A
  dsimp only
  sl_unfold_words
  simp only [View.readAt_eq_ld, h2.read_unread, h3.read_unread, h4.read_unread, View.ld_unit_zero (S := S2048) hz1]
  -- the reset leaves zero everywhere
  have s : ∀ y : S8x512x512.Idx, View.canon [(⟨Rect.unit (s := S8x512x512) ![0, 0, 0] S8x512x512.size
      inb_S8x512x512_S8x512x512_0_0_0, k2_pay2 (F := Ideal)⟩ : View.Piece (Elt Ideal) S8x512x512 .f32)] y
      = if (y 0).val < 0 then gain i x0 x1 x2 y else 0 := fun y => by
    rw [View.canon_unit_zero (S := S8x512x512) hz3, if_neg (Nat.not_lt_zero _)]
    exact Ideal.ofBits_zero_f32
  -- then the eight stores fill the slabs in turn
  have s0 := canon_slab_step a5.view i x0 x1 x2 _ 0 (by decide) inb_S8x512x512_S1x512x512_0_0_0
    slices_S2048x8_o0_0_S2048x1 broadcasts_S2048x1_S2048x512 shapeCasts_S1x512x512_S512x512 shapeCasts_S512x512_S1x512x512 s
  have s1 := canon_slab_step a5.view i x0 x1 x2 _ 1 (by decide) inb_S8x512x512_S1x512x512_1_0_0
    slices_S2048x8_o0_1_S2048x1 broadcasts_S2048x1_S2048x512 shapeCasts_S1x512x512_S512x512 shapeCasts_S512x512_S1x512x512 s0
  have s2 := canon_slab_step a5.view i x0 x1 x2 _ 2 (by decide) inb_S8x512x512_S1x512x512_2_0_0
    slices_S2048x8_o0_2_S2048x1 broadcasts_S2048x1_S2048x512 shapeCasts_S1x512x512_S512x512 shapeCasts_S512x512_S1x512x512 s1
  have s3 := canon_slab_step a5.view i x0 x1 x2 _ 3 (by decide) inb_S8x512x512_S1x512x512_3_0_0
    slices_S2048x8_o0_3_S2048x1 broadcasts_S2048x1_S2048x512 shapeCasts_S1x512x512_S512x512 shapeCasts_S512x512_S1x512x512 s2
  have s4 := canon_slab_step a5.view i x0 x1 x2 _ 4 (by decide) inb_S8x512x512_S1x512x512_4_0_0
    slices_S2048x8_o0_4_S2048x1 broadcasts_S2048x1_S2048x512 shapeCasts_S1x512x512_S512x512 shapeCasts_S512x512_S1x512x512 s3
  have s5 := canon_slab_step a5.view i x0 x1 x2 _ 5 (by decide) inb_S8x512x512_S1x512x512_5_0_0
    slices_S2048x8_o0_5_S2048x1 broadcasts_S2048x1_S2048x512 shapeCasts_S1x512x512_S512x512 shapeCasts_S512x512_S1x512x512 s4
  have s6 := canon_slab_step a5.view i x0 x1 x2 _ 6 (by decide) inb_S8x512x512_S1x512x512_6_0_0
    slices_S2048x8_o0_6_S2048x1 broadcasts_S2048x1_S2048x512 shapeCasts_S1x512x512_S512x512 shapeCasts_S512x512_S1x512x512 s5
  have s7 := canon_slab_step a5.view i x0 x1 x2 _ 7 (by decide) inb_S8x512x512_S1x512x512_7_0_0
    slices_S2048x8_o0_7_S2048x1 broadcasts_S2048x1_S2048x512 shapeCasts_S1x512x512_S512x512 shapeCasts_S512x512_S1x512x512 s6
  exact (s7 (ValueIdx.ix3 bc c1 t)).trans (if_pos bc.isLt)

end Cert.KernelIdeal.TriBody

end
-- ==== Proof.Tri.lean ====
import proofs.«404493_j65446711657254_1_alg».proof.Proof.Gen.KernelIdeal.Frame
import proofs.«404493_j65446711657254_1_alg».proof.Proof.Spec
import proofs.«404493_j65446711657254_1_alg».proof.Proof.TriBody
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.TriValue

open Cert.KernelIdeal Cert.KernelIdeal.Gen
open Cert.Ngram

variable (V : (c : Dev nD) → (b : Ref sig .tc) → Buf (Elt Ideal) ((c : Thread nD τ).loc b))

/-! ## The grid: point `t` of the 64 × 489 grid has coordinates `(t / 489, t % 489)` -/

/-- The first coordinate of point `t` is `t / 489` (there are `64 · 489` points, so no reduction modulo 64 is left). -/
private theorem coords_fst (t : Fin cfg2.N) : (grid2.coords t 0).val = t.val / 489 := by
  have hN : t.val < 31296 := lt_of_lt_of_eq t.isLt (show cfg2.N = 31296 from N_2)
  show t.val / grid2.stride 0 % grid2.bound 0 = _
  rw [show grid2.stride 0 = 489 from by decide, show grid2.bound 0 = 64 from rfl]
  omega

/-- The second coordinate of point `t` is `t % 489`. -/
private theorem coords_snd (t : Fin cfg2.N) : (grid2.coords t 1).val = t.val % 489 := by
  show t.val / grid2.stride 1 % grid2.bound 1 = _
  rw [show grid2.stride 1 = 1 from by decide, show grid2.bound 1 = 489 from rfl, Nat.div_one]

/-- Each stream window's block index at point `t` is the second coordinate: chunk `t % 489` of its stream. -/
private theorem index_streams (t : Fin cfg2.N) :
    win2_0.index t 0 = t.val % 489 ∧ win2_1.index t 0 = t.val % 489 ∧ win2_2.index t 0 = t.val % 489 := by
  have h1 := coords_snd t
  have hb : t.val % 489 < 2 ^ 32 := by omega
  refine ⟨?_, ?_, ?_⟩
  · show (BitVec.ofNat 32 (grid2.coords t 1).val).toNat = _
    rw [BitVec.toNat_ofNat, h1, Nat.mod_eq_of_lt hb]
  · show (BitVec.ofNat 32 (grid2.coords t 1).val).toNat = _
    rw [BitVec.toNat_ofNat, h1, Nat.mod_eq_of_lt hb]
  · show (BitVec.ofNat 32 (grid2.coords t 1).val).toNat = _
    rw [BitVec.toNat_ofNat, h1, Nat.mod_eq_of_lt hb]

/-- The table window's block index at point `t` is `(t / 489, 0, 0)`: eight rows of the table, all of their columns. -/
private theorem index_table (t : Fin cfg2.N) :
    win2_3.index t 0 = t.val / 489 ∧ win2_3.index t 1 = 0 ∧ win2_3.index t 2 = 0 := by
  have hN : t.val < 31296 := lt_of_lt_of_eq t.isLt (show cfg2.N = 31296 from N_2)
  have h0 := coords_fst t
  have hb : t.val / 489 < 2 ^ 32 := by omega
  refine ⟨?_, rfl, rfl⟩
  show (BitVec.ofNat 32 (grid2.coords t 0).val).toNat = _
  rw [BitVec.toNat_ofNat, h0, Nat.mod_eq_of_lt hb]

/-! ## A block of a stream is a stretch of the stream -/

/-- A block of 2048 words that agrees, word by word, with chunk `k` of a stream holds the stream's tokens of positions
    `k · 2048 + r`. -/
private theorem tok_of_chunk (X : IVec S1001472 32) (x : Vec Ideal S2048 .i32) (k : ℕ) (hk : k < 489)
    (hx : ∀ (r : ℕ) (hr : r < 2048) (h' : k * 2048 + r < 1001472),
      x (ValueIdx.ix1 ⟨r, hr⟩) = X (ValueIdx.ix1 ⟨k * 2048 + r, h'⟩))
    (r : ℕ) (hr : r < 2048) : tokN x r = tokN X (k * 2048 + r) := by
  have h' : k * 2048 + r < 1001472 := by omega
  rw [tokN_lt x hr, tokN_lt X h']
  exact hx r hr h'

/-- The three streams the pass reads, as the region finds them. -/
private abbrev stream0 (c : Dev nD) : IVec S1001472 32 := V c main_v14
private abbrev stream1 (c : Dev nD) : IVec S1001472 32 := V c main_v16
private abbrev stream2 (c : Dev nD) : IVec S1001472 32 := V c main_v18

/-- Word `r` of the first stream's block at point `t` is word `(t % 489) · 2048 + r` of the stream. -/
private theorem block0_apply (c : Dev nD) (t : Fin cfg2.N) (r : ℕ) (hr : r < 2048) (h' : t.val % 489 * 2048 + r < 1001472) :
    (iblk2 V c 0 t : Vec Ideal S2048 .i32) (ValueIdx.ix1 ⟨r, hr⟩) = stream0 V c (ValueIdx.ix1 ⟨t.val % 489 * 2048 + r, h'⟩) := by
  show V c main_v14 (((cfg2.win 0).blk t).view.emb (ValueIdx.ix1 (⟨r, hr⟩ : Fin 2048) : S2048.Idx)) = V c main_v14 _
  congr 1
  funext a
  apply Fin.ext
  match a with
  | ⟨0, _⟩ =>
    show win2_0.index t 0 * 2048 + 1 * r = t.val % 489 * 2048 + r
    rw [(index_streams t).1]; omega

private theorem block1_apply (c : Dev nD) (t : Fin cfg2.N) (r : ℕ) (hr : r < 2048) (h' : t.val % 489 * 2048 + r < 1001472) :
    (iblk2 V c 1 t : Vec Ideal S2048 .i32) (ValueIdx.ix1 ⟨r, hr⟩) = stream1 V c (ValueIdx.ix1 ⟨t.val % 489 * 2048 + r, h'⟩) := by
  show V c main_v16 (((cfg2.win 1).blk t).view.emb (ValueIdx.ix1 (⟨r, hr⟩ : Fin 2048) : S2048.Idx)) = V c main_v16 _
  congr 1
  funext a
  apply Fin.ext
  match a with
  | ⟨0, _⟩ =>
    show win2_1.index t 0 * 2048 + 1 * r = t.val % 489 * 2048 + r
    rw [(index_streams t).2.1]; omega

private theorem block2_apply (c : Dev nD) (t : Fin cfg2.N) (r : ℕ) (hr : r < 2048) (h' : t.val % 489 * 2048 + r < 1001472) :
    (iblk2 V c 2 t : Vec Ideal S2048 .i32) (ValueIdx.ix1 ⟨r, hr⟩) = stream2 V c (ValueIdx.ix1 ⟨t.val % 489 * 2048 + r, h'⟩) := by
  show V c main_v18 (((cfg2.win 2).blk t).view.emb (ValueIdx.ix1 (⟨r, hr⟩ : Fin 2048) : S2048.Idx)) = V c main_v18 _
  congr 1
  funext a
  apply Fin.ext
  match a with
  | ⟨0, _⟩ =>
    show win2_2.index t 0 * 2048 + 1 * r = t.val % 489 * 2048 + r
    rw [(index_streams t).2.2]; omega

/-- What one point adds at a triple: the matches among the 2048 positions of its blocks are the matches among positions
    `(t % 489) · 2048 + r` of the streams, the first token compared with row `(t / 489) · 8 + bc`. -/
private theorem point_sum (c : Dev nD) (T : Fin cfg2.N) (bc : Fin 8) (c1 t : Fin 512) :
    (∑ r ∈ Finset.range 2048, ind (tokN (iblk2 V c 0 T : Vec Ideal S2048 .i32) r = BitVec.ofNat 32 ((grid2.coords T 0).val * 8 + bc.val)
        ∧ tokN (iblk2 V c 1 T : Vec Ideal S2048 .i32) r = BitVec.ofNat 32 c1.val
        ∧ tokN (iblk2 V c 2 T : Vec Ideal S2048 .i32) r = BitVec.ofNat 32 t.val))
      = ∑ r ∈ Finset.range 2048, ind (tokN (stream0 V c) (T.val % 489 * 2048 + r) = BitVec.ofNat 32 (T.val / 489 * 8 + bc.val)
        ∧ tokN (stream1 V c) (T.val % 489 * 2048 + r) = BitVec.ofNat 32 c1.val
        ∧ tokN (stream2 V c) (T.val % 489 * 2048 + r) = BitVec.ofNat 32 t.val) := by
  have hk : T.val % 489 < 489 := Nat.mod_lt _ (by decide)
  refine Finset.sum_congr rfl fun r hr => ?_
  have hr' : r < 2048 := Finset.mem_range.mp hr
  rw [tok_of_chunk (stream0 V c) (iblk2 V c 0 T) (T.val % 489) hk (fun r hr h' => block0_apply V c T r hr h') r hr',
    tok_of_chunk (stream1 V c) (iblk2 V c 1 T) (T.val % 489) hk (fun r hr h' => block1_apply V c T r hr h') r hr',
    tok_of_chunk (stream2 V c) (iblk2 V c 2 T) (T.val % 489) hk (fun r hr h' => block2_apply V c T r hr h') r hr',
    coords_fst T]

/-! ## The running table: after point `n`, the counts over the first `n % 489 + 1` chunks for block `n / 489` -/

/-- The count the table's block holds at `(bc, c1, t)` after point `n`. -/
private abbrev running (c : Dev nD) (n : ℕ) (bc : Fin 8) (c1 t : Fin 512) : EReal :=
  cnt3 (tokN (stream0 V c)) (tokN (stream1 V c)) (tokN (stream2 V c)) ((n % 489 + 1) * 2048) (n / 489 * 8 + bc.val) c1.val t.val

/-- At a point that starts a block's run (`T % 489 = 0`) the block is reset and holds the first chunk's count. -/
private theorem at_reset (c : Dev nD) (T : Fin cfg2.N) (h0 : T.val % 489 = 0) (bc : Fin 8) (c1 t : Fin 512) :
    outsAt2 V c T.val T.isLt (ValueIdx.ix3 bc c1 t) = running V c T.val bc c1 t := by
  rw [outsAt2_A V c T h0, TriBody.out_A, point_sum V c T bc c1 t]
  show _ = cnt3 _ _ _ ((T.val % 489 + 1) * 2048) _ _ _
  rw [cnt3_chunk, h0, Nat.zero_mul, cnt3_zero, zero_add]

/-- At any other point the block holds what the point before left plus this chunk's count. -/
private theorem at_step (c : Dev nD) (T : Fin cfg2.N) (h0 : ¬T.val % 489 = 0) (bc : Fin 8) (c1 t : Fin 512)
    (ih : outsAt2 V c (T.val - 1) (Nat.lt_of_le_of_lt (Nat.sub_le _ _) T.isLt) (ValueIdx.ix3 bc c1 t) = running V c (T.val - 1) bc c1 t) :
    outsAt2 V c T.val T.isLt (ValueIdx.ix3 bc c1 t) = running V c T.val bc c1 t := by
  rw [outsAt2_B V c T h0, TriBody.out_B, ih, point_sum V c T bc c1 t]
  show cnt3 _ _ _ (((T.val - 1) % 489 + 1) * 2048) ((T.val - 1) / 489 * 8 + bc.val) _ _ + _ = cnt3 _ _ _ ((T.val % 489 + 1) * 2048) _ _ _
  have e1 : (T.val - 1) % 489 + 1 = T.val % 489 := by omega
  have e2 : (T.val - 1) / 489 = T.val / 489 := by omega
  rw [e1, e2]
  exact (cnt3_chunk _ _ _ 2048 (T.val % 489) _ _ _).symm

/-- So after every point the block holds the running count, by induction on the point. -/
private theorem outsAt_eq (c : Dev nD) : ∀ (n : ℕ) (h : n < cfg2.N) (bc : Fin 8) (c1 t : Fin 512),
    outsAt2 V c n h (ValueIdx.ix3 bc c1 t) = running V c n bc c1 t
  | 0, h, bc, c1, t => at_reset V c ⟨0, h⟩ rfl bc c1 t
  | n + 1, h, bc, c1, t => by
    by_cases h0 : (n + 1) % 489 = 0
    · exact at_reset V c ⟨n + 1, h⟩ h0 bc c1 t
    · exact at_step V c ⟨n + 1, h⟩ h0 bc c1 t (outsAt_eq c n (Nat.lt_of_succ_lt h) bc c1 t)

/-! ## What is written back, and where -/

/-- Element `y` of the table's block at point `T` sits in the table at row `(T / 489) · 8 + y₀`, columns `y₁, y₂`. -/
private theorem table_emb (T : Fin cfg2.N) (y : S8x512x512.Idx) (h0 : T.val / 489 * 8 + (y 0).val < 512) :
    ((cfg2.win 3).blk T).view.emb y = (ValueIdx.ix3 ⟨T.val / 489 * 8 + (y 0).val, h0⟩ (y 1) (y 2) : S512x512x512.Idx) := by
  obtain ⟨e0, e1, e2⟩ := index_table T
  funext a
  apply Fin.ext
  match a with
  | ⟨0, _⟩ => show win2_3.index T 0 * 8 + 1 * (y 0).val = T.val / 489 * 8 + (y 0).val; rw [e0]; omega
  | ⟨1, _⟩ => show win2_3.index T 1 * 512 + 1 * (y 1).val = (y 1).val; rw [e1]; omega
  | ⟨2, _⟩ => show win2_3.index T 2 * 512 + 1 * (y 2).val = (y 2).val; rw [e2]; omega

/-- The part of the table's block that is written back is all of it, -/
private theorem table_cut (X : S8x512x512.Idx → EReal) (T : Fin cfg2.N) (y : S8x512x512.Idx) :
    (cfg2.win 3).cut (grid2.coords T) X y = X y := rfl

/-- and a table read through the block at point `T` is the table at the rows `(T / 489) · 8 + y₀`. -/
private theorem table_read (G : S512x512x512.Idx → EReal) (T : Fin cfg2.N) (y : S8x512x512.Idx)
    (h0 : T.val / 489 * 8 + (y 0).val < 512) :
    ((cfg2.win 3).blk T).view.read (Elt Ideal) G y = G (ValueIdx.ix3 ⟨T.val / 489 * 8 + (y 0).val, h0⟩ (y 1) (y 2)) := by
  show G (((cfg2.win 3).blk T).view.emb y) = _
  rw [table_emb T y h0]

/-- The full table at a triple is the count over all 489 chunks. -/
private theorem triK_apply (x0 x1 x2 : IVec S1001472 32) (a b d : Fin 512) :
    triK x0 x1 x2 (ValueIdx.ix3 a b d) = cnt3 (tokN x0) (tokN x1) (tokN x2) 1001472 a.val b.val d.val := rfl

/-- A point that writes its block back is the last of a block's run, and writes the full counts of the block's rows. -/
private theorem flushed_eq (c : Dev nD) (T : Fin cfg2.N) (hf : (cfg2.win 3).flush T = true) :
    (dat2 V c).flushed 3 T
      = ((cfg2.win 3).blk T).view.read (Elt Ideal) (triK (V c main_v14) (V c main_v16) (V c main_v18)) := by
  have hN : T.val < 31296 := lt_of_lt_of_eq T.isLt (show cfg2.N = 31296 from N_2)
  have h488 : T.val % 489 = 488 := (flush2_3 T).mp hf
  show (cfg2.win 3).cut (grid2.coords T) ((dat2 V c).after 3 T) = _
  rw [after2_3]
  funext y
  have hy0 : ((y : S8x512x512.Idx) 0).val < 8 := (y 0).isLt
  have hrow : T.val / 489 * 8 + ((y : S8x512x512.Idx) 0).val < 512 := by omega
  have key : ∀ j : S8x512x512.Idx, outsAt2 V c T.val T.isLt j = running V c T.val (j 0) (j 1) (j 2) := fun j =>
    (congrArg (outsAt2 V c T.val T.isLt) (ValueIdx.eq_ix3 j)).trans (outsAt_eq V c T.val T.isLt (j 0) (j 1) (j 2))
  have full : (T.val % 489 + 1) * 2048 = 1001472 := by omega
  refine (table_cut (outsAt2 V c T.val T.isLt) T y).trans
    (Eq.trans ?_ (table_read (triK (V c main_v14) (V c main_v16) (V c main_v18)) T y hrow).symm)
  refine (key y).trans (Eq.trans ?_
    (triK_apply (V c main_v14) (V c main_v16) (V c main_v18) ⟨T.val / 489 * 8 + ((y : S8x512x512.Idx) 0).val, hrow⟩ (y 1) (y 2)).symm)
  show cnt3 _ _ _ ((T.val % 489 + 1) * 2048) _ _ _ = _
  rw [full]

/-- Every row of the table lies in the block of the last point of its block's run. -/
private theorem covered (i : S512x512x512.Idx) :
    ∃ T : Fin cfg2.N, (cfg2.win 3).flush T = true ∧ i ∈ ((cfg2.win 3).blk T).view.set := by
  have hN : cfg2.N = 31296 := N_2
  have hi0 : (i 0).val < 512 := (i 0).isLt
  have hi1 : (i 1).val < 512 := (i 1).isLt
  have hi2 : (i 2).val < 512 := (i 2).isLt
  have hT : 489 * ((i 0).val / 8) + 488 < cfg2.N := by rw [hN]; omega
  refine ⟨⟨489 * ((i 0).val / 8) + 488, hT⟩, (flush2_3 _).mpr (by show (489 * ((i 0).val / 8) + 488) % 489 = 488; omega), ?_⟩
  obtain ⟨e0, e1, e2⟩ := index_table ⟨489 * ((i 0).val / 8) + 488, hT⟩
  have eq : (489 * ((i 0).val / 8) + 488) / 489 = (i 0).val / 8 := by omega
  show i ∈ ((View.whole main_v19).slice (win2_3.rect ⟨489 * ((i 0).val / 8) + 488, hT⟩)).set
  rw [View.set_slice_whole, Rect.mem_set_unit]
  intro a
  match a with
  | ⟨0, _⟩ =>
    show win2_3.index ⟨489 * ((i 0).val / 8) + 488, hT⟩ 0 * 8 ≤ (i 0).val
      ∧ (i 0).val < win2_3.index ⟨489 * ((i 0).val / 8) + 488, hT⟩ 0 * 8 + 8
    rw [e0]; show (489 * ((i 0).val / 8) + 488) / 489 * 8 ≤ _ ∧ _ < (489 * ((i 0).val / 8) + 488) / 489 * 8 + 8
    rw [eq]; omega
  | ⟨1, _⟩ =>
    show win2_3.index ⟨489 * ((i 0).val / 8) + 488, hT⟩ 1 * 512 ≤ (i 1).val
      ∧ (i 1).val < win2_3.index ⟨489 * ((i 0).val / 8) + 488, hT⟩ 1 * 512 + 512
    rw [e1]; omega
  | ⟨2, _⟩ =>
    show win2_3.index ⟨489 * ((i 0).val / 8) + 488, hT⟩ 2 * 512 ≤ (i 2).val
      ∧ (i 2).val < win2_3.index ⟨489 * ((i 0).val / 8) + 488, hT⟩ 2 * 512 + 512
    rw [e2]; omega

/-- After the trigram pass the result array holds, at each triple, the number of positions where the three padded
    streams hold the triple's tokens. -/
theorem final (c : Dev nD) :
    (dat2 (F := Ideal) V c).arrAt 3 cfg2.N = Cert.Ngram.triK (V c main_v14) (V c main_v16) (V c main_v18) :=
  (dat2 (F := Ideal) V c).arrAt_eq_of_cover 3 (Cert.Ngram.triK (V c main_v14) (V c main_v16) (V c main_v18))
    (flushed_eq V c) covered

end Cert.KernelIdeal.TriValue

end
-- ==== Proof.Pad.lean ====
import proofs.«404493_j65446711657254_1_alg».proof.Proof.Gen.KernelIdeal
import proofs.«404493_j65446711657254_1_alg».proof.Proof.Spec
import Idealize.ShloMosaic.Lib.Pipeline.Value
import Idealize.ShloMosaic.Lib.ValueIdx

noncomputable section

open Idealize.ShloMosaic

namespace Cert.KernelIdeal.PadValue

open Cert.KernelIdeal Cert.KernelIdeal.Gen Cert.Ngram

/-- The padding word, minus one, is no token of the vocabulary. -/
abbrev padWord : IVec S_ 32 := constantI S_ 32 4294967295#32

/-! ## Reading a padded, shifted stream at a position

A stream of `m = n + p` words made of a first piece of `n` words followed by `p` padding words reads the first piece
below `n` and the second piece, at the position less `n`, from `n` on; a window of `n` words of `b` starting at `k` reads
`b` at the position plus `k`; a scalar spread over a whole axis reads the scalar everywhere. -/

section Streams
variable {n p m : ℕ}

/-- The two pieces' lengths add up to the whole stream's. -/
private theorem concat_len (hc : Shape.Concatenates [(⟨1, ![n]⟩ : Shape), ⟨1, ![p]⟩] (⟨1, ![m]⟩ : Shape) 0) : n + p = m := by
  have h := hc.2.2
  simpa using h

/-- Below the first piece's length the joined stream reads the first piece. -/
private theorem tokN_concat_left (x : IVec (⟨1, ![n]⟩ : Shape) 32) (y : IVec (⟨1, ![p]⟩ : Shape) 32)
    (hc : Shape.Concatenates [(⟨1, ![n]⟩ : Shape), ⟨1, ![p]⟩] (⟨1, ![m]⟩ : Shape) 0) {j : ℕ} (hj : j < n) :
    tokN (concatenate (⟨1, ![m]⟩ : Shape) 0 [⟨⟨1, ![n]⟩, x⟩, ⟨⟨1, ![p]⟩, y⟩] hc) j = tokN x j := by
  have hm := concat_len hc
  have hjm : j < m := by omega
  rw [tokN_lt _ hjm, tokN_lt _ hj]
  exact concatenate_pair_apply_left 0 x y hc (ValueIdx.ix1 ⟨j, hjm⟩) rfl (ValueIdx.ix1 ⟨j, hj⟩)
    (fun b => by match b with | ⟨0, _⟩ => rfl)

/-- From the first piece's length on the joined stream reads the second piece, at the position less that length. -/
private theorem tokN_concat_right (x : IVec (⟨1, ![n]⟩ : Shape) 32) (y : IVec (⟨1, ![p]⟩ : Shape) 32)
    (hc : Shape.Concatenates [(⟨1, ![n]⟩ : Shape), ⟨1, ![p]⟩] (⟨1, ![m]⟩ : Shape) 0) {j : ℕ} (hn : n ≤ j) (hj : j < m) :
    tokN (concatenate (⟨1, ![m]⟩ : Shape) 0 [⟨⟨1, ![n]⟩, x⟩, ⟨⟨1, ![p]⟩, y⟩] hc) j = tokN y (j - n) := by
  have hm := concat_len hc
  have hjp : j - n < p := by omega
  rw [tokN_lt _ hj, tokN_lt _ hjp]
  exact concatenate_pair_apply_right 0 x y hc (ValueIdx.ix1 ⟨j, hj⟩) rfl rfl (ValueIdx.ix1 ⟨j - n, hjp⟩)
    (fun b hb => absurd (by match b with | ⟨0, _⟩ => rfl) hb) (by show j - n + n = j; omega)

/-- The padding word spread over an axis is the padding word at every position of the axis. -/
private theorem tokN_padWord (hb : S_.BroadcastsInDim (⟨1, ![p]⟩ : Shape) (![] : Fin 0 → Fin 1)) {j : ℕ} (hj : j < p) :
    tokN (broadcastInDim (⟨1, ![p]⟩ : Shape) ![] hb padWord) j = 4294967295#32 := by
  rw [tokN_lt _ hj]; rfl

/-- A window of `n` words of a stream starting at position `k` reads the stream `k` positions further on. -/
private theorem tokN_slice {N k : ℕ} (b : IVec (⟨1, ![N]⟩ : Shape) 32)
    (hs : (⟨1, ![N]⟩ : Shape).Slices ![k] (⟨1, ![n]⟩ : Shape)) {j : ℕ} (hj : j < n) :
    tokN (extractStridedSlice (⟨1, ![n]⟩ : Shape) ![k] b hs) j = tokN b (j + k) := by
  have hk : k + n ≤ N := hs.2 0
  have hjk : j + k < N := by omega
  rw [tokN_lt _ hj, tokN_lt _ hjk]
  exact extractStridedSlice_apply ![k] b hs (ValueIdx.ix1 ⟨j, hj⟩) (ValueIdx.ix1 ⟨j + k, hjk⟩)
    (fun a => by match a with | ⟨0, _⟩ => show j + k = k + j; omega)

/-- The padding word is the word of no natural number below `2 ^ 32 - 1`, so of no token of a vocabulary of 512. -/
private theorem padWord_ne {v : ℕ} (hv : v < 512) : (4294967295#32 : BitVec 32) ≠ BitVec.ofNat 32 v := by
  intro h
  have h' := congrArg BitVec.toNat h
  rw [BitVec.toNat_ofNat, BitVec.toNat_ofNat] at h'
  omega

/-- From the first piece's length on, a stream padded with the padding word holds no token. -/
private theorem tokN_concat_pad_ne (x : IVec (⟨1, ![n]⟩ : Shape) 32)
    (hb : S_.BroadcastsInDim (⟨1, ![p]⟩ : Shape) (![] : Fin 0 → Fin 1))
    (hc : Shape.Concatenates [(⟨1, ![n]⟩ : Shape), ⟨1, ![p]⟩] (⟨1, ![m]⟩ : Shape) 0) {j v : ℕ} (hn : n ≤ j) (hj : j < m)
    (hv : v < 512) :
    tokN (concatenate (⟨1, ![m]⟩ : Shape) 0 [⟨⟨1, ![n]⟩, x⟩,
      ⟨⟨1, ![p]⟩, broadcastInDim (⟨1, ![p]⟩ : Shape) ![] hb padWord⟩] hc) j ≠ BitVec.ofNat 32 v := by
  have hm := concat_len hc
  rw [tokN_concat_right _ _ hc hn hj, tokN_padWord hb (by omega)]
  exact padWord_ne hv

end Streams

/-- Padding the stream with words that are no token leaves every unigram count what it is over the stream itself. -/
theorem uniK_pad (b : IVec S1000000 32) :
    uniK (concatenate S1003520 0 [⟨S1000000, b⟩, ⟨S3520, broadcastInDim S3520 ![] bcast_S_S3520 padWord⟩]
        concatenates_S1000000_S3520_S1003520_d0)
      = fun i => cnt1 (tokN b) 1000000 (i 0).val := by
  funext i
  have hv : (i 0).val < 512 := (i 0).isLt
  unfold uniK
  show cnt1 (tokN _) (1000000 + 3520) (i 0).val = _
  refine (cnt1_pad _ 1000000 3520 _ (fun j h1 h2 => ?_)).trans ?_
  · exact tokN_concat_pad_ne _ _ _ h1 h2 hv
  · exact cnt1_congr _ (fun j hj => tokN_concat_left _ _ _ hj)

/-- The stream without its last word, and without its first, both padded: the pair counts are those of adjacent
    positions of the stream itself. -/
theorem biK_pad (b : IVec S1000000 32) :
    biK (concatenate S1003520 0 [⟨S999999, extractStridedSlice S999999 ![0] b slices_S1000000_S999999_0⟩,
          ⟨S3521, broadcastInDim S3521 ![] bcast_S_S3521 padWord⟩] concatenates_S999999_S3521_S1003520_d0)
        (concatenate S1003520 0 [⟨S999999, extractStridedSlice S999999 ![1] b slices_S1000000_S999999_1⟩,
          ⟨S3521, broadcastInDim S3521 ![] bcast_S_S3521 padWord⟩] concatenates_S999999_S3521_S1003520_d0)
      = fun i => cnt2 (tokN b) (fun j => tokN b (j + 1)) 999999 (i 0).val (i 1).val := by
  funext i
  have hv : (i 0).val < 512 := (i 0).isLt
  unfold biK
  show cnt2 (tokN _) (tokN _) (999999 + 3521) (i 0).val (i 1).val = _
  refine (cnt2_pad _ _ 999999 3521 _ _ (fun j h1 h2 => ?_)).trans ?_
  · exact tokN_concat_pad_ne _ _ _ h1 h2 hv
  · exact cnt2_congr _ _
      (fun j hj => (tokN_concat_left _ _ _ hj).trans (tokN_slice b _ hj))
      (fun j hj => (tokN_concat_left _ _ _ hj).trans (tokN_slice b _ hj))

/-- The three shifted streams, padded: the triple counts are those of adjacent positions of the stream itself. -/
theorem triK_pad (b : IVec S1000000 32) :
    triK (concatenate S1001472 0 [⟨S999998, extractStridedSlice S999998 ![0] b slices_S1000000_S999998_0⟩,
          ⟨S1474, broadcastInDim S1474 ![] bcast_S_S1474 padWord⟩] concatenates_S999998_S1474_S1001472_d0)
        (concatenate S1001472 0 [⟨S999998, extractStridedSlice S999998 ![1] b slices_S1000000_S999998_1⟩,
          ⟨S1474, broadcastInDim S1474 ![] bcast_S_S1474 padWord⟩] concatenates_S999998_S1474_S1001472_d0)
        (concatenate S1001472 0 [⟨S999998, extractStridedSlice S999998 ![2] b slices_S1000000_S999998_2⟩,
          ⟨S1474, broadcastInDim S1474 ![] bcast_S_S1474 padWord⟩] concatenates_S999998_S1474_S1001472_d0)
      = fun i => cnt3 (tokN b) (fun j => tokN b (j + 1)) (fun j => tokN b (j + 2)) 999998 (i 0).val (i 1).val (i 2).val := by
  funext i
  have hv : (i 0).val < 512 := (i 0).isLt
  unfold triK
  show cnt3 (tokN _) (tokN _) (tokN _) (999998 + 1474) (i 0).val (i 1).val (i 2).val = _
  refine (cnt3_pad _ _ _ 999998 1474 _ _ _ (fun j h1 h2 => ?_)).trans ?_
  · exact tokN_concat_pad_ne _ _ _ h1 h2 hv
  · exact cnt3_congr _ _ _
      (fun j hj => (tokN_concat_left _ _ _ hj).trans (tokN_slice b _ hj))
      (fun j hj => (tokN_concat_left _ _ _ hj).trans (tokN_slice b _ hj))
      (fun j hj => (tokN_concat_left _ _ _ hj).trans (tokN_slice b _ hj))

end Cert.KernelIdeal.PadValue

end
-- ==== Proof.KernelValue.lean ====
import proofs.«404493_j65446711657254_1_alg».proof.Proof.KernelRun
import proofs.«404493_j65446711657254_1_alg».proof.Proof.HostGlue
import proofs.«404493_j65446711657254_1_alg».proof.Proof.Uni
import proofs.«404493_j65446711657254_1_alg».proof.Proof.Bi
import proofs.«404493_j65446711657254_1_alg».proof.Proof.Tri
import proofs.«404493_j65446711657254_1_alg».proof.Proof.Pad
import proofs.«404493_j65446711657254_1_alg».proof.Proof.Spec

set_option maxRecDepth 16384

noncomputable section

open Idealize.ShloMosaic Idealize.ShloMosaic.TcCoe Idealize.SL.Sem

namespace Cert.KernelIdeal.KValue

open Cert.KernelIdeal Cert.KernelIdeal.Gen Cert.Ngram

variable (m : (ℓ : Loc nD τ sig) → Buf (Elt Ideal) ℓ) (ρ : Dev nD → PrngReg)

/-- The first result: the unigram table plus the counts of the stream. The pass counts over the padded stream, the
    padding adds nothing, and the last host operation adds the table. -/
theorem v20_eq (c : Dev nD) : W7 m ρ c (Proc.devRef .tc main_v20)
    = uniG (m ((c : Thread nD τ).loc main_arg0)) (m ((c : Thread nD τ).loc main_arg3)) := by
  rw [Glue.W7_v20, UniValue.final (V1 m ρ) c, Glue.V1_v1, PadValue.uniK_pad]
  rfl

/-- The second result: the bigram table plus the counts of adjacent pairs. -/
theorem v21_eq (c : Dev nD) : W7 m ρ c (Proc.devRef .tc main_v21)
    = biG (m ((c : Thread nD τ).loc main_arg1)) (m ((c : Thread nD τ).loc main_arg3)) := by
  rw [Glue.W7_v21, BiValue.final (V3 m ρ) c, Glue.V3_v6, Glue.V3_v8, PadValue.biK_pad]
  rfl

/-- The third result: the trigram table plus the counts of adjacent triples. -/
theorem v22_eq (c : Dev nD) : W7 m ρ c (Proc.devRef .tc main_v22)
    = triG (m ((c : Thread nD τ).loc main_arg2)) (m ((c : Thread nD τ).loc main_arg3)) := by
  rw [Glue.W7_v22, TriValue.final (V5 m ρ) c, Glue.V5_v14, Glue.V5_v16, Glue.V5_v18, PadValue.triK_pad]
  rfl

/-- Every weakly fair execution of the idealized kernel program terminates without a fault, its three results the
    three tables of the specification and its arguments as launched. -/
theorem run : θ_run (defs (F := Ideal)) (onTc (τ := τ) (main (F := Ideal))) ⟨m, fun _ => 0, ρ⟩ (fun r => ∀ c : Dev nD,
      r.2.mem ((c.tc : Thread nD τ).loc main_v20) = uniG (m ((c.tc : Thread nD τ).loc main_arg0)) (m ((c.tc : Thread nD τ).loc main_arg3))
      ∧ r.2.mem ((c.tc : Thread nD τ).loc main_v21) = biG (m ((c.tc : Thread nD τ).loc main_arg1)) (m ((c.tc : Thread nD τ).loc main_arg3))
      ∧ r.2.mem ((c.tc : Thread nD τ).loc main_v22) = triG (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨(h c).1.trans (v20_eq m ρ c), (h c).2.1.trans (v21_eq m ρ c), (h c).2.2.1.trans (v22_eq m ρ c), (h c).2.2.2⟩)
    (ValueRun.run_W7 m ρ)

end Cert.KernelIdeal.KValue

end
-- ==== Proof.Scatter.lean ====
import proofs.«404493_j65446711657254_1_alg».proof.Proof.Spec
import Idealize.ShloMosaic.PureOps.Ideal
import Idealize.ShloMosaic.Lib.ValueIdx

noncomputable section

open Idealize.ShloMosaic

namespace Cert.Ngram.Scatter

open Idealize.ShloMosaic.ValueIdx

/-! ## The landing condition, and the one-axis update index

  With no update window axes and every operand axis inserted, the window coordinate is zero on every axis, and the
  start on axis `a` is the word in row `j 0`, column `a` of the index table read signed; so update `j` lands at `i`
  exactly when its row of words is `i`'s coordinates, and the sum over the one-axis update indices is the sum over rows. -/

/-- An update lands at `i` exactly when, on every operand axis, the signed start plus the window coordinate is
    `i`'s coordinate: the range conditions are then those of `i` itself. -/
private theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i hh
      have h' := Option.some.inj h
      intro a
      have h1 := congrArg (fun f => (f a).val) h'
      simp only at h1
      have h2 := hh a
      omega
    · exact absurd h (by simp)
  · intro h
    have hh : ∀ a, 0 ≤ d.start j idx a + d.window j a ∧ d.start j idx a + d.window j a < s.size a := by
      intro a
      have h1 := h a
      have h2 := (i a).isLt
      omega
    rw [dif_pos hh]
    congr 1
    funext a
    apply Fin.ext
    have h1 := h a
    simp only
    omega

/-- A one-axis index set is its coordinate's range. -/
private def idxEquiv1 {n : ℕ} : (⟨1, ![n]⟩ : Shape).Idx ≃ Fin n where
  toFun j := j 0
  invFun a := ix1 a
  left_inv j := (eq_ix1 j).symm
  right_inv _ := rfl

/-- A one-axis index has one coordinate: its value at any axis name is its value at axis 0. -/
private theorem coord1 {n : ℕ} (j : (⟨1, ![n]⟩ : Shape).Idx) (x : Fin (⟨1, ![n]⟩ : Shape).rank) : (j x).val = (j 0).val := by
  have hx : x = 0 := Fin.ext (by have h : x.val < 1 := x.isLt; show x.val = 0; omega)
  subst hx; rfl

/-- A scatter-add of one scalar per row of an [n × 1] index table into a one-axis array: the entry at `i` gains the
    updates of the rows whose index word, read signed, is `i`. -/
theorem hostScatterAdd_point1 {N n : ℕ} (d : ScatterDims (⟨1, ![N]⟩ : Shape) (⟨2, ![n, 1]⟩ : Shape) (⟨1, ![n]⟩ : Shape))
    (h1 : d.updateWindowDims = []) (h2 : d.insertedWindowDims = [0]) (h3 : d.scatterDimsToOperandDims = [0])
    (h4 : d.indexVectorDim = 1)
    (x : (⟨1, ![N]⟩ : Shape).Idx → EReal) (idx : IVec (⟨2, ![n, 1]⟩ : Shape) 32) (upd : (⟨1, ![n]⟩ : Shape).Idx → EReal)
    (i : (⟨1, ![N]⟩ : Shape).Idx) :
    Ideal.hostScatterAdd d x idx upd i
      = x i + ∑ j : Fin n, if (idx (ix2 j 0)).toInt = ((i 0).val : ℤ) then upd (ix1 j) else 0 := by
  obtain ⟨uw, iw, sd, iv, wf⟩ := d
  dsimp only at h1 h2 h3 h4
  subst h1 h2 h3 h4
  unfold Ideal.hostScatterAdd
  congr 1
  rw [Finset.sum_filter]
  refine Fintype.sum_equiv idxEquiv1 _ _ (fun j => ?_)
  refine if_congr ?_ (congrArg upd (eq_ix1 j)) rfl
  rw [resultIdx?_eq_some_iff]
  have hw : ∀ a, ScatterDims.window (⟨[], [0], [0], 1, wf⟩ : ScatterDims (⟨1, ![N]⟩ : Shape) (⟨2, ![n, 1]⟩ : Shape) (⟨1, ![n]⟩ : Shape)) j a = 0 := by
    intro a
    unfold ScatterDims.window
    have hk : ScatterDims.sKept (⟨[], [0], [0], 1, wf⟩ : ScatterDims (⟨1, ![N]⟩ : Shape) (⟨2, ![n, 1]⟩ : Shape) (⟨1, ![n]⟩ : Shape)) = [] := rfl
    rw [dif_neg (by rw [hk]; exact List.not_mem_nil)]
  have hsi : ∀ c, ScatterDims.siIdx (⟨[], [0], [0], 1, wf⟩ : ScatterDims (⟨1, ![N]⟩ : Shape) (⟨2, ![n, 1]⟩ : Shape) (⟨1, ![n]⟩ : Shape)) j c = ix2 (j 0) 0 := by
    intro c
    funext b
    match b with
    | ⟨0, _⟩ =>
      apply Fin.ext
      simp only [ScatterDims.siIdx, ScatterDims.siCoord]
      rw [dif_neg (by decide), Fin.coe_cast]
      exact coord1 j _
    | ⟨1, _⟩ =>
      apply Fin.ext
      simp [ScatterDims.siIdx]
  have hs : ScatterDims.start (⟨[], [0], [0], 1, wf⟩ : ScatterDims (⟨1, ![N]⟩ : Shape) (⟨2, ![n, 1]⟩ : Shape) (⟨1, ![n]⟩ : Shape)) j idx 0 = (idx (ix2 (j 0) 0)).toInt := by
    unfold ScatterDims.start
    rw [dif_pos List.mem_cons_self, hsi]
    rfl
  constructor
  · intro h
    have h0 := h 0
    rw [hs, hw, Nat.cast_zero, add_zero] at h0
    exact h0
  · intro h a
    have ha : a = 0 := Fin.ext (by have h' : a.val < 1 := a.isLt; show a.val = 0; omega)
    subst ha
    rw [hs, hw, Nat.cast_zero, add_zero]
    exact h

/-- The same into a two-axis array from an [n × 2] index table: a row lands at `i` when both its words are `i`'s
    coordinates. -/
theorem hostScatterAdd_point2 {N0 N1 n : ℕ}
    (d : ScatterDims (⟨2, ![N0, N1]⟩ : Shape) (⟨2, ![n, 2]⟩ : Shape) (⟨1, ![n]⟩ : Shape))
    (h1 : d.updateWindowDims = []) (h2 : d.insertedWindowDims = [0, 1]) (h3 : d.scatterDimsToOperandDims = [0, 1])
    (h4 : d.indexVectorDim = 1)
    (x : (⟨2, ![N0, N1]⟩ : Shape).Idx → EReal) (idx : IVec (⟨2, ![n, 2]⟩ : Shape) 32)
    (upd : (⟨1, ![n]⟩ : Shape).Idx → EReal) (i : (⟨2, ![N0, N1]⟩ : Shape).Idx) :
    Ideal.hostScatterAdd d x idx upd i
      = x i + ∑ j : Fin n, if (idx (ix2 j 0)).toInt = ((i 0).val : ℤ) ∧ (idx (ix2 j 1)).toInt = ((i 1).val : ℤ)
          then upd (ix1 j) else 0 := by
  obtain ⟨uw, iw, sd, iv, wf⟩ := d
  dsimp only at h1 h2 h3 h4
  subst h1 h2 h3 h4
  unfold Ideal.hostScatterAdd
  congr 1
  rw [Finset.sum_filter]
  refine Fintype.sum_equiv idxEquiv1 _ _ (fun j => ?_)
  refine if_congr ?_ (congrArg upd (eq_ix1 j)) rfl
  rw [resultIdx?_eq_some_iff]
  have hw : ∀ a, ScatterDims.window (⟨[], [0, 1], [0, 1], 1, wf⟩ : ScatterDims (⟨2, ![N0, N1]⟩ : Shape) (⟨2, ![n, 2]⟩ : Shape) (⟨1, ![n]⟩ : Shape)) j a = 0 := by
    intro a
    unfold ScatterDims.window
    have hk : ScatterDims.sKept (⟨[], [0, 1], [0, 1], 1, wf⟩ : ScatterDims (⟨2, ![N0, N1]⟩ : Shape) (⟨2, ![n, 2]⟩ : Shape) (⟨1, ![n]⟩ : Shape)) = [] := rfl
    rw [dif_neg (by rw [hk]; exact List.not_mem_nil)]
  have hsi : ∀ c, ScatterDims.siIdx (⟨[], [0, 1], [0, 1], 1, wf⟩ : ScatterDims (⟨2, ![N0, N1]⟩ : Shape) (⟨2, ![n, 2]⟩ : Shape) (⟨1, ![n]⟩ : Shape)) j c = ix2 (j 0) ⟨c.val, c.isLt⟩ := by
    intro c
    funext b
    match b with
    | ⟨0, _⟩ =>
      apply Fin.ext
      simp only [ScatterDims.siIdx, ScatterDims.siCoord]
      rw [dif_neg (by decide), Fin.coe_cast]
      exact coord1 j _
    | ⟨1, _⟩ =>
      apply Fin.ext
      simp [ScatterDims.siIdx]
  have hs0 : ScatterDims.start (⟨[], [0, 1], [0, 1], 1, wf⟩ : ScatterDims (⟨2, ![N0, N1]⟩ : Shape) (⟨2, ![n, 2]⟩ : Shape) (⟨1, ![n]⟩ : Shape)) j idx 0 = (idx (ix2 (j 0) 0)).toInt := by
    unfold ScatterDims.start
    rw [dif_pos List.mem_cons_self, hsi]
    rfl
  have hs1 : ScatterDims.start (⟨[], [0, 1], [0, 1], 1, wf⟩ : ScatterDims (⟨2, ![N0, N1]⟩ : Shape) (⟨2, ![n, 2]⟩ : Shape) (⟨1, ![n]⟩ : Shape)) j idx 1 = (idx (ix2 (j 0) 1)).toInt := by
    unfold ScatterDims.start
    rw [dif_pos (List.mem_cons_of_mem _ List.mem_cons_self), hsi]
    rfl
  constructor
  · intro h
    have e0 := h 0
    have e1 := h 1
    rw [hs0, hw, Nat.cast_zero, add_zero] at e0
    rw [hs1, hw, Nat.cast_zero, add_zero] at e1
    exact ⟨e0, e1⟩
  · rintro ⟨e0, e1⟩ a
    rw [hw, Nat.cast_zero, add_zero]
    match a with
    | ⟨0, _⟩ => exact hs0.trans e0
    | ⟨1, _⟩ => exact hs1.trans e1

/-- The same into a three-axis array from an [n × 3] index table. -/
theorem hostScatterAdd_point3 {N0 N1 N2 n : ℕ}
    (d : ScatterDims (⟨3, ![N0, N1, N2]⟩ : Shape) (⟨2, ![n, 3]⟩ : Shape) (⟨1, ![n]⟩ : Shape))
    (h1 : d.updateWindowDims = []) (h2 : d.insertedWindowDims = [0, 1, 2]) (h3 : d.scatterDimsToOperandDims = [0, 1, 2])
    (h4 : d.indexVectorDim = 1)
    (x : (⟨3, ![N0, N1, N2]⟩ : Shape).Idx → EReal) (idx : IVec (⟨2, ![n, 3]⟩ : Shape) 32)
    (upd : (⟨1, ![n]⟩ : Shape).Idx → EReal) (i : (⟨3, ![N0, N1, N2]⟩ : Shape).Idx) :
    Ideal.hostScatterAdd d x idx upd i
      = x i + ∑ j : Fin n, if (idx (ix2 j 0)).toInt = ((i 0).val : ℤ) ∧ (idx (ix2 j 1)).toInt = ((i 1).val : ℤ)
            ∧ (idx (ix2 j 2)).toInt = ((i 2).val : ℤ)
          then upd (ix1 j) else 0 := by
  obtain ⟨uw, iw, sd, iv, wf⟩ := d
  dsimp only at h1 h2 h3 h4
  subst h1 h2 h3 h4
  unfold Ideal.hostScatterAdd
  congr 1
  rw [Finset.sum_filter]
  refine Fintype.sum_equiv idxEquiv1 _ _ (fun j => ?_)
  refine if_congr ?_ (congrArg upd (eq_ix1 j)) rfl
  rw [resultIdx?_eq_some_iff]
  have hw : ∀ a, ScatterDims.window (⟨[], [0, 1, 2], [0, 1, 2], 1, wf⟩ : ScatterDims (⟨3, ![N0, N1, N2]⟩ : Shape) (⟨2, ![n, 3]⟩ : Shape) (⟨1, ![n]⟩ : Shape)) j a = 0 := by
    intro a
    unfold ScatterDims.window
    have hk : ScatterDims.sKept (⟨[], [0, 1, 2], [0, 1, 2], 1, wf⟩ : ScatterDims (⟨3, ![N0, N1, N2]⟩ : Shape) (⟨2, ![n, 3]⟩ : Shape) (⟨1, ![n]⟩ : Shape)) = [] := rfl
    rw [dif_neg (by rw [hk]; exact List.not_mem_nil)]
  have hsi : ∀ c, ScatterDims.siIdx (⟨[], [0, 1, 2], [0, 1, 2], 1, wf⟩ : ScatterDims (⟨3, ![N0, N1, N2]⟩ : Shape) (⟨2, ![n, 3]⟩ : Shape) (⟨1, ![n]⟩ : Shape)) j c = ix2 (j 0) ⟨c.val, c.isLt⟩ := by
    intro c
    funext b
    match b with
    | ⟨0, _⟩ =>
      apply Fin.ext
      simp only [ScatterDims.siIdx, ScatterDims.siCoord]
      rw [dif_neg (by decide), Fin.coe_cast]
      exact coord1 j _
    | ⟨1, _⟩ =>
      apply Fin.ext
      simp [ScatterDims.siIdx]
  have hs0 : ScatterDims.start (⟨[], [0, 1, 2], [0, 1, 2], 1, wf⟩ : ScatterDims (⟨3, ![N0, N1, N2]⟩ : Shape) (⟨2, ![n, 3]⟩ : Shape) (⟨1, ![n]⟩ : Shape)) j idx 0 = (idx (ix2 (j 0) 0)).toInt := by
    unfold ScatterDims.start
    rw [dif_pos List.mem_cons_self, hsi]
    rfl
  have hs1 : ScatterDims.start (⟨[], [0, 1, 2], [0, 1, 2], 1, wf⟩ : ScatterDims (⟨3, ![N0, N1, N2]⟩ : Shape) (⟨2, ![n, 3]⟩ : Shape) (⟨1, ![n]⟩ : Shape)) j idx 1 = (idx (ix2 (j 0) 1)).toInt := by
    unfold ScatterDims.start
    rw [dif_pos (List.mem_cons_of_mem _ List.mem_cons_self), hsi]
    rfl
  have hs2 : ScatterDims.start (⟨[], [0, 1, 2], [0, 1, 2], 1, wf⟩ : ScatterDims (⟨3, ![N0, N1, N2]⟩ : Shape) (⟨2, ![n, 3]⟩ : Shape) (⟨1, ![n]⟩ : Shape)) j idx 2 = (idx (ix2 (j 0) 2)).toInt := by
    unfold ScatterDims.start
    rw [dif_pos (List.mem_cons_of_mem _ (List.mem_cons_of_mem _ List.mem_cons_self)), hsi]
    rfl
  constructor
  · intro h
    have e0 := h 0
    have e1 := h 1
    have e2 := h 2
    rw [hs0, hw, Nat.cast_zero, add_zero] at e0
    rw [hs1, hw, Nat.cast_zero, add_zero] at e1
    rw [hs2, hw, Nat.cast_zero, add_zero] at e2
    exact ⟨e0, e1, e2⟩
  · rintro ⟨e0, e1, e2⟩ a
    rw [hw, Nat.cast_zero, add_zero]
    match a with
    | ⟨0, _⟩ => exact hs0.trans e0
    | ⟨1, _⟩ => exact hs1.trans e1
    | ⟨2, _⟩ => exact hs2.trans e2

end Cert.Ngram.Scatter

end
-- ==== Proof.RefRun.lean ====
import proofs.«404493_j65446711657254_1_alg».proof.Defs
import proofs.«404493_j65446711657254_1_alg».proof.Proof.Gen.ReferenceIdeal.Run
import proofs.«404493_j65446711657254_1_alg».proof.Proof.Gen.ReferenceIdeal.Read
import proofs.«404493_j65446711657254_1_alg».proof.Proof.Spec
import proofs.«404493_j65446711657254_1_alg».proof.Proof.Scatter
import Idealize.ShloMosaic.Lib.Pipeline.Value
import Idealize.ShloMosaic.Lib.ValueIdx
import Idealize.ShloMosaic.Lib.IdealHost

noncomputable section

open Idealize.ShloMosaic Idealize.ShloMosaic.TcCoe Idealize.SL.Sem

namespace Cert.ReferenceIdeal.RefValue

open Cert.ReferenceIdeal Cert.ReferenceIdeal.Gen Cert.ReferenceIdeal.Read Cert.Ngram

/-! ## Words: a non-negative word is left alone by the wrap-around of negative indices, and reading a word signed
    and comparing it with a small natural number is comparing the word with that number's word -/

/-- A word whose signed reading is non-negative is not below the zero word in the signed order. -/
private theorem slt_zero_of_nonneg (w : BitVec 32) (hw : 0 ≤ w.toInt) : IntOp.cmpi .slt w 0#32 = 0#1 := by
  have e : w.slt 0#32 = false := by
    rw [BitVec.slt]; simp; exact hw
  unfold IntOp.cmpi
  rw [e]; rfl

/-- So the select "if the word is negative take the word plus 512, else the word" leaves such a word alone. -/
private theorem wrap_of_nonneg (w : BitVec 32) (hw : 0 ≤ w.toInt) :
    Scalar.select (IntOp.cmpi .slt w 0#32) (IntOp.addi w 512#32) w = w := by
  rw [slt_zero_of_nonneg w hw]; exact ValueIdx.select_zero _ _

/-- A word reads signed as the natural number `v` below 512 exactly when it is `v`'s word. -/
private theorem toInt_eq_iff (w : BitVec 32) (v : ℕ) (hv : v < 512) : w.toInt = (v : ℤ) ↔ w = BitVec.ofNat 32 v := by
  have hn : (BitVec.ofNat 32 v).toNat = v := by
    rw [BitVec.toNat_ofNat]; exact Nat.mod_eq_of_lt (by omega)
  have hb : (BitVec.ofNat 32 v).toInt = (v : ℤ) := by
    rw [BitVec.toInt_eq_toNat_of_lt (by rw [hn]; omega), hn]
  constructor
  · intro h; apply BitVec.eq_of_toInt_eq; rw [h, hb]
  · rintro rfl; exact hb

/-- One when the word reads as `v`, else zero, is the indicator of the word being `v`'s. -/
private theorem hit1 (w : BitVec 32) (v : ℕ) (hv : v < 512) :
    (if w.toInt = (v : ℤ) then (1 : EReal) else 0) = ind (w = BitVec.ofNat 32 v) := by
  unfold ind; exact if_congr (toInt_eq_iff w v hv) rfl rfl

/-- The same for a pair of words. -/
private theorem hit2 (w0 w1 : BitVec 32) (v0 v1 : ℕ) (h0 : v0 < 512) (h1 : v1 < 512) :
    (if w0.toInt = (v0 : ℤ) ∧ w1.toInt = (v1 : ℤ) then (1 : EReal) else 0)
      = ind (w0 = BitVec.ofNat 32 v0 ∧ w1 = BitVec.ofNat 32 v1) := by
  unfold ind; exact if_congr (and_congr (toInt_eq_iff w0 v0 h0) (toInt_eq_iff w1 v1 h1)) rfl rfl

/-- The same for a triple of words. -/
private theorem hit3 (w0 w1 w2 : BitVec 32) (v0 v1 v2 : ℕ) (h0 : v0 < 512) (h1 : v1 < 512) (h2 : v2 < 512) :
    (if w0.toInt = (v0 : ℤ) ∧ w1.toInt = (v1 : ℤ) ∧ w2.toInt = (v2 : ℤ) then (1 : EReal) else 0)
      = ind (w0 = BitVec.ofNat 32 v0 ∧ w1 = BitVec.ofNat 32 v1 ∧ w2 = BitVec.ofNat 32 v2) := by
  unfold ind
  exact if_congr (and_congr (toInt_eq_iff w0 v0 h0) (and_congr (toInt_eq_iff w1 v1 h1) (toInt_eq_iff w2 v2 h2))) rfl rfl

/-! ## The unigram stage -/

/-- Row `j` of the unigram index table is the stream's word at `j`. -/
private theorem v5_row (x3 : (⟨S1000000, .i32⟩ : BufTy).Contents (Elt Ideal))
    (h : ∀ j : Fin 1000000, 0 ≤ ((x3 : IVec S1000000 32) (ValueIdx.ix1 j)).toInt) (j : Fin 1000000) :
    val_main_v5 (F := Ideal) x3 (ValueIdx.ix2 j 0) = (x3 : IVec S1000000 32) (ValueIdx.ix1 j) := by
  have e : idx_main_v5 (ValueIdx.ix2 j (0 : Fin 1)) = ValueIdx.ix1 j := by
    funext a; match a with | ⟨0, _⟩ => rfl
  rw [val_main_v5_apply, e, val_main_v4_apply, val_main_v1_apply, val_main_v3_apply, val_main_v0_apply,
    val_main_v2_apply, val_main_c_apply, val_main_c_0_apply]
  exact wrap_of_nonneg _ (h j)

/-- Every update of the unigram stage is one. -/
private theorem v6_row (j : S1000000.Idx) : val_main_v6 (F := Ideal) j = (1 : EReal) := by
  rw [val_main_v6_apply, val_main_cst_apply]
  exact Ideal.ofBits_one_f32

/-- On a stream of non-negative words the reference's unigram scatter-add is the unigram table of the stream. -/
theorem v7_eq (x0 : (⟨S512, .f32⟩ : BufTy).Contents (Elt Ideal)) (x3 : (⟨S1000000, .i32⟩ : BufTy).Contents (Elt Ideal))
    (h : ∀ j : Fin 1000000, 0 ≤ ((x3 : IVec S1000000 32) (ValueIdx.ix1 j)).toInt) :
    val_main_v7 (F := Ideal) x0 x3 = uniG x0 x3 := by
  funext i
  show Ideal.hostScatterAdd scatter_S512_S1000000x1_S1000000_n_0_0_1 x0 (val_main_v5 (F := Ideal) x3)
    (val_main_v6 (F := Ideal)) i = x0 i + cnt1 (tokN x3) 1000000 (i 0).val
  rw [Scatter.hostScatterAdd_point1 scatter_S512_S1000000x1_S1000000_n_0_0_1 rfl rfl rfl rfl]
  refine congrArg (x0 i + ·) ?_
  unfold cnt1
  rw [Finset.sum_range]
  refine Finset.sum_congr rfl fun j _ => ?_
  rw [v5_row x3 h j, v6_row, tokN_lt x3 j.isLt]
  exact hit1 _ _ (i 0).isLt

/-! ## The bigram stage -/

/-- Row `j` of the bigram table's first column is the stream's word at `j`. -/
private theorem v20_row (x3 : (⟨S1000000, .i32⟩ : BufTy).Contents (Elt Ideal))
    (h : ∀ j : Fin 1000000, 0 ≤ ((x3 : IVec S1000000 32) (ValueIdx.ix1 j)).toInt) (j : Fin 999999) :
    val_main_v20 (F := Ideal) x3 (ValueIdx.ix2 j 0) = tokN x3 (j.val) := by
  have hj : j.val < 1000000 := by have := j.isLt; omega
  have e1 : idx_main_v20 (ValueIdx.ix2 j (0 : Fin 1)) = ValueIdx.ix1 j := by
    funext a; match a with | ⟨0, _⟩ => rfl
  have e2 : idx_main_v8 (ValueIdx.ix1 j) = ValueIdx.ix1 ⟨j.val, hj⟩ := by
    funext a; match a with | ⟨0, _⟩ => rfl
  rw [val_main_v20_apply, e1, val_main_v14_apply, val_main_v11_apply, val_main_v13_apply, val_main_v10_apply,
    val_main_v12_apply, val_main_c_1_apply, val_main_c_2_apply, val_main_v8_apply, e2, tokN_lt x3 hj]
  exact wrap_of_nonneg _ (h ⟨j.val, hj⟩)

/-- Row `j` of its second column is the stream's word at `j + 1`. -/
private theorem v21_row (x3 : (⟨S1000000, .i32⟩ : BufTy).Contents (Elt Ideal))
    (h : ∀ j : Fin 1000000, 0 ≤ ((x3 : IVec S1000000 32) (ValueIdx.ix1 j)).toInt) (j : Fin 999999) :
    val_main_v21 (F := Ideal) x3 (ValueIdx.ix2 j 0) = tokN x3 (j.val + 1) := by
  have hj : j.val + 1 < 1000000 := by have := j.isLt; omega
  have e1 : idx_main_v21 (ValueIdx.ix2 j (0 : Fin 1)) = ValueIdx.ix1 j := by
    funext a; match a with | ⟨0, _⟩ => rfl
  have e2 : idx_main_v9 (ValueIdx.ix1 j) = ValueIdx.ix1 ⟨j.val + 1, hj⟩ := by
    funext a; match a with | ⟨0, _⟩ => exact Fin.ext (Nat.add_comm 1 j.val)
  rw [val_main_v21_apply, e1, val_main_v19_apply, val_main_v16_apply, val_main_v18_apply, val_main_v15_apply,
    val_main_v17_apply, val_main_c_3_apply, val_main_c_4_apply, val_main_v9_apply, e2, tokN_lt x3 hj]
  exact wrap_of_nonneg _ (h ⟨j.val + 1, hj⟩)

/-- The joined table's column 0 is the first column. -/
private theorem v22_col0 (x3 : (⟨S1000000, .i32⟩ : BufTy).Contents (Elt Ideal)) (j : Fin 999999) :
    val_main_v22 (F := Ideal) x3 (ValueIdx.ix2 j 0) = val_main_v20 (F := Ideal) x3 (ValueIdx.ix2 j 0) := by
  unfold val_main_v22
  exact concatenate_pair_apply_left _ _ _ concatenates_S999999x1_S999999x1_S999999x2_d1 (ValueIdx.ix2 j 0) rfl
    (ValueIdx.ix2 j 0) (fun b => match b with | ⟨0, _⟩ => rfl | ⟨1, _⟩ => rfl)

/-- The joined table's column 1 is the second column. -/
private theorem v22_col1 (x3 : (⟨S1000000, .i32⟩ : BufTy).Contents (Elt Ideal)) (j : Fin 999999) :
    val_main_v22 (F := Ideal) x3 (ValueIdx.ix2 j 1) = val_main_v21 (F := Ideal) x3 (ValueIdx.ix2 j 0) := by
  unfold val_main_v22
  exact concatenate_pair_apply_right _ _ _ concatenates_S999999x1_S999999x1_S999999x2_d1 (ValueIdx.ix2 j 1) rfl rfl
    (ValueIdx.ix2 j 0) (fun b hb => match b, hb with | ⟨0, _⟩, _ => rfl | ⟨1, _⟩, hb => (hb (Fin.ext rfl)).elim) rfl

/-- Every update of the bigram stage is one. -/
private theorem v23_row (j : S999999.Idx) : val_main_v23 (F := Ideal) j = (1 : EReal) := by
  rw [val_main_v23_apply, val_main_cst_5_apply]
  exact Ideal.ofBits_one_f32

/-- Likewise its bigram scatter-add is the bigram table. -/
theorem v24_eq (x1 : (⟨S512x512, .f32⟩ : BufTy).Contents (Elt Ideal)) (x3 : (⟨S1000000, .i32⟩ : BufTy).Contents (Elt Ideal))
    (h : ∀ j : Fin 1000000, 0 ≤ ((x3 : IVec S1000000 32) (ValueIdx.ix1 j)).toInt) :
    val_main_v24 (F := Ideal) x1 x3 = biG x1 x3 := by
  funext i
  show Ideal.hostScatterAdd scatter_S512x512_S999999x2_S999999_n_01_01_1 x1 (val_main_v22 (F := Ideal) x3)
    (val_main_v23 (F := Ideal)) i
      = x1 i + cnt2 (tokN x3) (fun j => tokN x3 (j + 1)) 999999 (i 0).val (i 1).val
  rw [Scatter.hostScatterAdd_point2 scatter_S512x512_S999999x2_S999999_n_01_01_1 rfl rfl rfl rfl]
  refine congrArg (x1 i + ·) ?_
  unfold cnt2
  rw [Finset.sum_range]
  refine Finset.sum_congr rfl fun j _ => ?_
  rw [v22_col0, v22_col1, v20_row x3 h j, v21_row x3 h j, v23_row]
  exact hit2 _ _ _ _ (i 0).isLt (i 1).isLt

/-! ## The trigram stage -/

/-- Row `j` of the trigram table's first column is the stream's word at `j`. -/
private theorem v43_row (x3 : (⟨S1000000, .i32⟩ : BufTy).Contents (Elt Ideal))
    (h : ∀ j : Fin 1000000, 0 ≤ ((x3 : IVec S1000000 32) (ValueIdx.ix1 j)).toInt) (j : Fin 999998) :
    val_main_v43 (F := Ideal) x3 (ValueIdx.ix2 j 0) = tokN x3 (j.val) := by
  have hj : j.val < 1000000 := by have := j.isLt; omega
  have e1 : idx_main_v43 (ValueIdx.ix2 j (0 : Fin 1)) = ValueIdx.ix1 j := by
    funext a; match a with | ⟨0, _⟩ => rfl
  have e2 : idx_main_v25 (ValueIdx.ix1 j) = ValueIdx.ix1 ⟨j.val, hj⟩ := by
    funext a; match a with | ⟨0, _⟩ => rfl
  rw [val_main_v43_apply, e1, val_main_v32_apply, val_main_v29_apply, val_main_v31_apply, val_main_v28_apply,
    val_main_v30_apply, val_main_c_6_apply, val_main_c_7_apply, val_main_v25_apply, e2, tokN_lt x3 hj]
  exact wrap_of_nonneg _ (h ⟨j.val, hj⟩)

/-- Row `j` of its second column is the stream's word at `j + 1`. -/
private theorem v44_row (x3 : (⟨S1000000, .i32⟩ : BufTy).Contents (Elt Ideal))
    (h : ∀ j : Fin 1000000, 0 ≤ ((x3 : IVec S1000000 32) (ValueIdx.ix1 j)).toInt) (j : Fin 999998) :
    val_main_v44 (F := Ideal) x3 (ValueIdx.ix2 j 0) = tokN x3 (j.val + 1) := by
  have hj : j.val + 1 < 1000000 := by have := j.isLt; omega
  have e1 : idx_main_v44 (ValueIdx.ix2 j (0 : Fin 1)) = ValueIdx.ix1 j := by
    funext a; match a with | ⟨0, _⟩ => rfl
  have e2 : idx_main_v26 (ValueIdx.ix1 j) = ValueIdx.ix1 ⟨j.val + 1, hj⟩ := by
    funext a; match a with | ⟨0, _⟩ => exact Fin.ext (Nat.add_comm 1 j.val)
  rw [val_main_v44_apply, e1, val_main_v37_apply, val_main_v34_apply, val_main_v36_apply, val_main_v33_apply,
    val_main_v35_apply, val_main_c_8_apply, val_main_c_9_apply, val_main_v26_apply, e2, tokN_lt x3 hj]
  exact wrap_of_nonneg _ (h ⟨j.val + 1, hj⟩)

/-- Row `j` of its third column is the stream's word at `j + 2`. -/
private theorem v45_row (x3 : (⟨S1000000, .i32⟩ : BufTy).Contents (Elt Ideal))
    (h : ∀ j : Fin 1000000, 0 ≤ ((x3 : IVec S1000000 32) (ValueIdx.ix1 j)).toInt) (j : Fin 999998) :
    val_main_v45 (F := Ideal) x3 (ValueIdx.ix2 j 0) = tokN x3 (j.val + 2) := by
  have hj : j.val + 2 < 1000000 := by have := j.isLt; omega
  have e1 : idx_main_v45 (ValueIdx.ix2 j (0 : Fin 1)) = ValueIdx.ix1 j := by
    funext a; match a with | ⟨0, _⟩ => rfl
  have e2 : idx_main_v27 (ValueIdx.ix1 j) = ValueIdx.ix1 ⟨j.val + 2, hj⟩ := by
    funext a; match a with | ⟨0, _⟩ => exact Fin.ext (Nat.add_comm 2 j.val)
  rw [val_main_v45_apply, e1, val_main_v42_apply, val_main_v39_apply, val_main_v41_apply, val_main_v38_apply,
    val_main_v40_apply, val_main_c_10_apply, val_main_c_11_apply, val_main_v27_apply, e2, tokN_lt x3 hj]
  exact wrap_of_nonneg _ (h ⟨j.val + 2, hj⟩)

/-- The joined table's column 0 is the first column. -/
private theorem v46_col0 (x3 : (⟨S1000000, .i32⟩ : BufTy).Contents (Elt Ideal)) (j : Fin 999998) :
    val_main_v46 (F := Ideal) x3 (ValueIdx.ix2 j 0) = val_main_v43 (F := Ideal) x3 (ValueIdx.ix2 j 0) := by
  unfold val_main_v46
  refine concatenate_apply_piece (α := BitVec 32) (1 : Fin S999998x3.rank)
    [⟨S999998x1, val_main_v43 (F := Ideal) x3⟩, ⟨S999998x1, val_main_v44 (F := Ideal) x3⟩,
      ⟨S999998x1, val_main_v45 (F := Ideal) x3⟩]
    concatenates_S999998x1_S999998x1_S999998x1_S999998x3_d1 (ValueIdx.ix2 j 0) 0 (by simp)
    S999998x1 (val_main_v43 (F := Ideal) x3) rfl rfl 0 rfl (ValueIdx.ix2 j 0) ?_ rfl
  intro b hb
  match b, hb with
  | ⟨0, _⟩, _ => rfl
  | ⟨1, _⟩, hb => exact (hb (Fin.ext rfl)).elim

/-- The joined table's column 1 is the second column. -/
private theorem v46_col1 (x3 : (⟨S1000000, .i32⟩ : BufTy).Contents (Elt Ideal)) (j : Fin 999998) :
    val_main_v46 (F := Ideal) x3 (ValueIdx.ix2 j 1) = val_main_v44 (F := Ideal) x3 (ValueIdx.ix2 j 0) := by
  unfold val_main_v46
  refine concatenate_apply_piece (α := BitVec 32) (1 : Fin S999998x3.rank)
    [⟨S999998x1, val_main_v43 (F := Ideal) x3⟩, ⟨S999998x1, val_main_v44 (F := Ideal) x3⟩,
      ⟨S999998x1, val_main_v45 (F := Ideal) x3⟩]
    concatenates_S999998x1_S999998x1_S999998x1_S999998x3_d1 (ValueIdx.ix2 j 1) 1 (by simp)
    S999998x1 (val_main_v44 (F := Ideal) x3) rfl rfl 1 rfl (ValueIdx.ix2 j 0) ?_ rfl
  intro b hb
  match b, hb with
  | ⟨0, _⟩, _ => rfl
  | ⟨1, _⟩, hb => exact (hb (Fin.ext rfl)).elim

/-- The joined table's column 2 is the third column. -/
private theorem v46_col2 (x3 : (⟨S1000000, .i32⟩ : BufTy).Contents (Elt Ideal)) (j : Fin 999998) :
    val_main_v46 (F := Ideal) x3 (ValueIdx.ix2 j 2) = val_main_v45 (F := Ideal) x3 (ValueIdx.ix2 j 0) := by
  unfold val_main_v46
  refine concatenate_apply_piece (α := BitVec 32) (1 : Fin S999998x3.rank)
    [⟨S999998x1, val_main_v43 (F := Ideal) x3⟩, ⟨S999998x1, val_main_v44 (F := Ideal) x3⟩,
      ⟨S999998x1, val_main_v45 (F := Ideal) x3⟩]
    concatenates_S999998x1_S999998x1_S999998x1_S999998x3_d1 (ValueIdx.ix2 j 2) 2 (by simp)
    S999998x1 (val_main_v45 (F := Ideal) x3) rfl rfl 2 rfl (ValueIdx.ix2 j 0) ?_ rfl
  intro b hb
  match b, hb with
  | ⟨0, _⟩, _ => rfl
  | ⟨1, _⟩, hb => exact (hb (Fin.ext rfl)).elim

/-- Every update of the trigram stage is one. -/
private theorem v47_row (j : S999998.Idx) : val_main_v47 (F := Ideal) j = (1 : EReal) := by
  rw [val_main_v47_apply, val_main_cst_12_apply]
  exact Ideal.ofBits_one_f32

/-- Likewise its trigram scatter-add is the trigram table. -/
theorem v48_eq (x2 : (⟨S512x512x512, .f32⟩ : BufTy).Contents (Elt Ideal)) (x3 : (⟨S1000000, .i32⟩ : BufTy).Contents (Elt Ideal))
    (h : ∀ j : Fin 1000000, 0 ≤ ((x3 : IVec S1000000 32) (ValueIdx.ix1 j)).toInt) :
    val_main_v48 (F := Ideal) x2 x3 = triG x2 x3 := by
  funext i
  show Ideal.hostScatterAdd scatter_S512x512x512_S999998x3_S999998_n_012_012_1 x2 (val_main_v46 (F := Ideal) x3)
    (val_main_v47 (F := Ideal)) i
      = x2 i + cnt3 (tokN x3) (fun j => tokN x3 (j + 1)) (fun j => tokN x3 (j + 2)) 999998 (i 0).val (i 1).val (i 2).val
  rw [Scatter.hostScatterAdd_point3 scatter_S512x512x512_S999998x3_S999998_n_012_012_1 rfl rfl rfl rfl]
  refine congrArg (x2 i + ·) ?_
  unfold cnt3
  rw [Finset.sum_range]
  refine Finset.sum_congr rfl fun j _ => ?_
  rw [v46_col0, v46_col1, v46_col2, v43_row x3 h j, v44_row x3 h j, v45_row x3 h j, v47_row]
  exact hit3 _ _ _ _ _ _ (i 0).isLt (i 1).isLt (i 2).isLt

end Cert.ReferenceIdeal.RefValue

end
-- ==== Proof.PreDecode.lean ====
import proofs.«404493_j65446711657254_1_alg».proof.Defs
import proofs.«404493_j65446711657254_1_alg».proof.Proof.Gen.Pre_finite_inputs
import proofs.«404493_j65446711657254_1_alg».proof.Proof.Gen.KernelIdeal
import Idealize.ShloMosaic.Lib.ReduceAll
import Idealize.ShloMosaic.Lib.ValueIdx
import Idealize.ShloMosaic.Lib.StableHlo.Predicate

noncomputable section

open Idealize.ShloMosaic Idealize.SL.Sem

namespace Cert.PreDecode

/-- The rank-zero shape has exactly one index. -/
private instance subsingleton_scalarIdx : Subsingleton Cert.Pre_finite_inputs.S_.Idx :=
  ⟨fun a b => funext fun d => d.elim0⟩

/-- Under the precondition every word of the token stream is non-negative read as a signed number. -/
theorem batch_nonneg (m : (ℓ : Loc Cert.KernelIdeal.nD Cert.KernelIdeal.τ Cert.KernelIdeal.sig) → Buf (Elt Ideal) ℓ)
    (h : Cert.Pre_KernelIdeal m) (c : Dev Cert.KernelIdeal.nD) (j : Fin 1000000) :
    0 ≤ ((m ((c.tc : Thread Cert.KernelIdeal.nD Cert.KernelIdeal.τ).loc Cert.KernelIdeal.main_arg3)
      : IVec Cert.KernelIdeal.S1000000 32) (ValueIdx.ix1 j)).toInt := by
  -- the predicate's single output word is 1
  have h0 := congrFun (h c) ValueIdx.ix0
  dsimp only [Cert.Pre_finite_inputs.fn, Cert.Pre_finite_inputs.fn_part1] at h0
  -- it is a conjunction whose last conjunct is the "all tokens ≥ 0" reduction
  have h1 := (IntOp.andi_eq_one.1 h0).2
  -- a reduction by "and" that came out 1 met a 1 at every index
  have h2 := Host.reduce_andi_all _ _ _ _ _ h1 (ValueIdx.ix1 j)
  -- the compared word at index j: 0 ≤ token j, signed
  have h3 := IntOp.cmpi_sge.1 h2
  -- the broadcast scalar reads 0 at every index, and the word 0 is the integer 0
  change (0#32 : BitVec 32).toInt ≤ _ at h3
  rwa [show (0#32 : BitVec 32).toInt = 0 from by decide] at h3

end Cert.PreDecode

end
-- ==== Proof.lean ====
/-
  The kernel counts unigrams, bigrams and trigrams of a stream of 1,000,000 token words by one-hot products: for each
  chunk of the (padded) stream it compares every word with every token id, and sums the 0/1 matches over the chunk —
  directly for single tokens, as a product of two one-hot matrices contracted over the chunk for pairs, and for triples
  the same product masked by a third one-hot, eight leading tokens at a time. The sums are accumulated over the chunks
  and added to the three running tables. The reference adds one at `(t)`, `(c, t)`, `(c0, c1, t)` for every position by
  three scatter-adds. Over the extended reals both are "table entry plus the number of positions holding that token
  (pair, triple)": a finite sum of zeros and ones may be cut into chunks and re-associated freely, the padding words
  (minus one) match no token, and a non-negative word lands in the reference's scatter exactly at the token it is
  (a negative word would be wrapped by the reference's indexing and ignored by the kernel: the precondition excludes it).
  The counting is stated once in Proof/Spec.lean; each program's run is read back to it in its own modules.
-/
import proofs.«404493_j65446711657254_1_alg».proof.Defs
import proofs.«404493_j65446711657254_1_alg».proof.Proof.Gen.Kernel
import proofs.«404493_j65446711657254_1_alg».proof.Proof.Gen.Kernel.Skeleton
import proofs.«404493_j65446711657254_1_alg».proof.Proof.Gen.Kernel.Launch
import proofs.«404493_j65446711657254_1_alg».proof.Proof.Gen.Kernel.Points
import proofs.«404493_j65446711657254_1_alg».proof.Proof.Gen.Kernel.Frame
import proofs.«404493_j65446711657254_1_alg».proof.Proof.Gen.KernelIdeal
import proofs.«404493_j65446711657254_1_alg».proof.Proof.Gen.KernelIdeal.Skeleton
import proofs.«404493_j65446711657254_1_alg».proof.Proof.Gen.KernelIdeal.Launch
import proofs.«404493_j65446711657254_1_alg».proof.Proof.Gen.KernelIdeal.Points
import proofs.«404493_j65446711657254_1_alg».proof.Proof.Gen.KernelIdeal.Frame
import proofs.«404493_j65446711657254_1_alg».proof.Proof.Gen.ReferenceIdeal
import proofs.«404493_j65446711657254_1_alg».proof.Proof.Gen.ReferenceIdeal.Run
import proofs.«404493_j65446711657254_1_alg».proof.Proof.Gen.ReferenceIdeal.Read
import proofs.«404493_j65446711657254_1_alg».proof.Proof.Gen.Pre_finite_inputs
import proofs.«404493_j65446711657254_1_alg».proof.Proof.Spec
import proofs.«404493_j65446711657254_1_alg».proof.Proof.KernelValue
import proofs.«404493_j65446711657254_1_alg».proof.Proof.RefRun
import proofs.«404493_j65446711657254_1_alg».proof.Proof.PreDecode
import Idealize.ShloMosaic.Adequacy
import Idealize.ShloMosaic.Init

noncomputable section

namespace Cert.Proof

open Idealize.ShloMosaic Idealize.ShloMosaic.TcCoe Idealize.SL.Sem Cert.Ngram

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Both programs end with the three tables of the specification: the kernel on every stream, the reference on the
    streams of non-negative words the precondition admits. -/
theorem algebraic : Cert.algebraic_KernelIdeal_ReferenceIdeal := by
  intro m ρ m' ρ' hpre hagree
  refine ⟨fun c => uniG (m ((c.tc : Thread Cert.KernelIdeal.nD Cert.KernelIdeal.τ).loc Cert.KernelIdeal.main_arg0))
            (m ((c.tc : Thread Cert.KernelIdeal.nD Cert.KernelIdeal.τ).loc Cert.KernelIdeal.main_arg3)),
          fun c => biG (m ((c.tc : Thread Cert.KernelIdeal.nD Cert.KernelIdeal.τ).loc Cert.KernelIdeal.main_arg1))
            (m ((c.tc : Thread Cert.KernelIdeal.nD Cert.KernelIdeal.τ).loc Cert.KernelIdeal.main_arg3)),
          fun c => triG (m ((c.tc : Thread Cert.KernelIdeal.nD Cert.KernelIdeal.τ).loc Cert.KernelIdeal.main_arg2))
            (m ((c.tc : Thread Cert.KernelIdeal.nD Cert.KernelIdeal.τ).loc Cert.KernelIdeal.main_arg3)),
          Cert.KernelIdeal.KValue.run m ρ, ?_⟩
  refine (θ_run Cert.ReferenceIdeal.defs _ _).mono (fun r h c => ?_) (Cert.ReferenceIdeal.Value.run (F := Ideal) m' ρ')
  obtain ⟨h7, h24, h48, ha⟩ := h c
  obtain ⟨e0, e1, e2, e3⟩ := hagree c
  have hb : ∀ j : Fin 1000000, 0 ≤ ((m' ((c.tc : Thread Cert.ReferenceIdeal.nD Cert.ReferenceIdeal.τ).loc Cert.ReferenceIdeal.main_arg3)
      : IVec Cert.ReferenceIdeal.S1000000 32) (ValueIdx.ix1 j)).toInt := by
    rw [e3]; exact Cert.PreDecode.batch_nonneg m hpre c
  refine ⟨h7.trans ?_, h24.trans ?_, h48.trans ?_, ha⟩
  · rw [Cert.ReferenceIdeal.Read.val_main_v7_eq, Cert.ReferenceIdeal.RefValue.v7_eq _ _ hb, e0, e3]
  · rw [Cert.ReferenceIdeal.Read.val_main_v24_eq, Cert.ReferenceIdeal.RefValue.v24_eq _ _ hb, e1, e3]
  · rw [Cert.ReferenceIdeal.Read.val_main_v48_eq, Cert.ReferenceIdeal.RefValue.v48_eq _ _ hb, e2, e3]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
